-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S3x128 : Shape := ⟨2, ![3, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64x1 .f32) (main_arg8 : FVec F S1 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S128x64 .f32) (main_arg6 : FVec F S64 .f32) (main_arg7 : FVec F S64x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S262144x3 .f32) (main_arg1 : FVec F S3x128 .f32) (main_arg2 : FVec F S128 .f32) (main_arg3 : FVec F S128x128 .f32) (main_arg4 : FVec F S128 .f32) (main_arg5 : FVec F S128x64 .f32) (main_arg6 : FVec F S64 .f32) (main_arg7 : FVec F S64x1 .f32) (main_arg8 : FVec F S1 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S3x128 .f32 := Host.absf main_arg1
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S262144x3 : Shape := ⟨2, ![262144, 3]⟩
abbrev S3x128 : Shape := ⟨2, ![3, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S262144x4 : Shape := ⟨2, ![262144, 4]⟩
abbrev S2048x3 : Shape := ⟨2, ![2048, 3]⟩
abbrev S2048x4 : Shape := ⟨2, ![2048, 4]⟩
abbrev S2048x128 : Shape := ⟨2, ![2048, 128]⟩
abbrev S1x128 : Shape := ⟨2, ![1, 128]⟩
abbrev S2048x64 : Shape := ⟨2, ![2048, 64]⟩
abbrev S1x64 : Shape := ⟨2, ![1, 64]⟩
abbrev S2048x1 : Shape := ⟨2, ![2048, 1]⟩
abbrev S1x1 : Shape := ⟨2, ![1, 1]⟩

abbrev nBuf : Space → Nat
  | .hbm => 10
  | .vmem => 12
  | .smem => 0
  | _ => 0

abbrev bufTy : (tb : Table) → Fin (tcTables nBuf tb) → BufTy
  | .hbm, ⟨0, _⟩ => ⟨S262144x3, .f32⟩
  | .hbm, ⟨1, _⟩ => ⟨S3x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S262144x4, .f32⟩
  | .local _ .vmem, ⟨0, _⟩ => ⟨S2048x3, .f32⟩
  | .local _ .vmem, ⟨1, _⟩ => ⟨S2048x3, .f32⟩
  | .local _ .vmem, ⟨2, _⟩ => ⟨S3x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S64x1, .f32⟩
  | .local _ .vmem, ⟨9, _⟩ => ⟨S1, .f32⟩
  | .local _ .vmem, ⟨10, _⟩ => ⟨S2048x4, .f32⟩
  | .local _ .vmem, ⟨11, _⟩ => ⟨S2048x4, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S2048x3_S2048x3_0_0 : ∀ a, (![0, 0] : Fin 2 → Nat) a + S2048x3.size a ≤ S2048x3.size a
  h_S2048x3 : 0 < S2048x3.numel
  inb_S3x128_S3x128_0_0 : ∀ a, (![0, 0] : Fin 2 → Nat) a + S3x128.size a ≤ S3x128.size a
  h_S3x128 : 0 < S3x128.numel
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  bitsLt_bf16_f32 : FTy.bits .bf16 < FTy.bits .f32
  shapeCasts_S128_S1x128 : S128.ShapeCasts S1x128
  broadcasts_S1x128_S2048x128 : S1x128.Broadcasts S2048x128
  slices_S3x128_o0_0_S1x128 : S3x128.Slices ![0, 0] S1x128
  slices_S3x128_o1_0_S1x128 : S3x128.Slices ![1, 0] S1x128
  shapeCasts_S64_S1x64 : S64.ShapeCasts S1x64
  broadcasts_S1x64_S2048x64 : S1x64.Broadcasts S2048x64
  shapeCasts_S1_S1x1 : S1.ShapeCasts S1x1
  broadcasts_S1x1_S2048x1 : S1x1.Broadcasts S2048x1
  concatenates_S2048x1_S2048x1_S2048x1_S2048x1_S2048x4_d1 : Shape.Concatenates [S2048x1, S2048x1, S2048x1, S2048x1] S2048x4 1
  inb_S2048x4_S2048x4_0_0 : ∀ a, (![0, 0] : Fin 2 → Nat) a + S2048x4.size a ≤ S2048x4.size a
  h_S2048x4 : 0 < S2048x4.numel
  dot_S2048x3_S3x128_S2048x128_1_0_0_1_n_n_wf : DotDims.WF S2048x3 S3x128 S2048x128 [1] [0] [0] [1] [] []
  dot_S2048x128_S128x128_S2048x128_1_0_0_1_n_n_wf : DotDims.WF S2048x128 S128x128 S2048x128 [1] [0] [0] [1] [] []
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S262144x3.size a
  hwx0_0 : ∀ i : grid0.Coords, EltTy.bits .f32 = 32 ∨ (Rect.block (s := S262144x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x4.size a ≤ S262144x4.size a
  hwx0_9 : ∀ i : grid0.Coords, EltTy.bits .f32 = 32 ∨ (Rect.block (s := S262144x4) S2048x4.size (cc0_transform_9 i) (hinb0_9 i)).WholeWords (EltTy.packing .f32)

variable [Facts₀]

def dot_S2048x3_S3x128_S2048x128_1_0_0_1_n_n : DotDims S2048x3 S3x128 S2048x128 where
  lhsContracting := [1]
  rhsContracting := [0]
  lhsNonContracting := [0]
  rhsNonContracting := [1]
  lhsBatch := []
  rhsBatch := []
  wf := dot_S2048x3_S3x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S2048x4.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x3 : Shape := ⟨2, ![262144, 3]⟩
abbrev S3x128 : Shape := ⟨2, ![3, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S3 : Shape := ⟨1, ![3]⟩
abbrev S262144x128 : Shape := ⟨2, ![262144, 128]⟩
abbrev S1x128 : Shape := ⟨2, ![1, 128]⟩
abbrev S_ : Shape := ⟨0, ![]⟩
abbrev S262144x64 : Shape := ⟨2, ![262144, 64]⟩
abbrev S1x64 : Shape := ⟨2, ![1, 64]⟩
abbrev S262144x1 : Shape := ⟨2, ![262144, 1]⟩
abbrev S1x1 : Shape := ⟨2, ![1, 1]⟩
abbrev S262144 : Shape := ⟨1, ![262144]⟩
abbrev S262144x4 : Shape := ⟨2, ![262144, 4]⟩

abbrev nBuf : Space → Nat
  | .hbm => 197
  | .vmem => 0
  | .smem => 0
  | _ => 0

abbrev hbmTy0_0 (i : Nat) : BufTy := match i % 128 with
  | 0 => ⟨S262144x3, .f32⟩
  | 1 => ⟨S3x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S64x1, .f32⟩
  | 8 => ⟨S1, .f32⟩
  | 9 => ⟨S3, .f32⟩
  | 10 => ⟨S3, .f32⟩
  | 11 => ⟨S3, .f32⟩
  | 12 => ⟨S262144x3, .f32⟩
  | 13 => ⟨S262144x3, .f32⟩
  | 14 => ⟨S262144x128, .f32⟩
  | 15 => ⟨S262144x128, .f32⟩
  | 16 => ⟨S1x128, .f32⟩
  | 17 => ⟨S262144x128, .f32⟩
  | 18 => ⟨S262144x128, .f32⟩
  | 19 => ⟨S262144x128, .f32⟩
  | 20 => ⟨S262144x128, .f32⟩
  | 21 => ⟨S262144x128, .f32⟩
  | 22 => ⟨S_, .f32⟩
  | 23 => ⟨S262144x128, .f32⟩
  | 24 => ⟨S262144x128, .f32⟩
  | 25 => ⟨S262144x128, .f32⟩
  | 26 => ⟨S262144x128, .f32⟩
  | 27 => ⟨S262144x128, .f32⟩
  | 28 => ⟨S1x128, .f32⟩
  | 29 => ⟨S262144x128, .f32⟩
  | 30 => ⟨S262144x128, .f32⟩
  | 31 => ⟨S262144x128, .f32⟩
  | 32 => ⟨S262144x128, .f32⟩
  | 33 => ⟨S262144x128, .f32⟩
  | 34 => ⟨S_, .f32⟩
  | 35 => ⟨S262144x128, .f32⟩
  | 36 => ⟨S262144x128, .f32⟩
  | 37 => ⟨S262144x128, .f32⟩
  | 38 => ⟨S262144x64, .f32⟩
  | 39 => ⟨S262144x64, .f32⟩
  | 40 => ⟨S1x64, .f32⟩
  | 41 => ⟨S262144x64, .f32⟩
  | 42 => ⟨S262144x64, .f32⟩
  | 43 => ⟨S262144x64, .f32⟩
  | 44 => ⟨S262144x64, .f32⟩
  | 45 => ⟨S262144x64, .f32⟩
  | 46 => ⟨S_, .f32⟩
  | 47 => ⟨S262144x64, .f32⟩
  | 48 => ⟨S262144x64, .f32⟩
  | 49 => ⟨S262144x64, .f32⟩
  | 50 => ⟨S262144x1, .f32⟩
  | 51 => ⟨S262144x1, .f32⟩
  | 52 => ⟨S1x1, .f32⟩
  | 53 => ⟨S262144x1, .f32⟩
  | 54 => ⟨S262144x1, .f32⟩
  | 55 => ⟨S262144, .f32⟩
  | 56 => ⟨S262144, .f32⟩
  | 57 => ⟨S262144x128, .f32⟩
  | 58 => ⟨S262144x128, .f32⟩
  | 59 => ⟨S1x128, .f32⟩
  | 60 => ⟨S262144x128, .f32⟩
  | 61 => ⟨S262144x128, .f32⟩
  | 62 => ⟨S262144x128, .f32⟩
  | 63 => ⟨S262144x128, .f32⟩
  | 64 => ⟨S262144x128, .f32⟩
  | 65 => ⟨S_, .f32⟩
  | 66 => ⟨S262144x128, .f32⟩
  | 67 => ⟨S262144x128, .f32⟩
  | 68 => ⟨S262144x128, .f32⟩
  | 69 => ⟨S262144x128, .f32⟩
  | 70 => ⟨S262144x128, .f32⟩
  | 71 => ⟨S1x128, .f32⟩
  | 72 => ⟨S262144x128, .f32⟩
  | 73 => ⟨S262144x128, .f32⟩
  | 74 => ⟨S262144x128, .f32⟩
  | 75 => ⟨S262144x128, .f32⟩
  | 76 => ⟨S262144x128, .f32⟩
  | 77 => ⟨S_, .f32⟩
  | 78 => ⟨S262144x128, .f32⟩
  | 79 => ⟨S262144x128, .f32⟩
  | 80 => ⟨S262144x128, .f32⟩
  | 81 => ⟨S262144x64, .f32⟩
  | 82 => ⟨S262144x64, .f32⟩
  | 83 => ⟨S1x64, .f32⟩
  | 84 => ⟨S262144x64, .f32⟩
  | 85 => ⟨S262144x64, .f32⟩
  | 86 => ⟨S262144x64, .f32⟩
  | 87 => ⟨S262144x64, .f32⟩
  | 88 => ⟨S262144x64, .f32⟩
  | 89 => ⟨S_, .f32⟩
  | 90 => ⟨S262144x64, .f32⟩
  | 91 => ⟨S262144x64, .f32⟩
  | 92 => ⟨S262144x64, .f32⟩
  | 93 => ⟨S262144x1, .f32⟩
  | 94 => ⟨S262144x1, .f32⟩
  | 95 => ⟨S1x1, .f32⟩
  | 96 => ⟨S262144x1, .f32⟩
  | 97 => ⟨S262144x1, .f32⟩
  | 98 => ⟨S262144, .f32⟩
  | 99 => ⟨S262144, .f32⟩
  | 100 => ⟨S262144x3, .f32⟩
  | 101 => ⟨S262144x128, .f32⟩
  | 102 => ⟨S262144x128, .f32⟩
  | 103 => ⟨S262144x128, .f32⟩
  | 104 => ⟨S1x128, .f32⟩
  | 105 => ⟨S262144x128, .f32⟩
  | 106 => ⟨S262144x128, .f32⟩
  | 107 => ⟨S262144x128, .f32⟩
  | 108 => ⟨S262144x128, .f32⟩
  | 109 => ⟨S262144x128, .f32⟩
  | 110 => ⟨S_, .f32⟩
  | 111 => ⟨S262144x128, .f32⟩
  | 112 => ⟨S262144x128, .f32⟩
  | 113 => ⟨S262144x128, .f32⟩
  | 114 => ⟨S262144x128, .f32⟩
  | 115 => ⟨S262144x128, .f32⟩
  | 116 => ⟨S262144x128, .f32⟩
  | 117 => ⟨S_, .f32⟩
  | 118 => ⟨S262144x128, .f32⟩
  | 119 => ⟨S262144x128, .f32⟩
  | 120 => ⟨S262144x128, .f32⟩
  | 121 => ⟨S262144x128, .f32⟩
  | 122 => ⟨S262144x128, .f32⟩
  | 123 => ⟨S262144x128, .f32⟩
  | 124 => ⟨S262144x128, .f32⟩
  | 125 => ⟨S262144x128, .f32⟩
  | 126 => ⟨S262144x128, .f32⟩
  | 127 => ⟨S262144x128, .f32⟩
  | _ => ⟨S262144x3, .f32⟩

abbrev hbmTy0_1 (i : Nat) : BufTy := match i % 128 with
  | 0 => ⟨S262144x128, .f32⟩
  | 1 => ⟨S1x128, .f32⟩
  | 2 => ⟨S262144x128, .f32⟩
  | 3 => ⟨S262144x128, .f32⟩
  | 4 => ⟨S262144x128, .f32⟩
  | 5 => ⟨S262144x128, .f32⟩
  | 6 => ⟨S262144x128, .f32⟩
  | 7 => ⟨S_, .f32⟩
  | 8 => ⟨S262144x128, .f32⟩
  | 9 => ⟨S262144x128, .f32⟩
  | 10 => ⟨S262144x128, .f32⟩
  | 11 => ⟨S262144x128, .f32⟩
  | 12 => ⟨S262144x128, .f32⟩
  | 13 => ⟨S262144x128, .f32⟩
  | 14 => ⟨S262144x128, .f32⟩
  | 15 => ⟨S262144x128, .f32⟩
  | 16 => ⟨S262144x128, .f32⟩
  | 17 => ⟨S_, .f32⟩
  | 18 => ⟨S262144x128, .f32⟩
  | 19 => ⟨S262144x128, .f32⟩
  | 20 => ⟨S262144x128, .f32⟩
  | 21 => ⟨S262144x128, .f32⟩
  | 22 => ⟨S262144x128, .f32⟩
  | 23 => ⟨S262144x128, .f32⟩
  | 24 => ⟨S262144x128, .f32⟩
  | 25 => ⟨S262144x64, .f32⟩
  | 26 => ⟨S262144x64, .f32⟩
  | 27 => ⟨S262144x64, .f32⟩
  | 28 => ⟨S262144x64, .f32⟩
  | 29 => ⟨S1x64, .f32⟩
  | 30 => ⟨S262144x64, .f32⟩
  | 31 => ⟨S262144x64, .f32⟩
  | 32 => ⟨S262144x64, .f32⟩
  | 33 => ⟨S262144x64, .f32⟩
  | 34 => ⟨S262144x64, .f32⟩
  | 35 => ⟨S_, .f32⟩
  | 36 => ⟨S262144x64, .f32⟩
  | 37 => ⟨S262144x64, .f32⟩
  | 38 => ⟨S262144x64, .f32⟩
  | 39 => ⟨S262144x64, .f32⟩
  | 40 => ⟨S262144x64, .f32⟩
  | 41 => ⟨S262144x64, .f32⟩
  | 42 => ⟨S262144x64, .f32⟩
  | 43 => ⟨S262144x64, .f32⟩
  | 44 => ⟨S262144x64, .f32⟩
  | 45 => ⟨S_, .f32⟩
  | 46 => ⟨S262144x64, .f32⟩
  | 47 => ⟨S262144x64, .f32⟩
  | 48 => ⟨S262144x64, .f32⟩
  | 49 => ⟨S262144x64, .f32⟩
  | 50 => ⟨S262144x64, .f32⟩
  | 51 => ⟨S262144x64, .f32⟩
  | 52 => ⟨S262144x64, .f32⟩
  | 53 => ⟨S262144x1, .f32⟩
  | 54 => ⟨S262144x1, .f32⟩
  | 55 => ⟨S262144x1, .f32⟩
  | 56 => ⟨S262144x1, .f32⟩
  | 57 => ⟨S1x1, .f32⟩
  | 58 => ⟨S262144x1, .f32⟩
  | 59 => ⟨S262144x1, .f32⟩
  | 60 => ⟨S262144, .f32⟩
  | 61 => ⟨S262144, .f32⟩
  | 62 => ⟨S262144, .f32⟩
  | 63 => ⟨S262144, .f32⟩
  | 64 => ⟨S262144x1, .f32⟩
  | 65 => ⟨S262144x1, .f32⟩
  | 66 => ⟨S262144x1, .f32⟩
  | 67 => ⟨S262144x1, .f32⟩
  | 68 => ⟨S262144x4, .f32⟩
  | _ => ⟨S262144x3, .f32⟩

abbrev hbmTy (i : Nat) : BufTy := match i / 128 with
  | 0 => hbmTy0_0 i
  | 1 => hbmTy0_1 i
  | _ => ⟨S262144x3, .f32⟩

abbrev bufTy : (tb : Table) → Fin (tcTables nBuf tb) → BufTy
  | .hbm, ⟨i, _⟩ => hbmTy i
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_8 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_cst_9 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_cst_10 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_11 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_cst_12 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_cst_13 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩

abbrev nD : Nat := 1
abbrev τ : Topo := Topo.v7x

variable {F : FTy → Type} [FloatOps F]

class Facts₀ : Prop where
  bcast_S3_S262144x3_1 : S3.BroadcastsInDim S262144x3 (![1] : Fin 1 → Fin S262144x3.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  bcast_S262144_S262144x1_0 : S262144.BroadcastsInDim S262144x1 (![0] : Fin 1 → Fin S262144x1.rank)
  concatenates_S262144x1_S262144x1_S262144x1_S262144x1_S262144x4_d1 : Shape.Concatenates [S262144x1, S262144x1, S262144x1, S262144x1] S262144x4 1
  dot_S262144x3_S3x128_S262144x128_1_0_0_1_n_n_wf : DotDims.WF S262144x3 S3x128 S262144x128 [1] [0] [0] [1] [] []
  dot_S262144x128_S128x128_S262144x128_1_0_0_1_n_n_wf : DotDims.WF S262144x128 S128x128 S262144x128 [1] [0] [0] [1] [] []
  dot_S262144x128_S128x64_S262144x64_1_0_0_1_n_n_wf : DotDims.WF S262144x128 S128x64 S262144x64 [1] [0] [0] [1] [] []
  dot_S262144x64_S64x1_S262144x1_1_0_0_1_n_n_wf : DotDims.WF S262144x64 S64x1 S262144x1 [1] [0] [0] [1] [] []

variable [Facts₀]

def dot_S262144x3_S3x128_S262144x128_1_0_0_1_n_n : DotDims S262144x3 S3x128 S262144x128 where
  lhsContracting := [1]
  rhsContracting := [0]
  lhsNonContracting := [0]
  rhsNonContracting := [1]
  lhsBatch := []
  rhsBatch := []
  wf := dot_S262144x3_S3x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x1_S262144x1_1_0_0_1_n_n : DotDims S262144x64 S64x1 S262144x1 where
  lhsContracting := [1]
  rhsContracting := [0]
  lhsNonContracting := [0]
  rhsNonContracting := [1]
  lhsBatch := []
  rhsBatch := []
  wf := dot_S262144x64_S64x1_S262144x1_1_0_0_1_n_n_wf

class Facts : Prop extends Facts₀ where

variable [Facts]
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.RealMat.lean ====
/-
  Real matrices inside the extended reals.

  Every array both programs compute is, under finite inputs, the entrywise coercion of a real matrix.  `IsMat A a`
  says so for a rank-2 array `A` and a real matrix `a`; `IsVec v b` for a rank-1 array.  The real side is written
  with a small vocabulary of combinators (entrywise product, sum, difference, negation, hyperbolic tangent, a matrix
  product, a constant matrix, a row repeated down the rows, four one-column matrices side by side), and one lemma
  per array operation says: if the operands are real matrices then so is the result, and it is this combinator of
  them.  The lemmas are generic in the number of rows, so the same ones serve a block of a pipelined kernel and a whole
  host array.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«130666_j46514495816298_1_alg».proof.Proof.LibRealFactor

noncomputable section

namespace Cert.RealMat

open Idealize.ShloMosaic Idealize.ShloMosaic.ValueIdx

/-! ## The real side -/

section Real
variable {M N K : Nat}

/-- Entrywise product. -/
def rmul (a b : Fin M → Fin N → ℝ) : Fin M → Fin N → ℝ := fun r j => a r j * b r j
/-- Entrywise sum. -/
def radd (a b : Fin M → Fin N → ℝ) : Fin M → Fin N → ℝ := fun r j => a r j + b r j
/-- Entrywise difference. -/
def rsub (a b : Fin M → Fin N → ℝ) : Fin M → Fin N → ℝ := fun r j => a r j - b r j
/-- Entrywise negation. -/
def rneg (a : Fin M → Fin N → ℝ) : Fin M → Fin N → ℝ := fun r j => -a r j
/-- Entrywise hyperbolic tangent. -/
def rtanh (a : Fin M → Fin N → ℝ) : Fin M → Fin N → ℝ := fun r j => Real.tanh (a r j)
/-- The matrix product. -/
def rmm (a : Fin M → Fin K → ℝ) (w : Fin K → Fin N → ℝ) : Fin M → Fin N → ℝ := fun r j => ∑ k, a r k * w k j
/-- The constant matrix. -/
def rconst (c : ℝ) : Fin M → Fin N → ℝ := fun _ _ => c
/-- One row repeated down the rows. -/
def rrow (b : Fin N → ℝ) : Fin M → Fin N → ℝ := fun _ j => b j
/-- Four one-column matrices side by side. -/
def rcat4 (c0 c1 c2 c3 : Fin M → Fin 1 → ℝ) : Fin M → Fin 4 → ℝ := fun r c => ![c0 r 0, c1 r 0, c2 r 0, c3 r 0] c

end Real

/-! ## Arrays that are real matrices -/

/-- The rank-2 array `A` is entrywise the real matrix `a`. -/
def IsMat {M N : Nat} (A : (⟨2, ![M, N]⟩ : Shape).Idx → EReal) (a : Fin M → Fin N → ℝ) : Prop :=
  ∀ r j, A (ix2 r j) = ((a r j : ℝ) : EReal)

/-- The rank-1 array `v` is entrywise the real vector `b`. -/
def IsVec {N : Nat} (v : (⟨1, ![N]⟩ : Shape).Idx → EReal) (b : Fin N → ℝ) : Prop :=
  ∀ j, v (ix1 j) = ((b j : ℝ) : EReal)

/-- The array of a real matrix. -/
def ofMat {M N : Nat} (a : Fin M → Fin N → ℝ) : (⟨2, ![M, N]⟩ : Shape).Idx → EReal := fun i => ((a (i 0) (i 1) : ℝ) : EReal)

section Lemmas
variable {M N K : Nat} {φ : FTy}

theorem isMat_ofMat (a : Fin M → Fin N → ℝ) : IsMat (ofMat a) a := by
  intro r j
  rfl

/-- An array that is a real matrix is that matrix's array. -/
theorem IsMat.eq_ofMat {A : (⟨2, ![M, N]⟩ : Shape).Idx → EReal} {a : Fin M → Fin N → ℝ} (hA : IsMat A a) : A = ofMat a := by
  funext i
  obtain ⟨r, j, rfl⟩ : ∃ r j, i = ix2 r j := ⟨_, _, eq_ix2 i⟩
  exact hA r j

/-- An array with no infinite entry is the matrix of its entries' real parts. -/
theorem isMat_of_finite (A : (⟨2, ![M, N]⟩ : Shape).Idx → EReal) (h : ∀ i, A i ≠ ⊤ ∧ A i ≠ ⊥) :
    IsMat A (fun r j => (A (ix2 r j)).toReal) := by
  intro r j
  exact (EReal.coe_toReal (h _).1 (h _).2).symm

theorem isVec_of_finite (v : (⟨1, ![N]⟩ : Shape).Idx → EReal) (h : ∀ i, v i ≠ ⊤ ∧ v i ≠ ⊥) :
    IsVec v (fun j => (v (ix1 j)).toReal) := by
  intro j
  exact (EReal.coe_toReal (h _).1 (h _).2).symm

/-- Two arrays that are the same real matrix are equal. -/
theorem IsMat.ext {A B : (⟨2, ![M, N]⟩ : Shape).Idx → EReal} {a : Fin M → Fin N → ℝ} (hA : IsMat A a) (hB : IsMat B a) :
    A = B := by
  exact hA.eq_ofMat.trans hB.eq_ofMat.symm

/-! ### Entrywise operations -/

theorem IsMat.mulf {A B : FVec Ideal ⟨2, ![M, N]⟩ φ} {a b : Fin M → Fin N → ℝ} (hA : IsMat A a) (hB : IsMat B b) :
    IsMat (mulf A B) (rmul a b) := by
  intro r j
  show _ = ((a r j * b r j : ℝ) : EReal)
  rw [mulf_apply, hA r j, hB r j, EReal.coe_mul]

theorem IsMat.addf {A B : FVec Ideal ⟨2, ![M, N]⟩ φ} {a b : Fin M → Fin N → ℝ} (hA : IsMat A a) (hB : IsMat B b) :
    IsMat (addf A B) (radd a b) := by
  intro r j
  show _ = ((a r j + b r j : ℝ) : EReal)
  rw [addf_apply, hA r j, hB r j, EReal.coe_add]

theorem IsMat.subf {A B : FVec Ideal ⟨2, ![M, N]⟩ φ} {a b : Fin M → Fin N → ℝ} (hA : IsMat A a) (hB : IsMat B b) :
    IsMat (subf A B) (rsub a b) := by
  intro r j
  show _ = ((a r j - b r j : ℝ) : EReal)
  rw [subf_apply, hA r j, hB r j, EReal.coe_sub]

/-- The host's negation. -/
theorem IsMat.hostNegf {A : FVec Ideal ⟨2, ![M, N]⟩ φ} {a : Fin M → Fin N → ℝ} (hA : IsMat A a) :
    IsMat (Host.negf A) (rneg a) := by
  intro r j
  show -(A (ix2 r j)) = ((-a r j : ℝ) : EReal)
  rw [hA r j, EReal.coe_neg]

/-- The kernel's hyperbolic tangent. -/
theorem IsMat.tanh {A : FVec Ideal ⟨2, ![M, N]⟩ φ} {a : Fin M → Fin N → ℝ} (hA : IsMat A a) :
    IsMat (tanh A) (rtanh a) := by
  intro r j
  show Ideal.tanh (A (ix2 r j)) = ((Real.tanh (a r j) : ℝ) : EReal)
  rw [hA r j, Ideal.tanh_coe]

/-- The host's hyperbolic tangent. -/
theorem IsMat.hostTanh {A : FVec Ideal ⟨2, ![M, N]⟩ φ} {a : Fin M → Fin N → ℝ} (hA : IsMat A a) :
    IsMat (Host.tanh A) (rtanh a) := by
  intro r j
  show Ideal.tanh (A (ix2 r j)) = ((Real.tanh (a r j) : ℝ) : EReal)
  rw [hA r j, Ideal.tanh_coe]

/-- A change of float format keeps the matrix. -/
theorem IsMat.truncf {ψ : FTy} {A : FVec Ideal ⟨2, ![M, N]⟩ φ} {a : Fin M → Fin N → ℝ} (h : ψ.bits < φ.bits)
    (hA : IsMat A a) : IsMat (truncf ψ A h : FVec Ideal ⟨2, ![M, N]⟩ ψ) a := by
  intro r j
  exact hA r j

/-! ### Constants -/

/-- The f32 pattern of one. -/
theorem ofBits_one : Ideal.ofBits .f32 0x3F800000#32 = ((1 : ℝ) : EReal) := by
  simp [Ideal.ofBits, Ideal.ieee]
  rw [← EReal.coe_mul]
  norm_num

/-- The f32 pattern of minus two. -/
theorem ofBits_negTwo : Ideal.ofBits .f32 0xC0000000#32 = ((-2 : ℝ) : EReal) := by
  simp [Ideal.ofBits, Ideal.ieee]
  rw [← EReal.coe_mul]
  norm_num

/-- The f32 pattern of zero. -/
theorem ofBits_zero : Ideal.ofBits .f32 0x00000000#32 = ((0 : ℝ) : EReal) := by
  simp [Ideal.ofBits, Ideal.ieee]

/-- A kernel's splat of the scalar one. -/
theorem isMat_splat_one :
    IsMat (broadcast (⟨2, ![M, N]⟩ : Shape) (Scalar.ofBits (F := Ideal) .f32 0x3F800000#32)) (rconst 1) := by
  intro r j
  exact ofBits_one

/-- A kernel's splat of the scalar minus two. -/
theorem isMat_splat_negTwo :
    IsMat (broadcast (⟨2, ![M, N]⟩ : Shape) (Scalar.ofBits (F := Ideal) .f32 0xC0000000#32)) (rconst (-2)) := by
  intro r j
  exact ofBits_negTwo

/-- The host's rank-0 constant one broadcast to a matrix. -/
theorem isMat_bcast_one (h : (⟨0, ![]⟩ : Shape).BroadcastsInDim (⟨2, ![M, N]⟩ : Shape) ![]) :
    IsMat (broadcastInDim (⟨2, ![M, N]⟩ : Shape) ![] h (constant (F := Ideal) (⟨0, ![]⟩ : Shape) .f32 0x3F800000#32)) (rconst 1) := by
  intro r j
  rw [broadcastInDim_apply _ h _ (ix2 r j) ix0 (fun a => a.elim0), constant_apply]
  exact ofBits_one

/-! ### Matrix products -/

/-- The coercion of a finite sum of reals is the sum of the coercions. -/
theorem coe_finsum {ι : Type*} (s : Finset ι) (f : ι → ℝ) : ((∑ k ∈ s, f k : ℝ) : EReal) = ∑ k ∈ s, ((f k : ℝ) : EReal) := by
  classical
  induction s using Finset.induction_on with
  | empty => simp
  | insert x s hx ih => rw [Finset.sum_insert hx, Finset.sum_insert hx, EReal.coe_add, ih]

/-- A sum of products of real entries is the coercion of the real sum of products. -/
theorem sum_coe_mul_coe (a : Fin K → ℝ) (w : Fin K → ℝ) :
    ∑ k, ((a k : ℝ) : EReal) * ((w k : ℝ) : EReal) = ((∑ k, a k * w k : ℝ) : EReal) := by
  rw [coe_finsum]
  exact Finset.sum_congr rfl fun k _ => (EReal.coe_mul _ _).symm

/-- The matrix unit's product into the zero matrix. -/
theorem IsMat.matmul0 {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {A : FVec Ideal ⟨2, ![M, K]⟩ φ₁} {W : FVec Ideal ⟨2, ![K, N]⟩ φ₂} {a : Fin M → Fin K → ℝ} {w : Fin K → Fin N → ℝ}
    (hA : IsMat A a) (hW : IsMat W w) :
    IsMat (matmul d none A W (constant (⟨2, ![M, N]⟩ : Shape) .f32 0x00000000#32)) (rmm a w) := by
  intro r j
  rw [Cert.Fold.matmul_zero_rows d h1 h2 h3 h4 h5 h6 none A W r j]
  have e : ∀ k : Fin K, A (ix2 r k) * W (ix2 k j) = ((a r k : ℝ) : EReal) * ((w k j : ℝ) : EReal) := fun k => by
    rw [hA r k, hW k j]
  rw [Finset.sum_congr rfl fun k _ => e k]
  exact sum_coe_mul_coe (fun k => a r k) (fun k => w k j)

/-- The host's matrix product. -/
theorem IsMat.dotGeneral {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {A : FVec Ideal ⟨2, ![M, K]⟩ φ₁} {W : FVec Ideal ⟨2, ![K, N]⟩ φ₂} {a : Fin M → Fin K → ℝ} {w : Fin K → Fin N → ℝ}
    (hA : IsMat A a) (hW : IsMat W w) :
    IsMat (Host.dotGeneral d none A W) (rmm a w) := by
  intro r j
  rw [Cert.Fold.dotGeneral_rows d h1 h2 h3 h4 h5 h6 none A W r j]
  have e : ∀ k : Fin K, A (ix2 r k) * W (ix2 k j) = ((a r k : ℝ) : EReal) * ((w k j : ℝ) : EReal) := fun k => by
    rw [hA r k, hW k j]
  rw [Finset.sum_congr rfl fun k _ => e k]
  exact sum_coe_mul_coe (fun k => a r k) (fun k => w k j)

/-! ### Rows -/

/-- A kernel's bias: a vector cast to one row and repeated down the rows. -/
theorem isMat_biasK (hc : (⟨1, ![N]⟩ : Shape).ShapeCasts ⟨2, ![1, N]⟩) (hb : (⟨2, ![1, N]⟩ : Shape).Broadcasts ⟨2, ![M, N]⟩)
    {v : (⟨1, ![N]⟩ : Shape).Idx → EReal} {b : Fin N → ℝ} (hv : IsVec v b) :
    IsMat (broadcastTo (⟨2, ![M, N]⟩ : Shape) (shapeCast (⟨2, ![1, N]⟩ : Shape) v hc) hb) (rrow b) := by
  intro r j
  rw [broadcastTo_1b_ab_apply, shapeCast_a_1a_apply]
  exact hv j

/-- The host's bias: a vector broadcast to one row, the row broadcast down the rows. -/
theorem isMat_biasH (h1 : (⟨1, ![N]⟩ : Shape).BroadcastsInDim (⟨2, ![1, N]⟩ : Shape) ![1])
    (h2 : (⟨2, ![1, N]⟩ : Shape).BroadcastsInDim (⟨2, ![M, N]⟩ : Shape) ![0, 1])
    {v : (⟨1, ![N]⟩ : Shape).Idx → EReal} {b : Fin N → ℝ} (hv : IsVec v b) :
    IsMat (broadcastInDim (⟨2, ![M, N]⟩ : Shape) ![0, 1] h2 (broadcastInDim (⟨2, ![1, N]⟩ : Shape) ![1] h1 v)) (rrow b) := by
  intro r j
  rw [broadcastInDim_apply _ h2 _ (ix2 r j) (ix2 (0 : Fin 1) j) (fun ax => by
    match ax with
    | ⟨0, _⟩ => rfl
    | ⟨1, _⟩ =>
      show j.val = if N = 1 then 0 else j.val
      split
      · have := j.isLt; omega
      · rfl)]
  rw [broadcastInDim_apply _ h1 _ (ix2 (0 : Fin 1) j) (ix1 j) (fun ax => by
    match ax with
    | ⟨0, _⟩ =>
      show j.val = if N = 1 then 0 else j.val
      split
      · have := j.isLt; omega
      · rfl)]
  exact hv j

/-- Row `o` of a matrix, cut out as a one-row matrix. -/
theorem IsMat.sliceRow (o : Nat) (ho : o < K) (hs : (⟨2, ![K, N]⟩ : Shape).Slices ![o, 0] ⟨2, ![1, N]⟩)
    {W : (⟨2, ![K, N]⟩ : Shape).Idx → EReal} {w : Fin K → Fin N → ℝ} (hW : IsMat W w) :
    IsMat (extractStridedSlice (⟨2, ![1, N]⟩ : Shape) ![o, 0] W hs) (rrow (M := 1) (w ⟨o, ho⟩)) := by
  intro r j
  obtain rfl : r = 0 := Subsingleton.elim _ _
  rw [slice2_axis0_apply o W hs (0 : Fin 1) j ⟨o, ho⟩ rfl]
  exact hW ⟨o, ho⟩ j

/-- A one-row matrix repeated down the rows. -/
theorem IsMat.bcastRows (hb : (⟨2, ![1, N]⟩ : Shape).Broadcasts ⟨2, ![M, N]⟩)
    {A : (⟨2, ![1, N]⟩ : Shape).Idx → EReal} {a : Fin 1 → Fin N → ℝ} (hA : IsMat A a) :
    IsMat (broadcastTo (⟨2, ![M, N]⟩ : Shape) A hb) (rrow (a 0)) := by
  intro r j
  rw [broadcastTo_1b_ab_apply]
  exact hA 0 j

/-- The host's tangent seed: a three-entry literal table broadcast down the rows. -/
theorem isMat_seed (lit : Fin 3 → BitVec 32) (e : Fin 3 → ℝ) (hlit : ∀ k, Ideal.ofBits .f32 (lit k) = ((e k : ℝ) : EReal))
    (h : (⟨1, ![3]⟩ : Shape).BroadcastsInDim (⟨2, ![M, 3]⟩ : Shape) ![1]) :
    IsMat (broadcastInDim (⟨2, ![M, 3]⟩ : Shape) ![1] h
      (fun i => FloatOps.ofBits (F := Ideal) .f32 (lit ((⟨1, ![3]⟩ : Shape).rowMajor i)))) (rrow e) := by
  intro r j
  rw [broadcastInDim_apply _ h _ (ix2 r j) (ix1 j) (fun ax => by
    match ax with
    | ⟨0, _⟩ =>
      exact (if_neg (by decide : ¬ (3 = 1))).symm)]
  have hj : (⟨1, ![3]⟩ : Shape).rowMajor (ix1 j) = j := Fin.ext (Shape.rowMajor_val_one _)
  show FloatOps.ofBits (F := Ideal) .f32 (lit ((⟨1, ![3]⟩ : Shape).rowMajor (ix1 j))) = _
  rw [hj, Ideal.ofBits_def, hlit j]
  rfl

/-! ### Columns -/

/-- A one-column matrix flattened to a vector and put back as a column is itself. -/
theorem IsMat.colRoundTrip (hc : (⟨2, ![M, 1]⟩ : Shape).ShapeCasts ⟨1, ![M]⟩)
    (hb : (⟨1, ![M]⟩ : Shape).BroadcastsInDim (⟨2, ![M, 1]⟩ : Shape) ![0])
    {A : (⟨2, ![M, 1]⟩ : Shape).Idx → EReal} {a : Fin M → Fin 1 → ℝ} (hA : IsMat A a) :
    IsMat (broadcastInDim (⟨2, ![M, 1]⟩ : Shape) ![0] hb (shapeCast (⟨1, ![M]⟩ : Shape) A hc)) a := by
  intro r j
  rw [broadcastInDim_apply _ hb _ (ix2 r j) (ix1 r) (fun ax => by
    match ax with
    | ⟨0, _⟩ =>
      show r.val = if M = 1 then 0 else r.val
      split
      · have := r.isLt; omega
      · rfl)]
  rw [shapeCast_apply A hc (ix1 r) (ix2 r j) (by
    rw [Shape.rowMajor_val_two, Shape.rowMajor_val_one]
    show r.val * 1 + j.val = r.val
    have := j.isLt; omega)]
  exact hA r j

/-- Four one-column matrices concatenated along the columns. -/
theorem isMat_concat4
    {C0 C1 C2 C3 : (⟨2, ![M, 1]⟩ : Shape).Idx → EReal} {c0 c1 c2 c3 : Fin M → Fin 1 → ℝ}
    (hcat : Shape.Concatenates [(⟨2, ![M, 1]⟩ : Shape), ⟨2, ![M, 1]⟩, ⟨2, ![M, 1]⟩, ⟨2, ![M, 1]⟩] (⟨2, ![M, 4]⟩ : Shape) 1)
    (h0 : IsMat C0 c0) (h1 : IsMat C1 c1) (h2 : IsMat C2 c2) (h3 : IsMat C3 c3) :
    IsMat (concatenate (⟨2, ![M, 4]⟩ : Shape) 1 ([⟨(⟨2, ![M, 1]⟩ : Shape), C0⟩, ⟨(⟨2, ![M, 1]⟩ : Shape), C1⟩,
      ⟨(⟨2, ![M, 1]⟩ : Shape), C2⟩, ⟨(⟨2, ![M, 1]⟩ : Shape), C3⟩] : List ((s : Shape) × (s.Idx → EReal))) hcat) (rcat4 c0 c1 c2 c3) := by
  intro r c
  match c with
  | ⟨0, hk⟩ =>
    refine Eq.trans (concatenate_apply_piece (α := EReal) (t := (⟨2, ![M, 4]⟩ : Shape)) (1 : Fin 2)
      ([⟨(⟨2, ![M, 1]⟩ : Shape), C0⟩, ⟨(⟨2, ![M, 1]⟩ : Shape), C1⟩, ⟨(⟨2, ![M, 1]⟩ : Shape), C2⟩,
        ⟨(⟨2, ![M, 1]⟩ : Shape), C3⟩] : List ((s : Shape) × (s.Idx → EReal)))
      hcat (ix2 r ⟨0, hk⟩) 0 (by simp) (⟨2, ![M, 1]⟩ : Shape) C0 rfl rfl 0 rfl (ix2 r (0 : Fin 1))
      (fun b hb => by
        match b with
        | ⟨0, _⟩ => rfl
        | ⟨1, _⟩ => exact absurd (Fin.ext rfl) hb)
      rfl) ?_
    exact h0 r 0
  | ⟨1, hk⟩ =>
    refine Eq.trans (concatenate_apply_piece (α := EReal) (t := (⟨2, ![M, 4]⟩ : Shape)) (1 : Fin 2)
      ([⟨(⟨2, ![M, 1]⟩ : Shape), C0⟩, ⟨(⟨2, ![M, 1]⟩ : Shape), C1⟩, ⟨(⟨2, ![M, 1]⟩ : Shape), C2⟩,
        ⟨(⟨2, ![M, 1]⟩ : Shape), C3⟩] : List ((s : Shape) × (s.Idx → EReal)))
      hcat (ix2 r ⟨1, hk⟩) 1 (by simp) (⟨2, ![M, 1]⟩ : Shape) C1 rfl rfl 1 rfl (ix2 r (0 : Fin 1))
      (fun b hb => by
        match b with
        | ⟨0, _⟩ => rfl
        | ⟨1, _⟩ => exact absurd (Fin.ext rfl) hb)
      rfl) ?_
    exact h1 r 0
  | ⟨2, hk⟩ =>
    refine Eq.trans (concatenate_apply_piece (α := EReal) (t := (⟨2, ![M, 4]⟩ : Shape)) (1 : Fin 2)
      ([⟨(⟨2, ![M, 1]⟩ : Shape), C0⟩, ⟨(⟨2, ![M, 1]⟩ : Shape), C1⟩, ⟨(⟨2, ![M, 1]⟩ : Shape), C2⟩,
        ⟨(⟨2, ![M, 1]⟩ : Shape), C3⟩] : List ((s : Shape) × (s.Idx → EReal)))
      hcat (ix2 r ⟨2, hk⟩) 2 (by simp) (⟨2, ![M, 1]⟩ : Shape) C2 rfl rfl 2 rfl (ix2 r (0 : Fin 1))
      (fun b hb => by
        match b with
        | ⟨0, _⟩ => rfl
        | ⟨1, _⟩ => exact absurd (Fin.ext rfl) hb)
      rfl) ?_
    exact h2 r 0
  | ⟨3, hk⟩ =>
    refine Eq.trans (concatenate_apply_piece (α := EReal) (t := (⟨2, ![M, 4]⟩ : Shape)) (1 : Fin 2)
      ([⟨(⟨2, ![M, 1]⟩ : Shape), C0⟩, ⟨(⟨2, ![M, 1]⟩ : Shape), C1⟩, ⟨(⟨2, ![M, 1]⟩ : Shape), C2⟩,
        ⟨(⟨2, ![M, 1]⟩ : Shape), C3⟩] : List ((s : Shape) × (s.Idx → EReal)))
      hcat (ix2 r ⟨3, hk⟩) 3 (by simp) (⟨2, ![M, 1]⟩ : Shape) C3 rfl rfl 3 rfl (ix2 r (0 : Fin 1))
      (fun b hb => by
        match b with
        | ⟨0, _⟩ => rfl
        | ⟨1, _⟩ => exact absurd (Fin.ext rfl) hb)
      rfl) ?_
    exact h3 r 0

end Lemmas

end Cert.RealMat

end
-- ==== Proof.Spec.lean ====
/-
  The two programs as real matrix functions, and that they are one function.

  Both programs evaluate a four-layer network  x ↦ tanh(x W1 + b1) ↦ tanh(· W2 + b2) ↦ tanh(· W3 + b3) ↦ · W4 + b4
  row by row, together with its first derivative along the first and the second input coordinate and its second
  derivative along the first.  The kernel carries the derivatives through a layer in closed form: with h = tanh a,
  d = 1 - h², tt = -2 h d,  the first-order tangent of h is d · a',  the second-order one  tt · a'² + d · a''.
  The reference differentiates mechanically: it pushes a tangent g through tanh as (g + g h)(1 - h), and
  differentiates that expression once more for the second order.  Over the reals these are the same polynomials in
  h, a', a'':  (g + g h)(1 - h) = (1 - h²) g,  and the derivative of the left side is  -2 h (1 - h²) g² + (1 - h²) g'.
-/
import proofs.«130666_j46514495816298_1_alg».proof.Proof.RealMat

noncomputable section

namespace Cert.Spec

open Cert.RealMat

/-- The network's real parameters. -/
structure Params where
  w1 : Fin 3 → Fin 128 → ℝ
  b1 : Fin 128 → ℝ
  w2 : Fin 128 → Fin 128 → ℝ
  b2 : Fin 128 → ℝ
  w3 : Fin 128 → Fin 64 → ℝ
  b3 : Fin 64 → ℝ
  w4 : Fin 64 → Fin 1 → ℝ
  b4 : Fin 1 → ℝ

variable {M : Nat} (p : Params) (x : Fin M → Fin 3 → ℝ)

/-! ## The kernel's closed forms -/

namespace KR

/-- Layer 1: the activation h = tanh(x W1 + b1), d = 1 - h², tt = -2 h d. -/
def h1 : Fin M → Fin 128 → ℝ := rtanh (radd (rmm x p.w1) (rrow p.b1))
def d1 : Fin M → Fin 128 → ℝ := rsub (rconst 1) (rmul (h1 p x) (h1 p x))
def tt1 : Fin M → Fin 128 → ℝ := rmul (rmul (rconst (-2)) (h1 p x)) (d1 p x)
/-- Layer 1 tangents: the pre-activation's tangent along input coordinate c is row c of W1, its second derivative 0. -/
def z1_1 : Fin M → Fin 128 → ℝ := rmul (d1 p x) (rrow (p.w1 0))
def t1_1 : Fin M → Fin 128 → ℝ := rmul (d1 p x) (rrow (p.w1 1))
def z2_1 : Fin M → Fin 128 → ℝ := rmul (tt1 p x) (rrow (rmul (M := 1) (rrow (p.w1 0)) (rrow (p.w1 0)) 0))

/-- Layer 2. -/
def a2 : Fin M → Fin 128 → ℝ := radd (rmm (h1 p x) p.w2) (rrow p.b2)
def az1_2 : Fin M → Fin 128 → ℝ := rmm (z1_1 p x) p.w2
def az2_2 : Fin M → Fin 128 → ℝ := rmm (z2_1 p x) p.w2
def at1_2 : Fin M → Fin 128 → ℝ := rmm (t1_1 p x) p.w2
def h2 : Fin M → Fin 128 → ℝ := rtanh (a2 p x)
def d2 : Fin M → Fin 128 → ℝ := rsub (rconst 1) (rmul (h2 p x) (h2 p x))
def tt2 : Fin M → Fin 128 → ℝ := rmul (rmul (rconst (-2)) (h2 p x)) (d2 p x)
def z1_2 : Fin M → Fin 128 → ℝ := rmul (d2 p x) (az1_2 p x)
def t1_2 : Fin M → Fin 128 → ℝ := rmul (d2 p x) (at1_2 p x)
def z2_2 : Fin M → Fin 128 → ℝ :=
  radd (rmul (tt2 p x) (rmul (az1_2 p x) (az1_2 p x))) (rmul (d2 p x) (az2_2 p x))

/-- Layer 3. -/
def a3 : Fin M → Fin 64 → ℝ := radd (rmm (h2 p x) p.w3) (rrow p.b3)
def az1_3 : Fin M → Fin 64 → ℝ := rmm (z1_2 p x) p.w3
def az2_3 : Fin M → Fin 64 → ℝ := rmm (z2_2 p x) p.w3
def at1_3 : Fin M → Fin 64 → ℝ := rmm (t1_2 p x) p.w3
def h3 : Fin M → Fin 64 → ℝ := rtanh (a3 p x)
def d3 : Fin M → Fin 64 → ℝ := rsub (rconst 1) (rmul (h3 p x) (h3 p x))
def tt3 : Fin M → Fin 64 → ℝ := rmul (rmul (rconst (-2)) (h3 p x)) (d3 p x)
def z1_3 : Fin M → Fin 64 → ℝ := rmul (d3 p x) (az1_3 p x)
def t1_3 : Fin M → Fin 64 → ℝ := rmul (d3 p x) (at1_3 p x)
def z2_3 : Fin M → Fin 64 → ℝ :=
  radd (rmul (tt3 p x) (rmul (az1_3 p x) (az1_3 p x))) (rmul (d3 p x) (az2_3 p x))

/-- Layer 4 (linear): the value and its three derivatives, one column each. -/
def o0 : Fin M → Fin 1 → ℝ := radd (rmm (h3 p x) p.w4) (rrow p.b4)
def o1 : Fin M → Fin 1 → ℝ := rmm (z1_3 p x) p.w4
def o2 : Fin M → Fin 1 → ℝ := rmm (t1_3 p x) p.w4
def o3 : Fin M → Fin 1 → ℝ := rmm (z2_3 p x) p.w4

/-- The kernel's result: value, d/dz, d/dt, d²/dz². -/
def out : Fin M → Fin 4 → ℝ := rcat4 (o0 p x) (o1 p x) (o2 p x) (o3 p x)

end KR

/-! ## The reference's mechanical derivatives -/

namespace RR

/-- The unit tangents along the first and the second input coordinate. -/
def e0 : Fin 3 → ℝ := ![1, 0, 0]
def e1 : Fin 3 → ℝ := ![0, 1, 0]

/-- A tangent g pushed through tanh at activation h: (g + g h)(1 - h). -/
def jv {N : Nat} (g h : Fin M → Fin N → ℝ) : Fin M → Fin N → ℝ := rmul (radd g (rmul g h)) (rsub (rconst 1) h)

/-- The tangent of `jv gi h` when h has tangent h' and gi has tangent s:
    (s + (s h + gi h'))(1 - h) + (gi + gi h)(-h'). -/
def jv2 {N : Nat} (s gi h h' : Fin M → Fin N → ℝ) : Fin M → Fin N → ℝ :=
  radd (rmul (radd s (radd (rmul s h) (rmul gi h'))) (rsub (rconst 1) h)) (rmul (radd gi (rmul gi h)) (rneg h'))

/-- The primal activations. -/
def H1 : Fin M → Fin 128 → ℝ := rtanh (radd (rmm x p.w1) (rrow p.b1))
def H2 : Fin M → Fin 128 → ℝ := rtanh (radd (rmm (H1 p x) p.w2) (rrow p.b2))
def H3 : Fin M → Fin 64 → ℝ := rtanh (radd (rmm (H2 p x) p.w3) (rrow p.b3))

/-- The first-order stream along the unit tangent e. -/
def G1 (e : Fin 3 → ℝ) : Fin M → Fin 128 → ℝ := rmm (rrow (M := M) e) p.w1
def P1 (e : Fin 3 → ℝ) : Fin M → Fin 128 → ℝ := jv (G1 p (M := M) e) (H1 p x)
def G2 (e : Fin 3 → ℝ) : Fin M → Fin 128 → ℝ := rmm (P1 p x e) p.w2
def P2 (e : Fin 3 → ℝ) : Fin M → Fin 128 → ℝ := jv (G2 p x e) (H2 p x)
def G3 (e : Fin 3 → ℝ) : Fin M → Fin 64 → ℝ := rmm (P2 p x e) p.w3
def P3 (e : Fin 3 → ℝ) : Fin M → Fin 64 → ℝ := jv (G3 p x e) (H3 p x)

/-- The value and the first derivative along e. -/
def T : Fin M → Fin 1 → ℝ := radd (rmm (H3 p x) p.w4) (rrow p.b4)
def D (e : Fin 3 → ℝ) : Fin M → Fin 1 → ℝ := rmm (P3 p x e) p.w4

/-- The second-order stream (both tangents e0).  In layer 1 the inner pre-activation tangent is constant, so only the
    activation's tangent contributes. -/
def Q1 : Fin M → Fin 128 → ℝ :=
  radd (rmul (rmul (G1 p (M := M) e0) (P1 p x e0)) (rsub (rconst 1) (H1 p x)))
    (rmul (radd (G1 p (M := M) e0) (rmul (G1 p (M := M) e0) (H1 p x))) (rneg (P1 p x e0)))
def S2 : Fin M → Fin 128 → ℝ := rmm (Q1 p x) p.w2
def Q2 : Fin M → Fin 128 → ℝ := jv2 (S2 p x) (G2 p x e0) (H2 p x) (P2 p x e0)
def S3 : Fin M → Fin 64 → ℝ := rmm (Q2 p x) p.w3
def Q3 : Fin M → Fin 64 → ℝ := jv2 (S3 p x) (G3 p x e0) (H3 p x) (P3 p x e0)
def DD : Fin M → Fin 1 → ℝ := rmm (Q3 p x) p.w4

/-- The reference's result: value, d/dz, d/dt, d²/dz². -/
def out : Fin M → Fin 4 → ℝ := rcat4 (T p x) (D p x e0) (D p x e1) (DD p x)

end RR

/-- Every step works row by row: row r of the kernel's result is the result on the one-row matrix holding row r of x. -/
theorem KR.out_row (r : Fin M) : KR.out p x r = KR.out p (fun _ : Fin 1 => x r) 0 := by
  rfl

/-! ## The tangent push in closed form -/

/-- (g + g h)(1 - h) = (1 - h²) g. -/
theorem RR.jv_eq {N : Nat} (g h : Fin M → Fin N → ℝ) :
    RR.jv g h = rmul (rsub (rconst 1) (rmul h h)) g := by
  funext r j
  simp only [RR.jv, rmul, radd, rsub, rconst]
  ring

/-- With h' = (1 - h²) gi, the tangent of the push is  -2 h (1 - h²) gi² + (1 - h²) s. -/
theorem RR.jv2_eq {N : Nat} (s gi h : Fin M → Fin N → ℝ) :
    RR.jv2 s gi h (rmul (rsub (rconst 1) (rmul h h)) gi) =
      radd (rmul (rmul (rmul (rconst (-2)) h) (rsub (rconst 1) (rmul h h))) (rmul gi gi))
        (rmul (rsub (rconst 1) (rmul h h)) s) := by
  funext r j
  simp only [RR.jv2, rmul, radd, rsub, rneg, rconst]
  ring

/-! ## The seeds -/

theorem RR.G1_e0 : RR.G1 p (M := M) RR.e0 = rrow (p.w1 0) := by
  funext r j
  simp [RR.G1, rmm, rrow, RR.e0, Fin.sum_univ_three]

theorem RR.G1_e1 : RR.G1 p (M := M) RR.e1 = rrow (p.w1 1) := by
  funext r j
  simp [RR.G1, rmm, rrow, RR.e1, Fin.sum_univ_three]

/-! ## Layer by layer -/

theorem RR.H1_eq : RR.H1 p x = KR.h1 p x := rfl
theorem RR.H2_eq : RR.H2 p x = KR.h2 p x := rfl
theorem RR.H3_eq : RR.H3 p x = KR.h3 p x := rfl

/-- Layer 1, first order. -/
theorem RR.P1_e0 : RR.P1 p x RR.e0 = KR.z1_1 p x := by
  rw [RR.P1, RR.G1_e0, RR.jv_eq]; rfl

theorem RR.P1_e1 : RR.P1 p x RR.e1 = KR.t1_1 p x := by
  rw [RR.P1, RR.G1_e1, RR.jv_eq]; rfl

/-- Layer 2, first order. -/
theorem RR.G2_e0 : RR.G2 p x RR.e0 = KR.az1_2 p x := by
  rw [RR.G2, RR.P1_e0]; rfl

theorem RR.G2_e1 : RR.G2 p x RR.e1 = KR.at1_2 p x := by
  rw [RR.G2, RR.P1_e1]; rfl

theorem RR.P2_e0 : RR.P2 p x RR.e0 = KR.z1_2 p x := by
  rw [RR.P2, RR.G2_e0, RR.jv_eq]; rfl

theorem RR.P2_e1 : RR.P2 p x RR.e1 = KR.t1_2 p x := by
  rw [RR.P2, RR.G2_e1, RR.jv_eq]; rfl

/-- Layer 3, first order. -/
theorem RR.G3_e0 : RR.G3 p x RR.e0 = KR.az1_3 p x := by
  rw [RR.G3, RR.P2_e0]; rfl

theorem RR.G3_e1 : RR.G3 p x RR.e1 = KR.at1_3 p x := by
  rw [RR.G3, RR.P2_e1]; rfl

theorem RR.P3_e0 : RR.P3 p x RR.e0 = KR.z1_3 p x := by
  rw [RR.P3, RR.G3_e0, RR.jv_eq]; rfl

theorem RR.P3_e1 : RR.P3 p x RR.e1 = KR.t1_3 p x := by
  rw [RR.P3, RR.G3_e1, RR.jv_eq]; rfl

/-- Layer 1, second order: with g the first row of W1,
    g (d g) (1 - h) - (g + g h)(d g) = -2 h d g². -/
theorem RR.Q1_eq : RR.Q1 p x = KR.z2_1 p x := by
  rw [RR.Q1, RR.P1_e0, RR.G1_e0]
  funext r j
  simp only [KR.z2_1, KR.z1_1, KR.tt1, KR.d1, RR.H1_eq, rmul, radd, rsub, rneg, rconst, rrow]
  ring

/-- Layer 2, second order. -/
theorem RR.S2_eq : RR.S2 p x = KR.az2_2 p x := by
  rw [RR.S2, RR.Q1_eq]; rfl

theorem RR.Q2_eq : RR.Q2 p x = KR.z2_2 p x := by
  rw [RR.Q2, RR.S2_eq, RR.G2_e0, RR.P2_e0, RR.H2_eq]
  exact RR.jv2_eq (KR.az2_2 p x) (KR.az1_2 p x) (KR.h2 p x)

/-- Layer 3, second order. -/
theorem RR.S3_eq : RR.S3 p x = KR.az2_3 p x := by
  rw [RR.S3, RR.Q2_eq]; rfl

theorem RR.Q3_eq : RR.Q3 p x = KR.z2_3 p x := by
  rw [RR.Q3, RR.S3_eq, RR.G3_e0, RR.P3_e0, RR.H3_eq]
  exact RR.jv2_eq (KR.az2_3 p x) (KR.az1_3 p x) (KR.h3 p x)

/-! ## The four columns -/

theorem RR.T_eq : RR.T p x = KR.o0 p x := rfl

theorem RR.D_e0 : RR.D p x RR.e0 = KR.o1 p x := by
  rw [RR.D, RR.P3_e0]; rfl

theorem RR.D_e1 : RR.D p x RR.e1 = KR.o2 p x := by
  rw [RR.D, RR.P3_e1]; rfl

theorem RR.DD_eq : RR.DD p x = KR.o3 p x := by
  rw [RR.DD, RR.Q3_eq]; rfl

/-- The kernel's closed forms and the reference's mechanical derivatives are one real function. -/
theorem kernel_eq_reference : KR.out p x = RR.out p x := by
  rw [RR.out, RR.T_eq, RR.D_e0, RR.D_e1, RR.DD_eq]; rfl

end Cert.Spec

end
-- ==== Proof.KernelLift.lean ====
/-
  The kernel body's stored block as a real matrix.

  At one grid point the body loads a block of 2048 rows of x and the whole parameter arrays, and stores one
  [2048, 4] block.  If the loaded arrays are real matrices, the stored block is the real matrix `KR.out` of them:
  each operation of the body is followed by its real counterpart, in the body's own order.
-/
import proofs.«130666_j46514495816298_1_alg».proof.Proof.Gen.KernelIdeal.Skeleton
import proofs.«130666_j46514495816298_1_alg».proof.Proof.Spec

noncomputable section

namespace Cert.KernelIdeal.Lift

open Idealize.ShloMosaic Cert.KernelIdeal Cert.KernelIdeal.Gen Cert.RealMat Cert.Spec

/-- What the body stores, as a function of the nine blocks it loads. -/
def stored (v0 : Vec Ideal S2048x3 .f32) (v1 : Vec Ideal S3x128 .f32) (v2 : Vec Ideal S128 .f32) (v3 : Vec Ideal S128x128 .f32)
    (v4 : Vec Ideal S128 .f32) (v5 : Vec Ideal S128x64 .f32) (v6 : Vec Ideal S64 .f32) (v7 : Vec Ideal S64x1 .f32)
    (v8 : Vec Ideal S1 .f32) : FVec Ideal S2048x4 .f32 :=
  k0_pay1 (k0_pay16 v5 v6 (k0_pay5 v0 v1 v2) (k0_pay6 v3) (k0_pay7 v0 v1 v2 v3 v4))
    (k0_pay17 v5 v6 (k0_pay6 v3) (k0_pay7 v0 v1 v2 v3 v4) (k0_pay8 v0 v1 v2 v3) (k0_pay9 v0 v1 v2))
    (k0_pay18 v7) (k0_pay19 v5 v6 v7 v8 (k0_pay7 v0 v1 v2 v3 v4)) (k0_pay20 v5 v6 (k0_pay7 v0 v1 v2 v3 v4) (k0_pay8 v0 v1 v2 v3))
    (constant S2048x1 .f32 0x00000000#32)

/-! ## One lemma per value the body computes

  Each value is named by the real matrix it is, given the real matrices its operands are.  The values of the
  first layer are functions of the loaded blocks; the later ones are stated over the values they read, so that they
  compose. -/

section Payloads

variable (p : Params) (x : Fin 2048 → Fin 3 → ℝ)
variable {v0 : Vec Ideal S2048x3 .f32} {v1 : Vec Ideal S3x128 .f32} {v2 : Vec Ideal S128 .f32}
  {v3 : Vec Ideal S128x128 .f32} {v4 : Vec Ideal S128 .f32} {v5 : Vec Ideal S128x64 .f32} {v6 : Vec Ideal S64 .f32}
  {v7 : Vec Ideal S64x1 .f32} {v8 : Vec Ideal S1 .f32}
  {v27 : FVec Ideal S2048x128 .f32} {v31 : FVec Ideal S128x128 .bf16} {v36 : FVec Ideal S2048x128 .f32}
  {v38 : FVec Ideal S2048x128 .f32} {v39 : FVec Ideal S2048x128 .bf16}

/-! ### Layer 1 -/

/-- Row 0 of W1, as a one-row matrix. -/
theorem pay2_isMat (h1 : IsMat (M := 3) (N := 128) v1 p.w1) :
    IsMat (M := 1) (N := 128) (k0_pay2 v1) (rrow (M := 1) (p.w1 0)) := by
  unfold k0_pay2
  exact IsMat.sliceRow 0 (by decide) _ h1

/-- The first activation h1 = tanh(x W1 + b1). -/
theorem pay3_isMat (h0 : IsMat (M := 2048) (N := 3) v0 x) (h1 : IsMat (M := 3) (N := 128) v1 p.w1)
    (h2 : IsVec (N := 128) v2 p.b1) :
    IsMat (M := 2048) (N := 128) (k0_pay3 v0 v1 v2) (KR.h1 p x) := by
  unfold k0_pay3 KR.h1
  exact ((IsMat.matmul0 dot_S2048x3_S3x128_S2048x128_1_0_0_1_n_n rfl rfl rfl rfl rfl rfl
    (h0.truncf bitsLt_bf16_f32) (h1.truncf bitsLt_bf16_f32)).addf (isMat_biasK _ _ h2)).tanh

/-- d1 = 1 - h1². -/
theorem pay4_isMat (h0 : IsMat (M := 2048) (N := 3) v0 x) (h1 : IsMat (M := 3) (N := 128) v1 p.w1)
    (h2 : IsVec (N := 128) v2 p.b1) :
    IsMat (M := 2048) (N := 128) (k0_pay4 v0 v1 v2) (KR.d1 p x) := by
  have h := pay3_isMat p x h0 h1 h2
  unfold k0_pay4 KR.d1
  exact isMat_splat_one.subf (h.mulf h)

/-- The first-order tangent along the second coordinate: d1 times row 1 of W1. -/
theorem pay5_isMat (h0 : IsMat (M := 2048) (N := 3) v0 x) (h1 : IsMat (M := 3) (N := 128) v1 p.w1)
    (h2 : IsVec (N := 128) v2 p.b1) :
    IsMat (M := 2048) (N := 128) (k0_pay5 v0 v1 v2) (KR.t1_1 p x) := by
  have hd := pay4_isMat p x h0 h1 h2
  unfold k0_pay5 KR.t1_1
  exact hd.mulf (IsMat.bcastRows _ (IsMat.sliceRow 1 (by decide) _ h1))

/-- W2 in the narrower format. -/
theorem pay6_isMat (h3 : IsMat (M := 128) (N := 128) v3 p.w2) : IsMat (M := 128) (N := 128) (k0_pay6 v3) p.w2 := by
  unfold k0_pay6
  exact h3.truncf bitsLt_bf16_f32

/-- The second pre-activation a2 = h1 W2 + b2. -/
theorem pay7_isMat (h0 : IsMat (M := 2048) (N := 3) v0 x) (h1 : IsMat (M := 3) (N := 128) v1 p.w1)
    (h2 : IsVec (N := 128) v2 p.b1)
    (h3 : IsMat (M := 128) (N := 128) v3 p.w2) (h4 : IsVec (N := 128) v4 p.b2) :
    IsMat (M := 2048) (N := 128) (k0_pay7 v0 v1 v2 v3 v4) (KR.a2 p x) := by
  have hh := pay3_isMat p x h0 h1 h2
  have hw := pay6_isMat p h3
  unfold k0_pay7 KR.a2
  exact (IsMat.matmul0 dot_S2048x128_S128x128_S2048x128_1_0_0_1_n_n rfl rfl rfl rfl rfl rfl
    (hh.truncf bitsLt_bf16_f32) hw).addf (isMat_biasK _ _ h4)

/-- The first-order tangent along the first coordinate, through W2: (d1 times row 0 of W1) W2. -/
theorem pay8_isMat (h0 : IsMat (M := 2048) (N := 3) v0 x) (h1 : IsMat (M := 3) (N := 128) v1 p.w1)
    (h2 : IsVec (N := 128) v2 p.b1)
    (h3 : IsMat (M := 128) (N := 128) v3 p.w2) :
    IsMat (M := 2048) (N := 128) (k0_pay8 v0 v1 v2 v3) (KR.az1_2 p x) := by
  have hd := pay4_isMat p x h0 h1 h2
  have hr := pay2_isMat p h1
  have hw := pay6_isMat p h3
  unfold k0_pay8 KR.az1_2 KR.z1_1
  exact IsMat.matmul0 dot_S2048x128_S128x128_S2048x128_1_0_0_1_n_n rfl rfl rfl rfl rfl rfl
    ((hd.mulf (IsMat.bcastRows _ hr)).truncf bitsLt_bf16_f32) hw

/-- The second-order tangent of layer 1: (-2 h1 d1) times the square of row 0 of W1. -/
theorem pay9_isMat (h0 : IsMat (M := 2048) (N := 3) v0 x) (h1 : IsMat (M := 3) (N := 128) v1 p.w1)
    (h2 : IsVec (N := 128) v2 p.b1) :
    IsMat (M := 2048) (N := 128) (k0_pay9 v0 v1 v2) (KR.z2_1 p x) := by
  have hh := pay3_isMat p x h0 h1 h2
  have hd := pay4_isMat p x h0 h1 h2
  have hr := pay2_isMat p h1
  unfold k0_pay9 KR.z2_1 KR.tt1
  exact (((isMat_splat_negTwo.mulf hh).mulf hd).mulf (IsMat.bcastRows _ (hr.mulf hr))).truncf bitsLt_bf16_f32

/-! ### Layer 2 -/

/-- h2 = tanh a2. -/
theorem pay10_isMat (h36 : IsMat (M := 2048) (N := 128) v36 (KR.a2 p x)) :
    IsMat (M := 2048) (N := 128) (k0_pay10 v36) (KR.h2 p x) := by
  unfold k0_pay10 KR.h2
  exact h36.tanh

/-- d2 = 1 - h2². -/
theorem pay11_isMat (h36 : IsMat (M := 2048) (N := 128) v36 (KR.a2 p x)) :
    IsMat (M := 2048) (N := 128) (k0_pay11 v36) (KR.d2 p x) := by
  have h := pay10_isMat p x h36
  unfold k0_pay11 KR.d2
  exact isMat_splat_one.subf (h.mulf h)

/-- W3 in the narrower format. -/
theorem pay12_isMat (h5 : IsMat (M := 128) (N := 64) v5 p.w3) : IsMat (M := 128) (N := 64) (k0_pay12 v5) p.w3 := by
  unfold k0_pay12
  exact h5.truncf bitsLt_bf16_f32

/-- The first-order tangent along the first coordinate, through W3: (d2 · az1_2) W3. -/
theorem pay13_isMat (h5 : IsMat (M := 128) (N := 64) v5 p.w3) (h36 : IsMat (M := 2048) (N := 128) v36 (KR.a2 p x))
    (h38 : IsMat (M := 2048) (N := 128) v38 (KR.az1_2 p x)) :
    IsMat (M := 2048) (N := 64) (k0_pay13 v5 v36 v38) (KR.az1_3 p x) := by
  have hd := pay11_isMat p x h36
  have hw := pay12_isMat p h5
  unfold k0_pay13 KR.az1_3 KR.z1_2
  exact IsMat.matmul0 dot_S2048x128_S128x64_S2048x64_1_0_0_1_n_n rfl rfl rfl rfl rfl rfl
    ((hd.mulf h38).truncf bitsLt_bf16_f32) hw

/-! ### Layer 3 -/

/-- h3 = tanh(h2 W3 + b3). -/
theorem pay14_isMat (h5 : IsMat (M := 128) (N := 64) v5 p.w3) (h6 : IsVec (N := 64) v6 p.b3)
    (h36 : IsMat (M := 2048) (N := 128) v36 (KR.a2 p x)) :
    IsMat (M := 2048) (N := 64) (k0_pay14 v5 v6 v36) (KR.h3 p x) := by
  have hh := pay10_isMat p x h36
  have hw := pay12_isMat p h5
  unfold k0_pay14 KR.h3 KR.a3
  exact ((IsMat.matmul0 dot_S2048x128_S128x64_S2048x64_1_0_0_1_n_n rfl rfl rfl rfl rfl rfl
    (hh.truncf bitsLt_bf16_f32) hw).addf (isMat_biasK _ _ h6)).tanh

/-- d3 = 1 - h3². -/
theorem pay15_isMat (h5 : IsMat (M := 128) (N := 64) v5 p.w3) (h6 : IsVec (N := 64) v6 p.b3)
    (h36 : IsMat (M := 2048) (N := 128) v36 (KR.a2 p x)) :
    IsMat (M := 2048) (N := 64) (k0_pay15 v5 v6 v36) (KR.d3 p x) := by
  have h := pay14_isMat p x h5 h6 h36
  unfold k0_pay15 KR.d3
  exact isMat_splat_one.subf (h.mulf h)

/-- The first-order tangent along the second coordinate after layer 3: d3 · ((d2 · (t1_1 W2)) W3). -/
theorem pay16_isMat (h5 : IsMat (M := 128) (N := 64) v5 p.w3) (h6 : IsVec (N := 64) v6 p.b3)
    (h27 : IsMat (M := 2048) (N := 128) v27 (KR.t1_1 p x)) (h31 : IsMat (M := 128) (N := 128) v31 p.w2)
    (h36 : IsMat (M := 2048) (N := 128) v36 (KR.a2 p x)) :
    IsMat (M := 2048) (N := 64) (k0_pay16 v5 v6 v27 v31 v36) (KR.t1_3 p x) := by
  have hd2 := pay11_isMat p x h36
  have hd3 := pay15_isMat p x h5 h6 h36
  have hw := pay12_isMat p h5
  have h42 := IsMat.matmul0 dot_S2048x128_S128x128_S2048x128_1_0_0_1_n_n rfl rfl rfl rfl rfl rfl
    (h27.truncf bitsLt_bf16_f32) h31
  have h67 := IsMat.matmul0 dot_S2048x128_S128x64_S2048x64_1_0_0_1_n_n rfl rfl rfl rfl rfl rfl
    ((hd2.mulf h42).truncf bitsLt_bf16_f32) hw
  unfold k0_pay16 KR.t1_3 KR.at1_3 KR.t1_2 KR.at1_2
  exact hd3.mulf h67

/-- The second-order tangent after layer 3: with tt = -2 h d at each layer,
    z2_2 = tt2 · az1_2² + d2 · (z2_1 W2)  and  z2_3 = tt3 · az1_3² + d3 · (z2_2 W3). -/
theorem pay17_isMat (h5 : IsMat (M := 128) (N := 64) v5 p.w3) (h6 : IsVec (N := 64) v6 p.b3)
    (h31 : IsMat (M := 128) (N := 128) v31 p.w2) (h36 : IsMat (M := 2048) (N := 128) v36 (KR.a2 p x))
    (h38 : IsMat (M := 2048) (N := 128) v38 (KR.az1_2 p x)) (h39 : IsMat (M := 2048) (N := 128) v39 (KR.z2_1 p x)) :
    IsMat (M := 2048) (N := 64) (k0_pay17 v5 v6 v31 v36 v38 v39) (KR.z2_3 p x) := by
  have hh2 := pay10_isMat p x h36
  have hd2 := pay11_isMat p x h36
  have hw := pay12_isMat p h5
  have ha := pay13_isMat p x h5 h36 h38
  have hh3 := pay14_isMat p x h5 h6 h36
  have hd3 := pay15_isMat p x h5 h6 h36
  have h40 := IsMat.matmul0 dot_S2048x128_S128x128_S2048x128_1_0_0_1_n_n rfl rfl rfl rfl rfl rfl h39 h31
  have h55 := (((isMat_splat_negTwo.mulf hh2).mulf hd2).mulf (h38.mulf h38)).addf (hd2.mulf h40)
  have h65 := IsMat.matmul0 dot_S2048x128_S128x64_S2048x64_1_0_0_1_n_n rfl rfl rfl rfl rfl rfl
    (h55.truncf bitsLt_bf16_f32) hw
  unfold k0_pay17 KR.z2_3 KR.tt3 KR.az2_3 KR.z2_2 KR.tt2 KR.az2_2
  exact (((isMat_splat_negTwo.mulf hh3).mulf hd3).mulf (ha.mulf ha)).addf (hd3.mulf h65)

/-! ### Layer 4 -/

/-- W4 in the narrower format. -/
theorem pay18_isMat (h7 : IsMat (M := 64) (N := 1) v7 p.w4) : IsMat (M := 64) (N := 1) (k0_pay18 v7) p.w4 := by
  unfold k0_pay18
  exact h7.truncf bitsLt_bf16_f32

/-- The value o0 = h3 W4 + b4. -/
theorem pay19_isMat (h5 : IsMat (M := 128) (N := 64) v5 p.w3) (h6 : IsVec (N := 64) v6 p.b3)
    (h7 : IsMat (M := 64) (N := 1) v7 p.w4) (h8 : IsVec (N := 1) v8 p.b4)
    (h36 : IsMat (M := 2048) (N := 128) v36 (KR.a2 p x)) :
    IsMat (M := 2048) (N := 1) (k0_pay19 v5 v6 v7 v8 v36) (KR.o0 p x) := by
  have hh := pay14_isMat p x h5 h6 h36
  have hw := pay18_isMat p h7
  unfold k0_pay19 KR.o0
  exact (IsMat.matmul0 dot_S2048x64_S64x1_S2048x1_1_0_0_1_n_n rfl rfl rfl rfl rfl rfl
    (hh.truncf bitsLt_bf16_f32) hw).addf (isMat_biasK _ _ h8)

/-- The first-order tangent along the first coordinate after layer 3: z1_3 = d3 · az1_3. -/
theorem pay20_isMat (h5 : IsMat (M := 128) (N := 64) v5 p.w3) (h6 : IsVec (N := 64) v6 p.b3)
    (h36 : IsMat (M := 2048) (N := 128) v36 (KR.a2 p x)) (h38 : IsMat (M := 2048) (N := 128) v38 (KR.az1_2 p x)) :
    IsMat (M := 2048) (N := 64) (k0_pay20 v5 v6 v36 v38) (KR.z1_3 p x) := by
  have hd := pay15_isMat p x h5 h6 h36
  have ha := pay13_isMat p x h5 h36 h38
  unfold k0_pay20 KR.z1_3
  exact (hd.mulf ha).truncf bitsLt_bf16_f32

/-- The stored block: the value and the three derivatives, each a product with W4, side by side. -/
theorem pay1_isMat {v76 v80 : FVec Ideal S2048x64 .f32} {v81 : FVec Ideal S64x1 .bf16} {v86 : FVec Ideal S2048x1 .f32}
    {v87 : FVec Ideal S2048x64 .bf16}
    (h76 : IsMat (M := 2048) (N := 64) v76 (KR.t1_3 p x)) (h80 : IsMat (M := 2048) (N := 64) v80 (KR.z2_3 p x))
    (h81 : IsMat (M := 64) (N := 1) v81 p.w4) (h86 : IsMat (M := 2048) (N := 1) v86 (KR.o0 p x))
    (h87 : IsMat (M := 2048) (N := 64) v87 (KR.z1_3 p x)) :
    IsMat (M := 2048) (N := 4) (k0_pay1 v76 v80 v81 v86 v87 (constant S2048x1 .f32 0x00000000#32)) (KR.out p x) := by
  have h88 := IsMat.matmul0 dot_S2048x64_S64x1_S2048x1_1_0_0_1_n_n rfl rfl rfl rfl rfl rfl h87 h81
  have h90 := IsMat.matmul0 dot_S2048x64_S64x1_S2048x1_1_0_0_1_n_n rfl rfl rfl rfl rfl rfl
    (h80.truncf bitsLt_bf16_f32) h81
  have h92 := IsMat.matmul0 dot_S2048x64_S64x1_S2048x1_1_0_0_1_n_n rfl rfl rfl rfl rfl rfl
    (h76.truncf bitsLt_bf16_f32) h81
  unfold k0_pay1 KR.out KR.o1 KR.o2 KR.o3
  exact isMat_concat4 _ h86 h88 h92 h90

end Payloads

/-- If the loaded blocks are real matrices, the stored block is the kernel's real function of them. -/
theorem stored_isMat (p : Params) (x : Fin 2048 → Fin 3 → ℝ)
    (v0 : Vec Ideal S2048x3 .f32) (v1 : Vec Ideal S3x128 .f32) (v2 : Vec Ideal S128 .f32) (v3 : Vec Ideal S128x128 .f32)
    (v4 : Vec Ideal S128 .f32) (v5 : Vec Ideal S128x64 .f32) (v6 : Vec Ideal S64 .f32) (v7 : Vec Ideal S64x1 .f32)
    (v8 : Vec Ideal S1 .f32)
    (h0 : IsMat (M := 2048) (N := 3) v0 x) (h1 : IsMat (M := 3) (N := 128) v1 p.w1) (h2 : IsVec (N := 128) v2 p.b1)
    (h3 : IsMat (M := 128) (N := 128) v3 p.w2) (h4 : IsVec (N := 128) v4 p.b2) (h5 : IsMat (M := 128) (N := 64) v5 p.w3)
    (h6 : IsVec (N := 64) v6 p.b3) (h7 : IsMat (M := 64) (N := 1) v7 p.w4) (h8 : IsVec (N := 1) v8 p.b4) :
    IsMat (M := 2048) (N := 4) (stored v0 v1 v2 v3 v4 v5 v6 v7 v8) (KR.out p x) := by
  have h27 := pay5_isMat p x h0 h1 h2
  have h31 := pay6_isMat p h3
  have h36 := pay7_isMat p x h0 h1 h2 h3 h4
  have h38 := pay8_isMat p x h0 h1 h2 h3
  have h39 := pay9_isMat p x h0 h1 h2
  unfold stored
  exact pay1_isMat p x (pay16_isMat p x h5 h6 h27 h31 h36) (pay17_isMat p x h5 h6 h31 h36 h38 h39) (pay18_isMat p h7)
    (pay19_isMat p x h5 h6 h7 h8 h36) (pay20_isMat p x h5 h6 h36 h38)

end Cert.KernelIdeal.Lift

end
-- ==== Proof.KernelArray.lean ====
/-
  From the kernel's blocks to its result array.

  The grid has 128 points; point t reads rows 2048 t … 2048 t + 2047 of x and writes the same rows of the result.
  Each stored block is the kernel's real function of its block of x (the body, read as real matrices), that function
  works row by row, and the 128 blocks tile the result, so the result array is the kernel's real function of all of x.
-/
import proofs.«130666_j46514495816298_1_alg».proof.Proof.Gen.KernelIdeal.Value
import proofs.«130666_j46514495816298_1_alg».proof.Proof.KernelLift

noncomputable section

namespace Cert.KernelIdeal.Array

open Idealize.ShloMosaic Idealize.ShloMosaic.TcCoe Idealize.SL.Sem
open Cert.KernelIdeal Cert.KernelIdeal.Gen Cert.RealMat Cert.Spec

section Residue

open Idealize.ShloMosaic.ValueIdx Cert.KernelIdeal.Lift

/-! ## Zero offsets, and the grid's size -/

theorem hz2 : (![0, 0] : Fin 2 → Nat) = fun _ => 0 := funext fun a => by fin_cases a <;> rfl

theorem hz1 : (![0] : Fin 1 → Nat) = fun _ => 0 := funext fun a => by fin_cases a; rfl

/-- A grid point's number is below 128. -/
theorem point_lt (t : Fin cfg0.N) : t.val < 128 := by
  have h := t.isLt
  have hN : cfg0.N = 128 := N_0
  omega

/-! ## The index maps over the grid -/

/-- At point t the block index of x and of the result is (t, 0); every parameter array's is 0. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## The rows of x a point reads -/

/-- Rows 2048 t … 2048 t + 2047 of x. -/
def rowsAt (x : Fin 262144 → Fin 3 → ℝ) (t : Nat) (ht : t < 128) : Fin 2048 → Fin 3 → ℝ :=
  fun r k => x ⟨2048 * t + r.val, by have := r.isLt; omega⟩ k

/-- The kernel's real function works row by row, so on a block of rows it gives the same rows of its value on all of x. -/
theorem out_rowsAt (p : Params) (x : Fin 262144 → Fin 3 → ℝ) (t : Nat) (ht : t < 128) (r : Fin 2048) :
    KR.out p (rowsAt x t ht) r = KR.out p x ⟨2048 * t + r.val, by have := r.isLt; omega⟩ := by
  rw [KR.out_row p (rowsAt x t ht) r, KR.out_row p x ⟨2048 * t + r.val, by have := r.isLt; omega⟩]
  rfl

/-- The array of a real matrix, read at an index given by its coordinates' values. -/
theorem ofMat_apply_of {M N : Nat} (a : Fin M → Fin N → ℝ) (i : (⟨2, ![M, N]⟩ : Shape).Idx) (r : Fin M) (k : Fin N)
    (hr : (i 0).val = r.val) (hk : (i 1).val = k.val) : ofMat a i = ((a r k : ℝ) : EReal) := by
  have e : i = ix2 r k := by
    funext d
    match d with
    | ⟨0, _⟩ => exact Fin.ext hr
    | ⟨1, _⟩ => exact Fin.ext hk
  subst e
  exact isMat_ofMat a r k

/-- An entry of the kernel's real function on a block of rows is the entry of its value on all of x at the block's place. -/
theorem block_entry (q : Params) (X : Fin 262144 → Fin 3 → ℝ) (t : Nat) (ht : t < 128) (r : Fin 2048) (k : Fin 4)
    (i : S262144x4.Idx) (hi0 : (i 0).val = 2048 * t + r.val) (hi1 : (i 1).val = k.val) :
    ((KR.out q (rowsAt X t ht) r k : ℝ) : EReal) = ofMat (KR.out q X) i := by
  rw [out_rowsAt q X t ht r]
  exact (ofMat_apply_of (KR.out q X) i ⟨2048 * t + r.val, by have := r.isLt; omega⟩ k hi0 hi1).symm

/-! ## The input blocks, read off the argument arrays -/

section Blocks
variable (m : (ℓ : Loc nD τ sig) → Buf (Elt Ideal) ℓ)

/-- The block of x at point t is rows 2048 t … 2048 t + 2047 of x. -/
theorem iblk0_apply (c : Dev nD) (t : Fin cfg0.N) (y : S2048x3.Idx) (k : S262144x3.Idx)
    (hk0 : (k 0).val = 2048 * t.val + (y 0).val) (hk1 : (k 1).val = (y 1).val) :
    (iblk m c 0 t : Vec Ideal S2048x3 .f32) y = (m ((c : Thread nD τ).loc main_arg0) : S262144x3.Idx → Elt Ideal .f32) k := by
  obtain ⟨-, -, e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 2048 + 1 * (y 0).val = (k 0).val; rw [e0, hk0]; omega
  | ⟨1, _⟩ => show win0_0.index t 1 * 3 + 1 * (y 1).val = (k 1).val; rw [e1, hk1]; omega

/-- The block of the first weight matrix at any point is the whole matrix. -/
theorem iblk1_eq (c : Dev nD) (t : Fin cfg0.N) :
    (iblk m c 1 t : Vec Ideal S3x128 .f32) = (m ((c : Thread nD τ).loc main_arg1) : S3x128.Idx → Elt Ideal .f32) := by
  obtain ⟨-, -, -, -, e0, e1, -⟩ := idx_facts t
  funext y
  unfold iblk
  rw [View.read_apply]
  show V m c main_arg1 _ = m (c.tc.loc main_arg1) _
  unfold V
  congr 1
  funext a
  apply Fin.ext
  match a with
  | ⟨0, _⟩ => show win0_1.index t 0 * 3 + 1 * (y 0).val = (y 0).val; rw [e0]; omega
  | ⟨1, _⟩ => show win0_1.index t 1 * 128 + 1 * (y 1).val = (y 1).val; rw [e1]; omega

/-- The block of the first bias at any point is the whole vector. -/
theorem iblk2_eq (c : Dev nD) (t : Fin cfg0.N) :
    (iblk m c 2 t : Vec Ideal S128 .f32) = (m ((c : Thread nD τ).loc main_arg2) : S128.Idx → Elt Ideal .f32) := by
  obtain ⟨-, -, -, -, -, -, e0, -⟩ := idx_facts t
  funext y
  unfold iblk
  rw [View.read_apply]
  show V m c main_arg2 _ = m (c.tc.loc main_arg2) _
  unfold V
  congr 1
  funext a
  apply Fin.ext
  match a with
  | ⟨0, _⟩ => show win0_2.index t 0 * 128 + 1 * (y 0).val = (y 0).val; rw [e0]; omega

/-- The block of the second weight matrix at any point is the whole matrix. -/
theorem iblk3_eq (c : Dev nD) (t : Fin cfg0.N) :
    (iblk m c 3 t : Vec Ideal S128x128 .f32) = (m ((c : Thread nD τ).loc main_arg3) : S128x128.Idx → Elt Ideal .f32) := by
  obtain ⟨-, -, -, -, -, -, -, e0, e1, -⟩ := idx_facts t
  funext y
  unfold iblk
  rw [View.read_apply]
  show V m c main_arg3 _ = m (c.tc.loc main_arg3) _
  unfold V
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The block of the second bias at any point is the whole vector. -/
theorem iblk4_eq (c : Dev nD) (t : Fin cfg0.N) :
    (iblk m c 4 t : Vec Ideal S128 .f32) = (m ((c : Thread nD τ).loc main_arg4) : S128.Idx → Elt Ideal .f32) := by
  obtain ⟨-, -, -, -, -, -, -, -, -, e0, -⟩ := idx_facts t
  funext y
  unfold iblk
  rw [View.read_apply]
  show V m c main_arg4 _ = m (c.tc.loc main_arg4) _
  unfold V
  congr 1
  funext a
  apply Fin.ext
  match a with
  | ⟨0, _⟩ => show win0_4.index t 0 * 128 + 1 * (y 0).val = (y 0).val; rw [e0]; omega

/-- The block of the third weight matrix at any point is the whole matrix. -/
theorem iblk5_eq (c : Dev nD) (t : Fin cfg0.N) :
    (iblk m c 5 t : Vec Ideal S128x64 .f32) = (m ((c : Thread nD τ).loc main_arg5) : S128x64.Idx → Elt Ideal .f32) := by
  obtain ⟨-, -, -, -, -, -, -, -, -, -, e0, e1, -⟩ := idx_facts t
  funext y
  unfold iblk
  rw [View.read_apply]
  show V m c main_arg5 _ = m (c.tc.loc main_arg5) _
  unfold V
  congr 1
  funext a
  apply Fin.ext
  match a with
  | ⟨0, _⟩ => show win0_5.index t 0 * 128 + 1 * (y 0).val = (y 0).val; rw [e0]; omega
  | ⟨1, _⟩ => show win0_5.index t 1 * 64 + 1 * (y 1).val = (y 1).val; rw [e1]; omega

/-- The block of the third bias at any point is the whole vector. -/
theorem iblk6_eq (c : Dev nD) (t : Fin cfg0.N) :
    (iblk m c 6 t : Vec Ideal S64 .f32) = (m ((c : Thread nD τ).loc main_arg6) : S64.Idx → Elt Ideal .f32) := by
  obtain ⟨-, -, -, -, -, -, -, -, -, -, -, -, e0, -⟩ := idx_facts t
  funext y
  unfold iblk
  rw [View.read_apply]
  show V m c main_arg6 _ = m (c.tc.loc main_arg6) _
  unfold V
  congr 1
  funext a
  apply Fin.ext
  match a with
  | ⟨0, _⟩ => show win0_6.index t 0 * 64 + 1 * (y 0).val = (y 0).val; rw [e0]; omega

/-- The block of the fourth weight matrix at any point is the whole matrix. -/
theorem iblk7_eq (c : Dev nD) (t : Fin cfg0.N) :
    (iblk m c 7 t : Vec Ideal S64x1 .f32) = (m ((c : Thread nD τ).loc main_arg7) : S64x1.Idx → Elt Ideal .f32) := by
  obtain ⟨-, -, -, -, -, -, -, -, -, -, -, -, -, e0, e1, -⟩ := idx_facts t
  funext y
  unfold iblk
  rw [View.read_apply]
  show V m c main_arg7 _ = m (c.tc.loc main_arg7) _
  unfold V
  congr 1
  funext a
  apply Fin.ext
  match a with
  | ⟨0, _⟩ => show win0_7.index t 0 * 64 + 1 * (y 0).val = (y 0).val; rw [e0]; omega
  | ⟨1, _⟩ => show win0_7.index t 1 * 1 + 1 * (y 1).val = (y 1).val; rw [e1]; omega

/-- The block of the fourth bias at any point is the whole vector. -/
theorem iblk8_eq (c : Dev nD) (t : Fin cfg0.N) :
    (iblk m c 8 t : Vec Ideal S1 .f32) = (m ((c : Thread nD τ).loc main_arg8) : S1.Idx → Elt Ideal .f32) := by
  obtain ⟨-, -, -, -, -, -, -, -, -, -, -, -, -, -, -, e0⟩ := idx_facts t
  funext y
  unfold iblk
  rw [View.read_apply]
  show V m c main_arg8 _ = m (c.tc.loc main_arg8) _
  unfold V
  congr 1
  funext a
  apply Fin.ext
  match a with
  | ⟨0, _⟩ => show win0_8.index t 0 * 1 + 1 * (y 0).val = (y 0).val; rw [e0]; omega

end Blocks

/-! ## What a point writes back -/

/-- The stored block at an index, when the loaded blocks are real matrices. -/
theorem stored_apply (q : Params) (xt : Fin 2048 → Fin 3 → ℝ)
    (v0 : Vec Ideal S2048x3 .f32) (v1 : Vec Ideal S3x128 .f32) (v2 : Vec Ideal S128 .f32) (v3 : Vec Ideal S128x128 .f32)
    (v4 : Vec Ideal S128 .f32) (v5 : Vec Ideal S128x64 .f32) (v6 : Vec Ideal S64 .f32) (v7 : Vec Ideal S64x1 .f32)
    (v8 : Vec Ideal S1 .f32)
    (g0 : IsMat (M := 2048) (N := 3) v0 xt) (g1 : IsMat (M := 3) (N := 128) v1 q.w1) (g2 : IsVec (N := 128) v2 q.b1)
    (g3 : IsMat (M := 128) (N := 128) v3 q.w2) (g4 : IsVec (N := 128) v4 q.b2) (g5 : IsMat (M := 128) (N := 64) v5 q.w3)
    (g6 : IsVec (N := 64) v6 q.b3) (g7 : IsMat (M := 64) (N := 1) v7 q.w4) (g8 : IsVec (N := 1) v8 q.b4)
    (j : S2048x4.Idx) :
    stored v0 v1 v2 v3 v4 v5 v6 v7 v8 j = ((KR.out q xt (j 0) (j 1) : ℝ) : EReal) :=
  (congrArg (stored v0 v1 v2 v3 v4 v5 v6 v7 v8) (eq_ix2 j)).trans
    (stored_isMat q xt v0 v1 v2 v3 v4 v5 v6 v7 v8 g0 g1 g2 g3 g4 g5 g6 g7 g8 (j 0) (j 1))

section Value
variable (m : (ℓ : Loc nD τ sig) → Buf (Elt Ideal) ℓ)
  (p : Dev nD → Params) (x : Dev nD → Fin 262144 → Fin 3 → ℝ)

/-- The block of x at point t is the real matrix of rows 2048 t … 2048 t + 2047 of x. -/
theorem iblk0_isMat (h0 : ∀ c : Dev nD, IsMat (M := 262144) (N := 3) (m ((c.tc : Thread nD τ).loc main_arg0)) (x c))
    (c : Dev nD) (t : Fin cfg0.N) :
    IsMat (M := 2048) (N := 3) (iblk m c 0 t) (rowsAt (x c) t.val (point_lt t)) := by
  intro r j
  have hr := r.isLt
  have ht := point_lt t
  refine (iblk0_apply m c t (ix2 r j) (ix2 ⟨2048 * t.val + r.val, by omega⟩ j) rfl rfl).trans ?_
  exact h0 c ⟨2048 * t.val + r.val, by omega⟩ j

/-- What point t writes back is block t of the array of the kernel's real function of all of x. -/
theorem flushed_eq
    (h0 : ∀ c : Dev nD, IsMat (M := 262144) (N := 3) (m ((c.tc : Thread nD τ).loc main_arg0)) (x c))
    (h1 : ∀ c : Dev nD, IsMat (M := 3) (N := 128) (m ((c.tc : Thread nD τ).loc main_arg1)) (p c).w1)
    (h2 : ∀ c : Dev nD, IsVec (N := 128) (m ((c.tc : Thread nD τ).loc main_arg2)) (p c).b1)
    (h3 : ∀ c : Dev nD, IsMat (M := 128) (N := 128) (m ((c.tc : Thread nD τ).loc main_arg3)) (p c).w2)
    (h4 : ∀ c : Dev nD, IsVec (N := 128) (m ((c.tc : Thread nD τ).loc main_arg4)) (p c).b2)
    (h5 : ∀ c : Dev nD, IsMat (M := 128) (N := 64) (m ((c.tc : Thread nD τ).loc main_arg5)) (p c).w3)
    (h6 : ∀ c : Dev nD, IsVec (N := 64) (m ((c.tc : Thread nD τ).loc main_arg6)) (p c).b3)
    (h7 : ∀ c : Dev nD, IsMat (M := 64) (N := 1) (m ((c.tc : Thread nD τ).loc main_arg7)) (p c).w4)
    (h8 : ∀ c : Dev nD, IsVec (N := 1) (m ((c.tc : Thread nD τ).loc main_arg8)) (p c).b4)
    (c : Dev nD) (t : Fin cfg0.N) :
    (dats m 0 c).flushed 9 t = ((cfg0.win 9).blk t).view.read (Elt Ideal) (ofMat (KR.out (p c) (x c))) := by
  rw [Value.flushed9]
  unfold out0_9
  rw [View.canon_unit_zero hz2]
  simp only [View.ld_unit_zero (S := S2048x3) hz2, View.ld_unit_zero (S := S3x128) hz2, View.ld_unit_zero (S := S128) hz1,
    View.ld_unit_zero (S := S128x128) hz2, View.ld_unit_zero (S := S128x64) hz2, View.ld_unit_zero (S := S64) hz1,
    View.ld_unit_zero (S := S64x1) hz2, View.ld_unit_zero (S := S1) hz1]
  obtain ⟨e0, e1, -⟩ := idx_facts t
  have ht := point_lt t
  funext j
  show stored (iblk m c 0 t) (iblk m c 1 t) (iblk m c 2 t) (iblk m c 3 t) (iblk m c 4 t) (iblk m c 5 t) (iblk m c 6 t)
      (iblk m c 7 t) (iblk m c 8 t) j = ofMat (KR.out (p c) (x c)) (((cfg0.win 9).blk t).view.emb j)
  refine (stored_apply (p c) (rowsAt (x c) t.val ht) _ _ _ _ _ _ _ _ _ (iblk0_isMat m x h0 c t)
    (by rw [iblk1_eq m c t]; exact h1 c) (by rw [iblk2_eq m c t]; exact h2 c) (by rw [iblk3_eq m c t]; exact h3 c)
    (by rw [iblk4_eq m c t]; exact h4 c) (by rw [iblk5_eq m c t]; exact h5 c) (by rw [iblk6_eq m c t]; exact h6 c)
    (by rw [iblk7_eq m c t]; exact h7 c) (by rw [iblk8_eq m c t]; exact h8 c) j).trans ?_
  refine block_entry (p c) (x c) t.val ht (j 0) (j 1) (((cfg0.win 9).blk t).view.emb j) ?_ ?_
  · show win0_9.index t 0 * 2048 + 1 * (j 0).val = 2048 * t.val + (j 0).val
    rw [e0]; omega
  · show win0_9.index t 1 * 4 + 1 * (j 1).val = (j 1).val
    rw [e1]; omega

/-! ## The blocks tile the result -/

/-- An index of the result is in point t's block iff each coordinate is in the block's range on its axis. -/
theorem mem_blk (t : Fin cfg0.N) (i : S262144x4.Idx) :
    i ∈ ((cfg0.win 9).blk t).view.set ↔ ∀ a : Fin 2, win0_9.index t a * S2048x4.size a ≤ (i a).val
      ∧ (i a).val < win0_9.index t a * S2048x4.size a + S2048x4.size a := by
  show i ∈ ((View.whole main_v0).slice (win0_9.rect t)).set ↔ _
  rw [View.set_slice_whole, Rect.mem_set_unit]
  exact Iff.rfl

/-- Row R of the result is in the block of point R / 2048. -/
theorem cover (i : S262144x4.Idx) :
    ∃ t : Fin cfg0.N, (cfg0.win 9).flush t = true ∧ i ∈ ((cfg0.win 9).blk t).view.set := by
  have hi0 : (i 0).val < 262144 := (i 0).isLt
  have hi1 : (i 1).val < 4 := (i 1).isLt
  have hN : cfg0.N = 128 := N_0
  obtain ⟨t, ht⟩ : ∃ t : Fin cfg0.N, t.val = (i 0).val / 2048 := ⟨⟨(i 0).val / 2048, by rw [hN]; omega⟩, rfl⟩
  obtain ⟨e0, e1, -⟩ := idx_facts t
  refine ⟨t, flush0_9 t, ?_⟩
  rw [mem_blk]
  intro a
  match a with
  | ⟨0, _⟩ =>
    show win0_9.index t 0 * 2048 ≤ (i 0).val ∧ (i 0).val < win0_9.index t 0 * 2048 + 2048
    rw [e0, ht]; omega
  | ⟨1, _⟩ =>
    show win0_9.index t 1 * 4 ≤ (i 1).val ∧ (i 1).val < win0_9.index t 1 * 4 + 4
    rw [e1]; omega

/-- The result array after the run is the array of the kernel's real function of all of x. -/
theorem final
    (h0 : ∀ c : Dev nD, IsMat (M := 262144) (N := 3) (m ((c.tc : Thread nD τ).loc main_arg0)) (x c))
    (h1 : ∀ c : Dev nD, IsMat (M := 3) (N := 128) (m ((c.tc : Thread nD τ).loc main_arg1)) (p c).w1)
    (h2 : ∀ c : Dev nD, IsVec (N := 128) (m ((c.tc : Thread nD τ).loc main_arg2)) (p c).b1)
    (h3 : ∀ c : Dev nD, IsMat (M := 128) (N := 128) (m ((c.tc : Thread nD τ).loc main_arg3)) (p c).w2)
    (h4 : ∀ c : Dev nD, IsVec (N := 128) (m ((c.tc : Thread nD τ).loc main_arg4)) (p c).b2)
    (h5 : ∀ c : Dev nD, IsMat (M := 128) (N := 64) (m ((c.tc : Thread nD τ).loc main_arg5)) (p c).w3)
    (h6 : ∀ c : Dev nD, IsVec (N := 64) (m ((c.tc : Thread nD τ).loc main_arg6)) (p c).b3)
    (h7 : ∀ c : Dev nD, IsMat (M := 64) (N := 1) (m ((c.tc : Thread nD τ).loc main_arg7)) (p c).w4)
    (h8 : ∀ c : Dev nD, IsVec (N := 1) (m ((c.tc : Thread nD τ).loc main_arg8)) (p c).b4)
    (c : Dev nD) : (dats m 0 c).arrAt 9 cfg0.N = ofMat (KR.out (p c) (x c)) :=
  (dats m 0 c).arrAt_eq_of_cover 9 (ofMat (KR.out (p c) (x c)))
    (fun t _ => flushed_eq m p x h0 h1 h2 h3 h4 h5 h6 h7 h8 c t) cover

end Value

end Residue

/-- With real argument arrays, every weakly fair execution of the idealized kernel ends with the result array at the
    kernel's real function of them, the arguments unchanged. -/
theorem run (m : (ℓ : Loc nD τ sig) → Buf (Elt Ideal) ℓ) (ρ : Dev nD → PrngReg)
    (p : Dev nD → Params) (x : Dev nD → Fin 262144 → Fin 3 → ℝ)
    (h0 : ∀ c : Dev nD, IsMat (M := 262144) (N := 3) (m ((c.tc : Thread nD τ).loc main_arg0)) (x c))
    (h1 : ∀ c : Dev nD, IsMat (M := 3) (N := 128) (m ((c.tc : Thread nD τ).loc main_arg1)) (p c).w1)
    (h2 : ∀ c : Dev nD, IsVec (N := 128) (m ((c.tc : Thread nD τ).loc main_arg2)) (p c).b1)
    (h3 : ∀ c : Dev nD, IsMat (M := 128) (N := 128) (m ((c.tc : Thread nD τ).loc main_arg3)) (p c).w2)
    (h4 : ∀ c : Dev nD, IsVec (N := 128) (m ((c.tc : Thread nD τ).loc main_arg4)) (p c).b2)
    (h5 : ∀ c : Dev nD, IsMat (M := 128) (N := 64) (m ((c.tc : Thread nD τ).loc main_arg5)) (p c).w3)
    (h6 : ∀ c : Dev nD, IsVec (N := 64) (m ((c.tc : Thread nD τ).loc main_arg6)) (p c).b3)
    (h7 : ∀ c : Dev nD, IsMat (M := 64) (N := 1) (m ((c.tc : Thread nD τ).loc main_arg7)) (p c).w4)
    (h8 : ∀ c : Dev nD, IsVec (N := 1) (m ((c.tc : Thread nD τ).loc main_arg8)) (p c).b4) :
    θ_run (defs (F := Ideal)) (onTc (τ := τ) (main (F := Ideal))) ⟨m, fun _ => 0, ρ⟩ fun r => ∀ c : Dev nD,
      r.2.mem ((c.tc : Thread nD τ).loc main_v0) = ofMat (KR.out (p c) (x c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  exact (θ_run defs _ _).mono
    (fun r h c => ⟨(h c).1.trans (final m p x h0 h1 h2 h3 h4 h5 h6 h7 h8 c), (h c).2⟩) (Value.run_blocks m ρ)

end Cert.KernelIdeal.Array

end
-- ==== Proof.RefTerm.lean ====
/-
  The reference program's result as ONE structured term of its argument arrays, at any float instance.

  The reference evaluates the network three times over: once with the unit tangent along the first input coordinate
  (value and first derivative), once along the second (first derivative), and once more with two tangents along the
  first coordinate (second derivative).  The primal activations of the three evaluations are the same expressions, and
  each first-order stream is the same expression of its tangent seed, so the whole result is written here once:
  activations `H1 H2 H3`, first-order streams `G_k`, `P_k` as functions of the seed's literal table, the second-order
  stream `Q_k`, and the four result columns side by side.
-/
import proofs.«130666_j46514495816298_1_alg».proof.ReferenceIdeal

noncomputable section

namespace Cert.ReferenceIdeal.Term

open Idealize.ShloMosaic Cert.ReferenceIdeal
open Cert.ReferenceIdeal.Facts₀ Cert.ReferenceIdeal.Facts

variable {F : FTy → Type} [FloatOps F] [Facts]

/-- The program's nine argument arrays. -/
structure Args (F : FTy → Type) where
  x : FVec F S262144x3 .f32
  w1 : FVec F S3x128 .f32
  b1 : FVec F S128 .f32
  w2 : FVec F S128x128 .f32
  b2 : FVec F S128 .f32
  w3 : FVec F S128x64 .f32
  b3 : FVec F S64 .f32
  w4 : FVec F S64x1 .f32
  b4 : FVec F S1 .f32

variable (A : Args F)

/-- The all-ones matrices. -/
def ones128 : FVec F S262144x128 .f32 := broadcastInDim S262144x128 ![] bcast_S_S262144x128 (constant S_ .f32 0x3F800000#32)
def ones64 : FVec F S262144x64 .f32 := broadcastInDim S262144x64 ![] bcast_S_S262144x64 (constant S_ .f32 0x3F800000#32)

/-- The biases, repeated down the rows. -/
def bias1 : FVec F S262144x128 .f32 :=
  broadcastInDim S262144x128 ![0, 1] bcast_S1x128_S262144x128_0_1 (broadcastInDim S1x128 ![1] bcast_S128_S1x128_1 A.b1)
def bias2 : FVec F S262144x128 .f32 :=
  broadcastInDim S262144x128 ![0, 1] bcast_S1x128_S262144x128_0_1 (broadcastInDim S1x128 ![1] bcast_S128_S1x128_1 A.b2)
def bias3 : FVec F S262144x64 .f32 :=
  broadcastInDim S262144x64 ![0, 1] bcast_S1x64_S262144x64_0_1 (broadcastInDim S1x64 ![1] bcast_S64_S1x64_1 A.b3)
def bias4 : FVec F S262144x1 .f32 :=
  broadcastInDim S262144x1 ![0, 1] bcast_S1x1_S262144x1_0_1 (broadcastInDim S1x1 ![1] bcast_S1_S1x1_1 A.b4)

/-- A tangent seed: a three-entry literal table repeated down the rows. -/
def seed (lit : Fin 3 → BitVec 32) : FVec F S262144x3 .f32 :=
  broadcastInDim S262144x3 ![1] bcast_S3_S262144x3_1 (fun i => FloatOps.ofBits .f32 (lit (S3.rowMajor i)))

/-- The four matrix products. -/
def mm1 (l : FVec F S262144x3 .f32) : FVec F S262144x128 .f32 :=
  Host.dotGeneral dot_S262144x3_S3x128_S262144x128_1_0_0_1_n_n none l A.w1
def mm2 (l : FVec F S262144x128 .f32) : FVec F S262144x128 .f32 :=
  Host.dotGeneral dot_S262144x128_S128x128_S262144x128_1_0_0_1_n_n none l A.w2
def mm3 (l : FVec F S262144x128 .f32) : FVec F S262144x64 .f32 :=
  Host.dotGeneral dot_S262144x128_S128x64_S262144x64_1_0_0_1_n_n none l A.w3
def mm4 (l : FVec F S262144x64 .f32) : FVec F S262144x1 .f32 :=
  Host.dotGeneral dot_S262144x64_S64x1_S262144x1_1_0_0_1_n_n none l A.w4

/-- A tangent g pushed through tanh at activation h: (g + g h)(1 - h). -/
def jv128 (g h : FVec F S262144x128 .f32) : FVec F S262144x128 .f32 := mulf (addf g (mulf g h)) (subf ones128 h)
def jv64 (g h : FVec F S262144x64 .f32) : FVec F S262144x64 .f32 := mulf (addf g (mulf g h)) (subf ones64 h)

/-- The tangent of `jv gi h` when h has tangent h' and gi has tangent s. -/
def jv2_128 (s gi h h' : FVec F S262144x128 .f32) : FVec F S262144x128 .f32 :=
  addf (mulf (addf s (addf (mulf s h) (mulf gi h'))) (subf ones128 h)) (mulf (addf gi (mulf gi h)) (Host.negf h'))
def jv2_64 (s gi h h' : FVec F S262144x64 .f32) : FVec F S262144x64 .f32 :=
  addf (mulf (addf s (addf (mulf s h) (mulf gi h'))) (subf ones64 h)) (mulf (addf gi (mulf gi h)) (Host.negf h'))

/-- The primal activations. -/
def H1 : FVec F S262144x128 .f32 := Host.tanh (addf (mm1 A A.x) (bias1 A))
def H2 : FVec F S262144x128 .f32 := Host.tanh (addf (mm2 A (H1 A)) (bias2 A))
def H3 : FVec F S262144x64 .f32 := Host.tanh (addf (mm3 A (H2 A)) (bias3 A))

/-- The first-order stream of the seed with literal table `lit`. -/
def G1 (lit : Fin 3 → BitVec 32) : FVec F S262144x128 .f32 := mm1 A (seed lit)
def P1 (lit : Fin 3 → BitVec 32) : FVec F S262144x128 .f32 := jv128 (G1 A lit) (H1 A)
def G2 (lit : Fin 3 → BitVec 32) : FVec F S262144x128 .f32 := mm2 A (P1 A lit)
def P2 (lit : Fin 3 → BitVec 32) : FVec F S262144x128 .f32 := jv128 (G2 A lit) (H2 A)
def G3 (lit : Fin 3 → BitVec 32) : FVec F S262144x64 .f32 := mm3 A (P2 A lit)
def P3 (lit : Fin 3 → BitVec 32) : FVec F S262144x64 .f32 := jv64 (G3 A lit) (H3 A)

/-- The value and the first derivative along a seed. -/
def T : FVec F S262144x1 .f32 := addf (mm4 A (H3 A)) (bias4 A)
def D (lit : Fin 3 → BitVec 32) : FVec F S262144x1 .f32 := mm4 A (P3 A lit)

/-- The second-order stream: outer tangent the table `lit0`, inner tangent the table `lit2`. -/
def Q1 : FVec F S262144x128 .f32 :=
  addf (mulf (mulf (G1 A lit2) (P1 A lit0)) (subf ones128 (H1 A)))
    (mulf (addf (G1 A lit2) (mulf (G1 A lit2) (H1 A))) (Host.negf (P1 A lit0)))
def S2 : FVec F S262144x128 .f32 := mm2 A (Q1 A)
def Q2 : FVec F S262144x128 .f32 := jv2_128 (S2 A) (G2 A lit2) (H2 A) (P2 A lit0)
def S3 : FVec F S262144x64 .f32 := mm3 A (Q2 A)
def Q3 : FVec F S262144x64 .f32 := jv2_64 (S3 A) (G3 A lit2) (H3 A) (P3 A lit0)
def DD : FVec F S262144x1 .f32 := mm4 A (Q3 A)

/-- A result column: flattened to a vector and put back as a column. -/
def col (v : FVec F S262144x1 .f32) : FVec F S262144x1 .f32 :=
  broadcastInDim S262144x1 ![0] bcast_S262144_S262144x1_0 (shapeCast S262144 v shapeCasts_S262144x1_S262144)

/-- The program's result: value, d/dz, d/dt, d²/dz², side by side. -/
def out : FVec F S262144x4 .f32 :=
  concatenate S262144x4 1 [⟨S262144x1, col (T A)⟩, ⟨S262144x1, col (D A lit0)⟩, ⟨S262144x1, col (D A lit1)⟩,
    ⟨S262144x1, col (DD A)⟩] concatenates_S262144x1_S262144x1_S262144x1_S262144x1_S262144x4_d1

end Cert.ReferenceIdeal.Term

end
-- ==== Proof.RefOps.lean ====
import proofs.«130666_j46514495816298_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations 1 to 60 of the 188 of @main (its window 0), in order. -/
abbrev ops_part0 : List (HloOp τ sig (Elt F)) :=
  [ nullary main_cst (fun i => FloatOps.ofBits .f32 (lit0 (S3.rowMajor i))),
    nullary main_cst_0 (fun i => FloatOps.ofBits .f32 (lit1 (S3.rowMajor i))),
    nullary main_cst_1 (fun i => FloatOps.ofBits .f32 (lit2 (S3.rowMajor i))),
    unary main_cst main_v0 (broadcastInDim S262144x3 ![1] bcast_S3_S262144x3_1 : (⟨S3, .f32⟩ : BufTy).Contents (Elt F) → (⟨S262144x3, .f32⟩ : BufTy).Contents (Elt F)),
    unary main_cst_0 main_v1 (broadcastInDim S262144x3 ![1] bcast_S3_S262144x3_1 : (⟨S3, .f32⟩ : BufTy).Contents (Elt F) → (⟨S262144x3, .f32⟩ : BufTy).Contents (Elt F)),
    binary main_arg0 main_arg1 main_v2 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    binary main_v0 main_arg1 main_v3 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    unary main_arg2 main_v4 (broadcastInDim S1x128 ![1] bcast_S128_S1x128_1 : (⟨S128, .f32⟩ : BufTy).Contents (Elt F) → (⟨S1x128, .f32⟩ : BufTy).Contents (Elt F)),
    unary main_v4 main_v5 (broadcastInDim S262144x128 ![0, 1] bcast_S1x128_S262144x128_0_1 : (⟨S1x128, .f32⟩ : BufTy).Contents (Elt F) → (⟨S262144x128, .f32⟩ : BufTy).Contents (Elt F)),
    binary main_v2 main_v5 main_v6 (addf : (⟨S262144x128, .f32⟩ : BufTy).Contents (Elt F) → (⟨S262144x128, .f32⟩ : BufTy).Contents (Elt F) → (⟨S262144x128, .f32⟩ : BufTy).Contents (Elt F)),
    unary main_v6 main_v7 (Host.tanh : (⟨S262144x128, .f32⟩ : BufTy).Contents (Elt F) → (⟨S262144x128, .f32⟩ : BufTy).Contents (Elt F)),
    binary main_v3 main_v7 main_v8 (mulf : (⟨S262144x128, .f32⟩ : BufTy).Contents (Elt F) → (⟨S262144x128, .f32⟩ : BufTy).Contents (Elt F) → (⟨S262144x128, .f32⟩ : BufTy).Contents (Elt F)),
    binary main_v3 main_v8 main_v9 (addf : (⟨S262144x128, .f32⟩ : BufTy).Contents (Elt F) → (⟨S262144x128, .f32⟩ : BufTy).Contents (Elt F) → (⟨S262144x128, .f32⟩ : BufTy).Contents (Elt F)),
    nullary main_cst_2 (constant S_ .f32 0x3F800000#32),
    unary main_cst_2 main_v10 (broadcastInDim S262144x128 ![] bcast_S_S262144x128 : (⟨S_, .f32⟩ : BufTy).Contents (Elt F) → (⟨S262144x128, .f32⟩ : BufTy).Contents (Elt F)),
    binary main_v10 main_v7 main_v11 (subf : (⟨S262144x128, .f32⟩ : BufTy).Contents (Elt F) → (⟨S262144x128, .f32⟩ : BufTy).Contents (Elt F) → (⟨S262144x128, .f32⟩ : BufTy).Contents (Elt F)),
    binary main_v9 main_v11 main_v12 (mulf : (⟨S262144x128, .f32⟩ : BufTy).Contents (Elt F) → (⟨S262144x128, .f32⟩ : BufTy).Contents (Elt F) → (⟨S262144x128, .f32⟩ : BufTy).Contents (Elt F)),
    binary main_v7 main_arg3 main_v13 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v12 main_arg3 main_v14 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg4 main_v15 (broadcastInDim S1x128 ![1] bcast_S128_S1x128_1 : (⟨S128, .f32⟩ : BufTy).Contents (Elt F) → (⟨S1x128, .f32⟩ : BufTy).Contents (Elt F)),
    unary main_v15 main_v16 (broadcastInDim S262144x128 ![0, 1] bcast_S1x128_S262144x128_0_1 : (⟨S1x128, .f32⟩ : BufTy).Contents (Elt F) → (⟨S262144x128, .f32⟩ : BufTy).Contents (Elt F)),
    binary main_v13 main_v16 main_v17 (addf : (⟨S262144x128, .f32⟩ : BufTy).Contents (Elt F) → (⟨S262144x128, .f32⟩ : BufTy).Contents (Elt F) → (⟨S262144x128, .f32⟩ : BufTy).Contents (Elt F)),
    unary main_v17 main_v18 (Host.tanh : (⟨S262144x128, .f32⟩ : BufTy).Contents (Elt F) → (⟨S262144x128, .f32⟩ : BufTy).Contents (Elt F)),
    binary main_v14 main_v18 main_v19 (mulf : (⟨S262144x128, .f32⟩ : BufTy).Contents (Elt F) → (⟨S262144x128, .f32⟩ : BufTy).Contents (Elt F) → (⟨S262144x128, .f32⟩ : BufTy).Contents (Elt F)),
    binary main_v14 main_v19 main_v20 (addf : (⟨S262144x128, .f32⟩ : BufTy).Contents (Elt F) → (⟨S262144x128, .f32⟩ : BufTy).Contents (Elt F) → (⟨S262144x128, .f32⟩ : BufTy).Contents (Elt F)),
    nullary main_cst_3 (constant S_ .f32 0x3F800000#32),
    unary main_cst_3 main_v21 (broadcastInDim S262144x128 ![] bcast_S_S262144x128 : (⟨S_, .f32⟩ : BufTy).Contents (Elt F) → (⟨S262144x128, .f32⟩ : BufTy).Contents (Elt F)),
    binary main_v21 main_v18 main_v22 (subf : (⟨S262144x128, .f32⟩ : BufTy).Contents (Elt F) → (⟨S262144x128, .f32⟩ : BufTy).Contents (Elt F) → (⟨S262144x128, .f32⟩ : BufTy).Contents (Elt F)),
    binary main_v20 main_v22 main_v23 (mulf : (⟨S262144x128, .f32⟩ : BufTy).Contents (Elt F) → (⟨S262144x128, .f32⟩ : BufTy).Contents (Elt F) → (⟨S262144x128, .f32⟩ : BufTy).Contents (Elt F)),
    binary main_v18 main_arg5 main_v24 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    binary main_v23 main_arg5 main_v25 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    unary main_arg6 main_v26 (broadcastInDim S1x64 ![1] bcast_S64_S1x64_1 : (⟨S64, .f32⟩ : BufTy).Contents (Elt F) → (⟨S1x64, .f32⟩ : BufTy).Contents (Elt F)),
    unary main_v26 main_v27 (broadcastInDim S262144x64 ![0, 1] bcast_S1x64_S262144x64_0_1 : (⟨S1x64, .f32⟩ : BufTy).Contents (Elt F) → (⟨S262144x64, .f32⟩ : BufTy).Contents (Elt F)),
    binary main_v24 main_v27 main_v28 (addf : (⟨S262144x64, .f32⟩ : BufTy).Contents (Elt F) → (⟨S262144x64, .f32⟩ : BufTy).Contents (Elt F) → (⟨S262144x64, .f32⟩ : BufTy).Contents (Elt F)),
    unary main_v28 main_v29 (Host.tanh : (⟨S262144x64, .f32⟩ : BufTy).Contents (Elt F) → (⟨S262144x64, .f32⟩ : BufTy).Contents (Elt F)),
    binary main_v25 main_v29 main_v30 (mulf : (⟨S262144x64, .f32⟩ : BufTy).Contents (Elt F) → (⟨S262144x64, .f32⟩ : BufTy).Contents (Elt F) → (⟨S262144x64, .f32⟩ : BufTy).Contents (Elt F)),
    binary main_v25 main_v30 main_v31 (addf : (⟨S262144x64, .f32⟩ : BufTy).Contents (Elt F) → (⟨S262144x64, .f32⟩ : BufTy).Contents (Elt F) → (⟨S262144x64, .f32⟩ : BufTy).Contents (Elt F)),
    nullary main_cst_4 (constant S_ .f32 0x3F800000#32),
    unary main_cst_4 main_v32 (broadcastInDim S262144x64 ![] bcast_S_S262144x64 : (⟨S_, .f32⟩ : BufTy).Contents (Elt F) → (⟨S262144x64, .f32⟩ : BufTy).Contents (Elt F)),
    binary main_v32 main_v29 main_v33 (subf : (⟨S262144x64, .f32⟩ : BufTy).Contents (Elt F) → (⟨S262144x64, .f32⟩ : BufTy).Contents (Elt F) → (⟨S262144x64, .f32⟩ : BufTy).Contents (Elt F)),
    binary main_v31 main_v33 main_v34 (mulf : (⟨S262144x64, .f32⟩ : BufTy).Contents (Elt F) → (⟨S262144x64, .f32⟩ : BufTy).Contents (Elt F) → (⟨S262144x64, .f32⟩ : BufTy).Contents (Elt F)),
    binary main_v29 main_arg7 main_v35 ((fun l r => Host.dotGeneral dot_S262144x64_S64x1_S262144x1_1_0_0_1_n_n none l r) : (⟨S262144x64, .f32⟩ : BufTy).Contents (Elt F) → (⟨S64x1, .f32⟩ : BufTy).Contents (Elt F) → (⟨S262144x1, .f32⟩ : BufTy).Contents (Elt F)),
    binary main_v34 main_arg7 main_v36 ((fun l r => Host.dotGeneral dot_S262144x64_S64x1_S262144x1_1_0_0_1_n_n none l r) : (⟨S262144x64, .f32⟩ : BufTy).Contents (Elt F) → (⟨S64x1, .f32⟩ : BufTy).Contents (Elt F) → (⟨S262144x1, .f32⟩ : BufTy).Contents (Elt F)),
    unary main_arg8 main_v37 (broadcastInDim S1x1 ![1] bcast_S1_S1x1_1 : (⟨S1, .f32⟩ : BufTy).Contents (Elt F) → (⟨S1x1, .f32⟩ : BufTy).Contents (Elt F)),
    unary main_v37 main_v38 (broadcastInDim S262144x1 ![0, 1] bcast_S1x1_S262144x1_0_1 : (⟨S1x1, .f32⟩ : BufTy).Contents (Elt F) → (⟨S262144x1, .f32⟩ : BufTy).Contents (Elt F)),
    binary main_v35 main_v38 main_v39 (addf : (⟨S262144x1, .f32⟩ : BufTy).Contents (Elt F) → (⟨S262144x1, .f32⟩ : BufTy).Contents (Elt F) → (⟨S262144x1, .f32⟩ : BufTy).Contents (Elt F)),
    reshape main_v39 main_v40 rfl shapeCasts_S262144x1_S262144,
    reshape main_v36 main_v41 rfl shapeCasts_S262144x1_S262144,
    binary main_arg0 main_arg1 main_v42 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    binary main_v1 main_arg1 main_v43 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    unary main_arg2 main_v44 (broadcastInDim S1x128 ![1] bcast_S128_S1x128_1 : (⟨S128, .f32⟩ : BufTy).Contents (Elt F) → (⟨S1x128, .f32⟩ : BufTy).Contents (Elt F)),
    unary main_v44 main_v45 (broadcastInDim S262144x128 ![0, 1] bcast_S1x128_S262144x128_0_1 : (⟨S1x128, .f32⟩ : BufTy).Contents (Elt F) → (⟨S262144x128, .f32⟩ : BufTy).Contents (Elt F)),
    binary main_v42 main_v45 main_v46 (addf : (⟨S262144x128, .f32⟩ : BufTy).Contents (Elt F) → (⟨S262144x128, .f32⟩ : BufTy).Contents (Elt F) → (⟨S262144x128, .f32⟩ : BufTy).Contents (Elt F)),
    unary main_v46 main_v47 (Host.tanh : (⟨S262144x128, .f32⟩ : BufTy).Contents (Elt F) → (⟨S262144x128, .f32⟩ : BufTy).Contents (Elt F)),
    binary main_v43 main_v47 main_v48 (mulf : (⟨S262144x128, .f32⟩ : BufTy).Contents (Elt F) → (⟨S262144x128, .f32⟩ : BufTy).Contents (Elt F) → (⟨S262144x128, .f32⟩ : BufTy).Contents (Elt F)),
    binary main_v43 main_v48 main_v49 (addf : (⟨S262144x128, .f32⟩ : BufTy).Contents (Elt F) → (⟨S262144x128, .f32⟩ : BufTy).Contents (Elt F) → (⟨S262144x128, .f32⟩ : BufTy).Contents (Elt F)),
    nullary main_cst_5 (constant S_ .f32 0x3F800000#32),
    unary main_cst_5 main_v50 (broadcastInDim S262144x128 ![] bcast_S_S262144x128 : (⟨S_, .f32⟩ : BufTy).Contents (Elt F) → (⟨S262144x128, .f32⟩ : BufTy).Contents (Elt F)),
    binary main_v50 main_v47 main_v51 (subf : (⟨S262144x128, .f32⟩ : BufTy).Contents (Elt F) → (⟨S262144x128, .f32⟩ : BufTy).Contents (Elt F) → (⟨S262144x128, .f32⟩ : BufTy).Contents (Elt F)),
    binary main_v49 main_v51 main_v52 (mulf : (⟨S262144x128, .f32⟩ : BufTy).Contents (Elt F) → (⟨S262144x128, .f32⟩ : BufTy).Contents (Elt F) → (⟨S262144x128, .f32⟩ : BufTy).Contents (Elt F)) ]

/-- The operations 61 to 120 of the 188 of @main (its window 1), in order. -/
abbrev ops_part1 : List (HloOp τ sig (Elt F)) :=
  [ binary main_v47 main_arg3 main_v53 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v52 main_arg3 main_v54 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg4 main_v55 (broadcastInDim S1x128 ![1] bcast_S128_S1x128_1 : (⟨S128, .f32⟩ : BufTy).Contents (Elt F) → (⟨S1x128, .f32⟩ : BufTy).Contents (Elt F)),
    unary main_v55 main_v56 (broadcastInDim S262144x128 ![0, 1] bcast_S1x128_S262144x128_0_1 : (⟨S1x128, .f32⟩ : BufTy).Contents (Elt F) → (⟨S262144x128, .f32⟩ : BufTy).Contents (Elt F)),
    binary main_v53 main_v56 main_v57 (addf : (⟨S262144x128, .f32⟩ : BufTy).Contents (Elt F) → (⟨S262144x128, .f32⟩ : BufTy).Contents (Elt F) → (⟨S262144x128, .f32⟩ : BufTy).Contents (Elt F)),
    unary main_v57 main_v58 (Host.tanh : (⟨S262144x128, .f32⟩ : BufTy).Contents (Elt F) → (⟨S262144x128, .f32⟩ : BufTy).Contents (Elt F)),
    binary main_v54 main_v58 main_v59 (mulf : (⟨S262144x128, .f32⟩ : BufTy).Contents (Elt F) → (⟨S262144x128, .f32⟩ : BufTy).Contents (Elt F) → (⟨S262144x128, .f32⟩ : BufTy).Contents (Elt F)),
    binary main_v54 main_v59 main_v60 (addf : (⟨S262144x128, .f32⟩ : BufTy).Contents (Elt F) → (⟨S262144x128, .f32⟩ : BufTy).Contents (Elt F) → (⟨S262144x128, .f32⟩ : BufTy).Contents (Elt F)),
    nullary main_cst_6 (constant S_ .f32 0x3F800000#32),
    unary main_cst_6 main_v61 (broadcastInDim S262144x128 ![] bcast_S_S262144x128 : (⟨S_, .f32⟩ : BufTy).Contents (Elt F) → (⟨S262144x128, .f32⟩ : BufTy).Contents (Elt F)),
    binary main_v61 main_v58 main_v62 (subf : (⟨S262144x128, .f32⟩ : BufTy).Contents (Elt F) → (⟨S262144x128, .f32⟩ : BufTy).Contents (Elt F) → (⟨S262144x128, .f32⟩ : BufTy).Contents (Elt F)),
    binary main_v60 main_v62 main_v63 (mulf : (⟨S262144x128, .f32⟩ : BufTy).Contents (Elt F) → (⟨S262144x128, .f32⟩ : BufTy).Contents (Elt F) → (⟨S262144x128, .f32⟩ : BufTy).Contents (Elt F)),
    binary main_v58 main_arg5 main_v64 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    binary main_v63 main_arg5 main_v65 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    unary main_arg6 main_v66 (broadcastInDim S1x64 ![1] bcast_S64_S1x64_1 : (⟨S64, .f32⟩ : BufTy).Contents (Elt F) → (⟨S1x64, .f32⟩ : BufTy).Contents (Elt F)),
    unary main_v66 main_v67 (broadcastInDim S262144x64 ![0, 1] bcast_S1x64_S262144x64_0_1 : (⟨S1x64, .f32⟩ : BufTy).Contents (Elt F) → (⟨S262144x64, .f32⟩ : BufTy).Contents (Elt F)),
    binary main_v64 main_v67 main_v68 (addf : (⟨S262144x64, .f32⟩ : BufTy).Contents (Elt F) → (⟨S262144x64, .f32⟩ : BufTy).Contents (Elt F) → (⟨S262144x64, .f32⟩ : BufTy).Contents (Elt F)),
    unary main_v68 main_v69 (Host.tanh : (⟨S262144x64, .f32⟩ : BufTy).Contents (Elt F) → (⟨S262144x64, .f32⟩ : BufTy).Contents (Elt F)),
    binary main_v65 main_v69 main_v70 (mulf : (⟨S262144x64, .f32⟩ : BufTy).Contents (Elt F) → (⟨S262144x64, .f32⟩ : BufTy).Contents (Elt F) → (⟨S262144x64, .f32⟩ : BufTy).Contents (Elt F)),
    binary main_v65 main_v70 main_v71 (addf : (⟨S262144x64, .f32⟩ : BufTy).Contents (Elt F) → (⟨S262144x64, .f32⟩ : BufTy).Contents (Elt F) → (⟨S262144x64, .f32⟩ : BufTy).Contents (Elt F)),
    nullary main_cst_7 (constant S_ .f32 0x3F800000#32),
    unary main_cst_7 main_v72 (broadcastInDim S262144x64 ![] bcast_S_S262144x64 : (⟨S_, .f32⟩ : BufTy).Contents (Elt F) → (⟨S262144x64, .f32⟩ : BufTy).Contents (Elt F)),
    binary main_v72 main_v69 main_v73 (subf : (⟨S262144x64, .f32⟩ : BufTy).Contents (Elt F) → (⟨S262144x64, .f32⟩ : BufTy).Contents (Elt F) → (⟨S262144x64, .f32⟩ : BufTy).Contents (Elt F)),
    binary main_v71 main_v73 main_v74 (mulf : (⟨S262144x64, .f32⟩ : BufTy).Contents (Elt F) → (⟨S262144x64, .f32⟩ : BufTy).Contents (Elt F) → (⟨S262144x64, .f32⟩ : BufTy).Contents (Elt F)),
    binary main_v69 main_arg7 main_v75 ((fun l r => Host.dotGeneral dot_S262144x64_S64x1_S262144x1_1_0_0_1_n_n none l r) : (⟨S262144x64, .f32⟩ : BufTy).Contents (Elt F) → (⟨S64x1, .f32⟩ : BufTy).Contents (Elt F) → (⟨S262144x1, .f32⟩ : BufTy).Contents (Elt F)),
    binary main_v74 main_arg7 main_v76 ((fun l r => Host.dotGeneral dot_S262144x64_S64x1_S262144x1_1_0_0_1_n_n none l r) : (⟨S262144x64, .f32⟩ : BufTy).Contents (Elt F) → (⟨S64x1, .f32⟩ : BufTy).Contents (Elt F) → (⟨S262144x1, .f32⟩ : BufTy).Contents (Elt F)),
    unary main_arg8 main_v77 (broadcastInDim S1x1 ![1] bcast_S1_S1x1_1 : (⟨S1, .f32⟩ : BufTy).Contents (Elt F) → (⟨S1x1, .f32⟩ : BufTy).Contents (Elt F)),
    unary main_v77 main_v78 (broadcastInDim S262144x1 ![0, 1] bcast_S1x1_S262144x1_0_1 : (⟨S1x1, .f32⟩ : BufTy).Contents (Elt F) → (⟨S262144x1, .f32⟩ : BufTy).Contents (Elt F)),
    binary main_v75 main_v78 main_v79 (addf : (⟨S262144x1, .f32⟩ : BufTy).Contents (Elt F) → (⟨S262144x1, .f32⟩ : BufTy).Contents (Elt F) → (⟨S262144x1, .f32⟩ : BufTy).Contents (Elt F)),
    reshape main_v79 main_v80 rfl shapeCasts_S262144x1_S262144,
    reshape main_v76 main_v81 rfl shapeCasts_S262144x1_S262144,
    unary main_cst_1 main_v82 (broadcastInDim S262144x3 ![1] bcast_S3_S262144x3_1 : (⟨S3, .f32⟩ : BufTy).Contents (Elt F) → (⟨S262144x3, .f32⟩ : BufTy).Contents (Elt F)),
    binary main_arg0 main_arg1 main_v83 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    binary main_v0 main_arg1 main_v84 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    binary main_v82 main_arg1 main_v85 ((fun l r => Host.dotGeneral dot_S262144x3_S3x128_S262144x128_1_0_0_1_n_n none l r) : (⟨S262144x3, .f32⟩ : BufTy).Contents (Elt F) → (⟨S3x128, .f32⟩ : BufTy).Contents (Elt F) → (⟨S262144x128, .f32⟩ : BufTy).Contents (Elt F)),
    unary main_arg2 main_v86 (broadcastInDim S1x128 ![1] bcast_S128_S1x128_1 : (⟨S128, .f32⟩ : BufTy).Contents (Elt F) → (⟨S1x128, .f32⟩ : BufTy).Contents (Elt F)),
    unary main_v86 main_v87 (broadcastInDim S262144x128 ![0, 1] bcast_S1x128_S262144x128_0_1 : (⟨S1x128, .f32⟩ : BufTy).Contents (Elt F) → (⟨S262144x128, .f32⟩ : BufTy).Contents (Elt F)),
    binary main_v83 main_v87 main_v88 (addf : (⟨S262144x128, .f32⟩ : BufTy).Contents (Elt F) → (⟨S262144x128, .f32⟩ : BufTy).Contents (Elt F) → (⟨S262144x128, .f32⟩ : BufTy).Contents (Elt F)),
    unary main_v88 main_v89 (Host.tanh : (⟨S262144x128, .f32⟩ : BufTy).Contents (Elt F) → (⟨S262144x128, .f32⟩ : BufTy).Contents (Elt F)),
    binary main_v84 main_v89 main_v90 (mulf : (⟨S262144x128, .f32⟩ : BufTy).Contents (Elt F) → (⟨S262144x128, .f32⟩ : BufTy).Contents (Elt F) → (⟨S262144x128, .f32⟩ : BufTy).Contents (Elt F)),
    binary main_v84 main_v90 main_v91 (addf : (⟨S262144x128, .f32⟩ : BufTy).Contents (Elt F) → (⟨S262144x128, .f32⟩ : BufTy).Contents (Elt F) → (⟨S262144x128, .f32⟩ : BufTy).Contents (Elt F)),
    nullary main_cst_8 (constant S_ .f32 0x3F800000#32),
    unary main_cst_8 main_v92 (broadcastInDim S262144x128 ![] bcast_S_S262144x128 : (⟨S_, .f32⟩ : BufTy).Contents (Elt F) → (⟨S262144x128, .f32⟩ : BufTy).Contents (Elt F)),
    binary main_v92 main_v89 main_v93 (subf : (⟨S262144x128, .f32⟩ : BufTy).Contents (Elt F) → (⟨S262144x128, .f32⟩ : BufTy).Contents (Elt F) → (⟨S262144x128, .f32⟩ : BufTy).Contents (Elt F)),
    binary main_v91 main_v93 main_v94 (mulf : (⟨S262144x128, .f32⟩ : BufTy).Contents (Elt F) → (⟨S262144x128, .f32⟩ : BufTy).Contents (Elt F) → (⟨S262144x128, .f32⟩ : BufTy).Contents (Elt F)),
    binary main_v85 main_v89 main_v95 (mulf : (⟨S262144x128, .f32⟩ : BufTy).Contents (Elt F) → (⟨S262144x128, .f32⟩ : BufTy).Contents (Elt F) → (⟨S262144x128, .f32⟩ : BufTy).Contents (Elt F)),
    binary main_v85 main_v94 main_v96 (mulf : (⟨S262144x128, .f32⟩ : BufTy).Contents (Elt F) → (⟨S262144x128, .f32⟩ : BufTy).Contents (Elt F) → (⟨S262144x128, .f32⟩ : BufTy).Contents (Elt F)),
    binary main_v85 main_v95 main_v97 (addf : (⟨S262144x128, .f32⟩ : BufTy).Contents (Elt F) → (⟨S262144x128, .f32⟩ : BufTy).Contents (Elt F) → (⟨S262144x128, .f32⟩ : BufTy).Contents (Elt F)),
    nullary main_cst_9 (constant S_ .f32 0x3F800000#32),
    unary main_cst_9 main_v98 (broadcastInDim S262144x128 ![] bcast_S_S262144x128 : (⟨S_, .f32⟩ : BufTy).Contents (Elt F) → (⟨S262144x128, .f32⟩ : BufTy).Contents (Elt F)),
    binary main_v98 main_v89 main_v99 (subf : (⟨S262144x128, .f32⟩ : BufTy).Contents (Elt F) → (⟨S262144x128, .f32⟩ : BufTy).Contents (Elt F) → (⟨S262144x128, .f32⟩ : BufTy).Contents (Elt F)),
    unary main_v94 main_v100 (Host.negf : (⟨S262144x128, .f32⟩ : BufTy).Contents (Elt F) → (⟨S262144x128, .f32⟩ : BufTy).Contents (Elt F)),
    binary main_v97 main_v99 main_v101 (mulf : (⟨S262144x128, .f32⟩ : BufTy).Contents (Elt F) → (⟨S262144x128, .f32⟩ : BufTy).Contents (Elt F) → (⟨S262144x128, .f32⟩ : BufTy).Contents (Elt F)),
    binary main_v96 main_v99 main_v102 (mulf : (⟨S262144x128, .f32⟩ : BufTy).Contents (Elt F) → (⟨S262144x128, .f32⟩ : BufTy).Contents (Elt F) → (⟨S262144x128, .f32⟩ : BufTy).Contents (Elt F)),
    binary main_v97 main_v100 main_v103 (mulf : (⟨S262144x128, .f32⟩ : BufTy).Contents (Elt F) → (⟨S262144x128, .f32⟩ : BufTy).Contents (Elt F) → (⟨S262144x128, .f32⟩ : BufTy).Contents (Elt F)),
    binary main_v102 main_v103 main_v104 (addf : (⟨S262144x128, .f32⟩ : BufTy).Contents (Elt F) → (⟨S262144x128, .f32⟩ : BufTy).Contents (Elt F) → (⟨S262144x128, .f32⟩ : BufTy).Contents (Elt F)),
    binary main_v89 main_arg3 main_v105 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v94 main_arg3 main_v106 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v101 main_arg3 main_v107 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v104 main_arg3 main_v108 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)) ]

/-- The operations 121 to 180 of the 188 of @main (its window 2), in order. -/
abbrev ops_part2 : List (HloOp τ sig (Elt F)) :=
  [ unary main_arg4 main_v109 (broadcastInDim S1x128 ![1] bcast_S128_S1x128_1 : (⟨S128, .f32⟩ : BufTy).Contents (Elt F) → (⟨S1x128, .f32⟩ : BufTy).Contents (Elt F)),
    unary main_v109 main_v110 (broadcastInDim S262144x128 ![0, 1] bcast_S1x128_S262144x128_0_1 : (⟨S1x128, .f32⟩ : BufTy).Contents (Elt F) → (⟨S262144x128, .f32⟩ : BufTy).Contents (Elt F)),
    binary main_v105 main_v110 main_v111 (addf : (⟨S262144x128, .f32⟩ : BufTy).Contents (Elt F) → (⟨S262144x128, .f32⟩ : BufTy).Contents (Elt F) → (⟨S262144x128, .f32⟩ : BufTy).Contents (Elt F)),
    unary main_v111 main_v112 (Host.tanh : (⟨S262144x128, .f32⟩ : BufTy).Contents (Elt F) → (⟨S262144x128, .f32⟩ : BufTy).Contents (Elt F)),
    binary main_v106 main_v112 main_v113 (mulf : (⟨S262144x128, .f32⟩ : BufTy).Contents (Elt F) → (⟨S262144x128, .f32⟩ : BufTy).Contents (Elt F) → (⟨S262144x128, .f32⟩ : BufTy).Contents (Elt F)),
    binary main_v106 main_v113 main_v114 (addf : (⟨S262144x128, .f32⟩ : BufTy).Contents (Elt F) → (⟨S262144x128, .f32⟩ : BufTy).Contents (Elt F) → (⟨S262144x128, .f32⟩ : BufTy).Contents (Elt F)),
    nullary main_cst_10 (constant S_ .f32 0x3F800000#32),
    unary main_cst_10 main_v115 (broadcastInDim S262144x128 ![] bcast_S_S262144x128 : (⟨S_, .f32⟩ : BufTy).Contents (Elt F) → (⟨S262144x128, .f32⟩ : BufTy).Contents (Elt F)),
    binary main_v115 main_v112 main_v116 (subf : (⟨S262144x128, .f32⟩ : BufTy).Contents (Elt F) → (⟨S262144x128, .f32⟩ : BufTy).Contents (Elt F) → (⟨S262144x128, .f32⟩ : BufTy).Contents (Elt F)),
    binary main_v114 main_v116 main_v117 (mulf : (⟨S262144x128, .f32⟩ : BufTy).Contents (Elt F) → (⟨S262144x128, .f32⟩ : BufTy).Contents (Elt F) → (⟨S262144x128, .f32⟩ : BufTy).Contents (Elt F)),
    binary main_v107 main_v112 main_v118 (mulf : (⟨S262144x128, .f32⟩ : BufTy).Contents (Elt F) → (⟨S262144x128, .f32⟩ : BufTy).Contents (Elt F) → (⟨S262144x128, .f32⟩ : BufTy).Contents (Elt F)),
    binary main_v108 main_v112 main_v119 (mulf : (⟨S262144x128, .f32⟩ : BufTy).Contents (Elt F) → (⟨S262144x128, .f32⟩ : BufTy).Contents (Elt F) → (⟨S262144x128, .f32⟩ : BufTy).Contents (Elt F)),
    binary main_v107 main_v117 main_v120 (mulf : (⟨S262144x128, .f32⟩ : BufTy).Contents (Elt F) → (⟨S262144x128, .f32⟩ : BufTy).Contents (Elt F) → (⟨S262144x128, .f32⟩ : BufTy).Contents (Elt F)),
    binary main_v119 main_v120 main_v121 (addf : (⟨S262144x128, .f32⟩ : BufTy).Contents (Elt F) → (⟨S262144x128, .f32⟩ : BufTy).Contents (Elt F) → (⟨S262144x128, .f32⟩ : BufTy).Contents (Elt F)),
    binary main_v107 main_v118 main_v122 (addf : (⟨S262144x128, .f32⟩ : BufTy).Contents (Elt F) → (⟨S262144x128, .f32⟩ : BufTy).Contents (Elt F) → (⟨S262144x128, .f32⟩ : BufTy).Contents (Elt F)),
    binary main_v108 main_v121 main_v123 (addf : (⟨S262144x128, .f32⟩ : BufTy).Contents (Elt F) → (⟨S262144x128, .f32⟩ : BufTy).Contents (Elt F) → (⟨S262144x128, .f32⟩ : BufTy).Contents (Elt F)),
    nullary main_cst_11 (constant S_ .f32 0x3F800000#32),
    unary main_cst_11 main_v124 (broadcastInDim S262144x128 ![] bcast_S_S262144x128 : (⟨S_, .f32⟩ : BufTy).Contents (Elt F) → (⟨S262144x128, .f32⟩ : BufTy).Contents (Elt F)),
    binary main_v124 main_v112 main_v125 (subf : (⟨S262144x128, .f32⟩ : BufTy).Contents (Elt F) → (⟨S262144x128, .f32⟩ : BufTy).Contents (Elt F) → (⟨S262144x128, .f32⟩ : BufTy).Contents (Elt F)),
    unary main_v117 main_v126 (Host.negf : (⟨S262144x128, .f32⟩ : BufTy).Contents (Elt F) → (⟨S262144x128, .f32⟩ : BufTy).Contents (Elt F)),
    binary main_v122 main_v125 main_v127 (mulf : (⟨S262144x128, .f32⟩ : BufTy).Contents (Elt F) → (⟨S262144x128, .f32⟩ : BufTy).Contents (Elt F) → (⟨S262144x128, .f32⟩ : BufTy).Contents (Elt F)),
    binary main_v123 main_v125 main_v128 (mulf : (⟨S262144x128, .f32⟩ : BufTy).Contents (Elt F) → (⟨S262144x128, .f32⟩ : BufTy).Contents (Elt F) → (⟨S262144x128, .f32⟩ : BufTy).Contents (Elt F)),
    binary main_v122 main_v126 main_v129 (mulf : (⟨S262144x128, .f32⟩ : BufTy).Contents (Elt F) → (⟨S262144x128, .f32⟩ : BufTy).Contents (Elt F) → (⟨S262144x128, .f32⟩ : BufTy).Contents (Elt F)),
    binary main_v128 main_v129 main_v130 (addf : (⟨S262144x128, .f32⟩ : BufTy).Contents (Elt F) → (⟨S262144x128, .f32⟩ : BufTy).Contents (Elt F) → (⟨S262144x128, .f32⟩ : BufTy).Contents (Elt F)),
    binary main_v112 main_arg5 main_v131 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    binary main_v117 main_arg5 main_v132 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    binary main_v127 main_arg5 main_v133 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    binary main_v130 main_arg5 main_v134 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    unary main_arg6 main_v135 (broadcastInDim S1x64 ![1] bcast_S64_S1x64_1 : (⟨S64, .f32⟩ : BufTy).Contents (Elt F) → (⟨S1x64, .f32⟩ : BufTy).Contents (Elt F)),
    unary main_v135 main_v136 (broadcastInDim S262144x64 ![0, 1] bcast_S1x64_S262144x64_0_1 : (⟨S1x64, .f32⟩ : BufTy).Contents (Elt F) → (⟨S262144x64, .f32⟩ : BufTy).Contents (Elt F)),
    binary main_v131 main_v136 main_v137 (addf : (⟨S262144x64, .f32⟩ : BufTy).Contents (Elt F) → (⟨S262144x64, .f32⟩ : BufTy).Contents (Elt F) → (⟨S262144x64, .f32⟩ : BufTy).Contents (Elt F)),
    unary main_v137 main_v138 (Host.tanh : (⟨S262144x64, .f32⟩ : BufTy).Contents (Elt F) → (⟨S262144x64, .f32⟩ : BufTy).Contents (Elt F)),
    binary main_v132 main_v138 main_v139 (mulf : (⟨S262144x64, .f32⟩ : BufTy).Contents (Elt F) → (⟨S262144x64, .f32⟩ : BufTy).Contents (Elt F) → (⟨S262144x64, .f32⟩ : BufTy).Contents (Elt F)),
    binary main_v132 main_v139 main_v140 (addf : (⟨S262144x64, .f32⟩ : BufTy).Contents (Elt F) → (⟨S262144x64, .f32⟩ : BufTy).Contents (Elt F) → (⟨S262144x64, .f32⟩ : BufTy).Contents (Elt F)),
    nullary main_cst_12 (constant S_ .f32 0x3F800000#32),
    unary main_cst_12 main_v141 (broadcastInDim S262144x64 ![] bcast_S_S262144x64 : (⟨S_, .f32⟩ : BufTy).Contents (Elt F) → (⟨S262144x64, .f32⟩ : BufTy).Contents (Elt F)),
    binary main_v141 main_v138 main_v142 (subf : (⟨S262144x64, .f32⟩ : BufTy).Contents (Elt F) → (⟨S262144x64, .f32⟩ : BufTy).Contents (Elt F) → (⟨S262144x64, .f32⟩ : BufTy).Contents (Elt F)),
    binary main_v140 main_v142 main_v143 (mulf : (⟨S262144x64, .f32⟩ : BufTy).Contents (Elt F) → (⟨S262144x64, .f32⟩ : BufTy).Contents (Elt F) → (⟨S262144x64, .f32⟩ : BufTy).Contents (Elt F)),
    binary main_v133 main_v138 main_v144 (mulf : (⟨S262144x64, .f32⟩ : BufTy).Contents (Elt F) → (⟨S262144x64, .f32⟩ : BufTy).Contents (Elt F) → (⟨S262144x64, .f32⟩ : BufTy).Contents (Elt F)),
    binary main_v134 main_v138 main_v145 (mulf : (⟨S262144x64, .f32⟩ : BufTy).Contents (Elt F) → (⟨S262144x64, .f32⟩ : BufTy).Contents (Elt F) → (⟨S262144x64, .f32⟩ : BufTy).Contents (Elt F)),
    binary main_v133 main_v143 main_v146 (mulf : (⟨S262144x64, .f32⟩ : BufTy).Contents (Elt F) → (⟨S262144x64, .f32⟩ : BufTy).Contents (Elt F) → (⟨S262144x64, .f32⟩ : BufTy).Contents (Elt F)),
    binary main_v145 main_v146 main_v147 (addf : (⟨S262144x64, .f32⟩ : BufTy).Contents (Elt F) → (⟨S262144x64, .f32⟩ : BufTy).Contents (Elt F) → (⟨S262144x64, .f32⟩ : BufTy).Contents (Elt F)),
    binary main_v133 main_v144 main_v148 (addf : (⟨S262144x64, .f32⟩ : BufTy).Contents (Elt F) → (⟨S262144x64, .f32⟩ : BufTy).Contents (Elt F) → (⟨S262144x64, .f32⟩ : BufTy).Contents (Elt F)),
    binary main_v134 main_v147 main_v149 (addf : (⟨S262144x64, .f32⟩ : BufTy).Contents (Elt F) → (⟨S262144x64, .f32⟩ : BufTy).Contents (Elt F) → (⟨S262144x64, .f32⟩ : BufTy).Contents (Elt F)),
    nullary main_cst_13 (constant S_ .f32 0x3F800000#32),
    unary main_cst_13 main_v150 (broadcastInDim S262144x64 ![] bcast_S_S262144x64 : (⟨S_, .f32⟩ : BufTy).Contents (Elt F) → (⟨S262144x64, .f32⟩ : BufTy).Contents (Elt F)),
    binary main_v150 main_v138 main_v151 (subf : (⟨S262144x64, .f32⟩ : BufTy).Contents (Elt F) → (⟨S262144x64, .f32⟩ : BufTy).Contents (Elt F) → (⟨S262144x64, .f32⟩ : BufTy).Contents (Elt F)),
    unary main_v143 main_v152 (Host.negf : (⟨S262144x64, .f32⟩ : BufTy).Contents (Elt F) → (⟨S262144x64, .f32⟩ : BufTy).Contents (Elt F)),
    binary main_v148 main_v151 main_v153 (mulf : (⟨S262144x64, .f32⟩ : BufTy).Contents (Elt F) → (⟨S262144x64, .f32⟩ : BufTy).Contents (Elt F) → (⟨S262144x64, .f32⟩ : BufTy).Contents (Elt F)),
    binary main_v149 main_v151 main_v154 (mulf : (⟨S262144x64, .f32⟩ : BufTy).Contents (Elt F) → (⟨S262144x64, .f32⟩ : BufTy).Contents (Elt F) → (⟨S262144x64, .f32⟩ : BufTy).Contents (Elt F)),
    binary main_v148 main_v152 main_v155 (mulf : (⟨S262144x64, .f32⟩ : BufTy).Contents (Elt F) → (⟨S262144x64, .f32⟩ : BufTy).Contents (Elt F) → (⟨S262144x64, .f32⟩ : BufTy).Contents (Elt F)),
    binary main_v154 main_v155 main_v156 (addf : (⟨S262144x64, .f32⟩ : BufTy).Contents (Elt F) → (⟨S262144x64, .f32⟩ : BufTy).Contents (Elt F) → (⟨S262144x64, .f32⟩ : BufTy).Contents (Elt F)),
    binary main_v138 main_arg7 main_v157 ((fun l r => Host.dotGeneral dot_S262144x64_S64x1_S262144x1_1_0_0_1_n_n none l r) : (⟨S262144x64, .f32⟩ : BufTy).Contents (Elt F) → (⟨S64x1, .f32⟩ : BufTy).Contents (Elt F) → (⟨S262144x1, .f32⟩ : BufTy).Contents (Elt F)),
    binary main_v143 main_arg7 main_v158 ((fun l r => Host.dotGeneral dot_S262144x64_S64x1_S262144x1_1_0_0_1_n_n none l r) : (⟨S262144x64, .f32⟩ : BufTy).Contents (Elt F) → (⟨S64x1, .f32⟩ : BufTy).Contents (Elt F) → (⟨S262144x1, .f32⟩ : BufTy).Contents (Elt F)),
    binary main_v153 main_arg7 main_v159 ((fun l r => Host.dotGeneral dot_S262144x64_S64x1_S262144x1_1_0_0_1_n_n none l r) : (⟨S262144x64, .f32⟩ : BufTy).Contents (Elt F) → (⟨S64x1, .f32⟩ : BufTy).Contents (Elt F) → (⟨S262144x1, .f32⟩ : BufTy).Contents (Elt F)),
    binary main_v156 main_arg7 main_v160 ((fun l r => Host.dotGeneral dot_S262144x64_S64x1_S262144x1_1_0_0_1_n_n none l r) : (⟨S262144x64, .f32⟩ : BufTy).Contents (Elt F) → (⟨S64x1, .f32⟩ : BufTy).Contents (Elt F) → (⟨S262144x1, .f32⟩ : BufTy).Contents (Elt F)),
    unary main_arg8 main_v161 (broadcastInDim S1x1 ![1] bcast_S1_S1x1_1 : (⟨S1, .f32⟩ : BufTy).Contents (Elt F) → (⟨S1x1, .f32⟩ : BufTy).Contents (Elt F)),
    unary main_v161 main_v162 (broadcastInDim S262144x1 ![0, 1] bcast_S1x1_S262144x1_0_1 : (⟨S1x1, .f32⟩ : BufTy).Contents (Elt F) → (⟨S262144x1, .f32⟩ : BufTy).Contents (Elt F)),
    binary main_v157 main_v162 main_v163 (addf : (⟨S262144x1, .f32⟩ : BufTy).Contents (Elt F) → (⟨S262144x1, .f32⟩ : BufTy).Contents (Elt F) → (⟨S262144x1, .f32⟩ : BufTy).Contents (Elt F)),
    reshape main_v163 main_v164 rfl shapeCasts_S262144x1_S262144 ]

/-- The operations 181 to 188 of the 188 of @main (its window 3), in order. -/
abbrev ops_part3 : List (HloOp τ sig (Elt F)) :=
  [ reshape main_v158 main_v165 rfl shapeCasts_S262144x1_S262144,
    reshape main_v159 main_v166 rfl shapeCasts_S262144x1_S262144,
    reshape main_v160 main_v167 rfl shapeCasts_S262144x1_S262144,
    unary main_v40 main_v168 (broadcastInDim S262144x1 ![0] bcast_S262144_S262144x1_0 : (⟨S262144, .f32⟩ : BufTy).Contents (Elt F) → (⟨S262144x1, .f32⟩ : BufTy).Contents (Elt F)),
    unary main_v41 main_v169 (broadcastInDim S262144x1 ![0] bcast_S262144_S262144x1_0 : (⟨S262144, .f32⟩ : BufTy).Contents (Elt F) → (⟨S262144x1, .f32⟩ : BufTy).Contents (Elt F)),
    unary main_v81 main_v170 (broadcastInDim S262144x1 ![0] bcast_S262144_S262144x1_0 : (⟨S262144, .f32⟩ : BufTy).Contents (Elt F) → (⟨S262144x1, .f32⟩ : BufTy).Contents (Elt F)),
    unary main_v167 main_v171 (broadcastInDim S262144x1 ![0] bcast_S262144_S262144x1_0 : (⟨S262144, .f32⟩ : BufTy).Contents (Elt F) → (⟨S262144x1, .f32⟩ : BufTy).Contents (Elt F)),
    nary ![main_v168, main_v169, main_v170, main_v171] main_v172 (fun u => concatenate S262144x4 1 [⟨S262144x1, u 0⟩, ⟨S262144x1, u 1⟩, ⟨S262144x1, u 2⟩, ⟨S262144x1, u 3⟩] concatenates_S262144x1_S262144x1_S262144x1_S262144x1_S262144x4_d1) ]

/-- The 188 operations of @main, in order. -/
abbrev ops : List (HloOp τ sig (Elt F)) :=
  ops_part0 ++ (ops_part1 ++ (ops_part2 ++ (ops_part3)))

set_option maxRecDepth 8192 in
/-- Every operation of window 0 touches TensorCore references only. -/
theorem ops_part0_sub : (ops_part0 : List (HloOp τ sig (Elt F))).Forall fun op => op.bufs ⊆ tcRefs τ sig :=
  ⟨nullary_bufs_sub .., nullary_bufs_sub .., nullary_bufs_sub .., unary_bufs_sub .., unary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., unary_bufs_sub .., unary_bufs_sub .., binary_bufs_sub .., reshape_bufs_sub .., reshape_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub ..⟩

/-- The buffers that the operations of window 0 write. -/
abbrev ops_part0_W : List (Ref sig .tc) := [main_cst, main_cst_0, main_cst_1, main_v0, main_v1, main_v2, main_v3, main_v4, main_v5, main_v6, main_v7, main_v8, main_v9, main_cst_2, main_v10, main_v11, main_v12, main_v13, main_v14, main_v15, main_v16, main_v17, main_v18, main_v19, main_v20, main_cst_3, main_v21, main_v22, main_v23, main_v24, main_v25, main_v26, main_v27, main_v28, main_v29, main_v30, main_v31, main_cst_4, main_v32, main_v33, main_v34, main_v35, main_v36, main_v37, main_v38, main_v39, main_v40, main_v41, main_v42, main_v43, main_v44, main_v45, main_v46, main_v47, main_v48, main_v49, main_cst_5, main_v50, main_v51, main_v52]

set_option maxRecDepth 8192 in
/-- Every operation of window 1 touches TensorCore references only. -/
theorem ops_part1_sub : (ops_part1 : List (HloOp τ sig (Elt F))).Forall fun op => op.bufs ⊆ tcRefs τ sig :=
  ⟨binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., unary_bufs_sub .., unary_bufs_sub .., binary_bufs_sub .., reshape_bufs_sub .., reshape_bufs_sub .., unary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., unary_bufs_sub .., binary_bufs_sub .., binary_bufs_sub .., binary_bufs_sub .., binary_bufs_sub .., binary_bufs_sub .., binary_bufs_sub .., binary_bufs_sub .., binary_bufs_sub ..⟩

/-- The buffers that the operations of window 1 write. -/
abbrev ops_part1_W : List (Ref sig .tc) := [main_v53, main_v54, main_v55, main_v56, main_v57, main_v58, main_v59, main_v60, main_cst_6, main_v61, main_v62, main_v63, main_v64, main_v65, main_v66, main_v67, main_v68, main_v69, main_v70, main_v71, main_cst_7, main_v72, main_v73, main_v74, main_v75, main_v76, main_v77, main_v78, main_v79, main_v80, main_v81, main_v82, main_v83, main_v84, main_v85, main_v86, main_v87, main_v88, main_v89, main_v90, main_v91, main_cst_8, main_v92, main_v93, main_v94, main_v95, main_v96, main_v97, main_cst_9, main_v98, main_v99, main_v100, main_v101, main_v102, main_v103, main_v104, main_v105, main_v106, main_v107, main_v108]

set_option maxRecDepth 8192 in
/-- Every operation of window 2 touches TensorCore references only. -/
theorem ops_part2_sub : (ops_part2 : List (HloOp τ sig (Elt F))).Forall fun op => op.bufs ⊆ tcRefs τ sig :=
  ⟨unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., unary_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., unary_bufs_sub .., binary_bufs_sub .., binary_bufs_sub .., binary_bufs_sub .., binary_bufs_sub .., binary_bufs_sub .., binary_bufs_sub .., binary_bufs_sub .., binary_bufs_sub .., unary_bufs_sub .., unary_bufs_sub .., binary_bufs_sub .., reshape_bufs_sub ..⟩

/-- The buffers that the operations of window 2 write. -/
abbrev ops_part2_W : List (Ref sig .tc) := [main_v109, main_v110, main_v111, main_v112, main_v113, main_v114, main_cst_10, main_v115, main_v116, main_v117, main_v118, main_v119, main_v120, main_v121, main_v122, main_v123, main_cst_11, main_v124, main_v125, main_v126, main_v127, main_v128, main_v129, main_v130, main_v131, main_v132, main_v133, main_v134, main_v135, main_v136, main_v137, main_v138, main_v139, main_v140, main_cst_12, main_v141, main_v142, main_v143, main_v144, main_v145, main_v146, main_v147, main_v148, main_v149, main_cst_13, main_v150, main_v151, main_v152, main_v153, main_v154, main_v155, main_v156, main_v157, main_v158, main_v159, main_v160, main_v161, main_v162, main_v163, main_v164]

set_option maxRecDepth 8192 in
/-- Every operation of window 3 touches TensorCore references only. -/
theorem ops_part3_sub : (ops_part3 : List (HloOp τ sig (Elt F))).Forall fun op => op.bufs ⊆ tcRefs τ sig :=
  ⟨reshape_bufs_sub .., reshape_bufs_sub .., reshape_bufs_sub .., unary_bufs_sub .., unary_bufs_sub .., unary_bufs_sub .., unary_bufs_sub .., nary_bufs_sub ..⟩

/-- The buffers that the operations of window 3 write. -/
abbrev ops_part3_W : List (Ref sig .tc) := [main_v165, main_v166, main_v167, main_v168, main_v169, main_v170, main_v171, main_v172]

end Cert.ReferenceIdeal.Hand

end
-- ==== Proof.RefRun.lean ====
/-
  The reference program's run, read back.

  The reference's @main is a straight line of 188 host operations.  Run from any memory, every weakly fair execution
  terminates with the result buffer at the structured term `Term.out` of the nine argument arrays, and the argument
  arrays unchanged.
-/
import proofs.«130666_j46514495816298_1_alg».proof.Proof.Gen.ReferenceIdeal
import proofs.«130666_j46514495816298_1_alg».proof.Proof.RefTerm
import proofs.«130666_j46514495816298_1_alg».proof.Proof.RefOps
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Device `c`'s nine argument arrays in the memory `m`. -/
def args (m : (ℓ : Loc nD τ sig) → Buf (Elt F) ℓ) (c : Dev nD) : Term.Args F :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8)⟩

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h,
      List.forall_iff_forall_mem.mp ops_part2_sub op h, List.forall_iff_forall_mem.mp ops_part3_sub op h]

set_option maxRecDepth 8192 in
theorem ops_part0_fresh : ∀ op ∈ (ops_part0 : List (HloOp τ sig (Elt F))), op.fresh = ∅ := by
  intro _ h; (repeat (cases h with | head => rfl | tail _ h => ?_)); exact nomatch h
set_option maxRecDepth 8192 in
theorem ops_part1_fresh : ∀ op ∈ (ops_part1 : List (HloOp τ sig (Elt F))), op.fresh = ∅ := by
  intro _ h; (repeat (cases h with | head => rfl | tail _ h => ?_)); exact nomatch h
set_option maxRecDepth 8192 in
theorem ops_part2_fresh : ∀ op ∈ (ops_part2 : List (HloOp τ sig (Elt F))), op.fresh = ∅ := by
  intro _ h; (repeat (cases h with | head => rfl | tail _ h => ?_)); exact nomatch h
set_option maxRecDepth 8192 in
theorem ops_part3_fresh : ∀ op ∈ (ops_part3 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op h
  simp only [ops, List.mem_append] at h
  rcases h with h | h | h | h
  exacts [ops_part0_fresh op h, ops_part1_fresh op h, ops_part2_fresh op h, ops_part3_fresh op h]

/-- The nine argument arrays in a valuation. -/
def argsV (V0 : Valuation τ sig (Elt F)) : Term.Args F :=
  ⟨V0 (Proc.devRef .tc main_arg0), V0 (Proc.devRef .tc main_arg1), V0 (Proc.devRef .tc main_arg2), V0 (Proc.devRef .tc main_arg3),
   V0 (Proc.devRef .tc main_arg4), V0 (Proc.devRef .tc main_arg5), V0 (Proc.devRef .tc main_arg6), V0 (Proc.devRef .tc main_arg7),
   V0 (Proc.devRef .tc main_arg8)⟩

/-- The buffer contents before the first window. -/
def val0 (V0 : Valuation τ sig (Elt F)) : Valuation τ sig (Elt F) := V0
theorem val0_main_arg0 (V0 : Valuation τ sig (Elt F)) : val0 V0 (no_index (Proc.devRef .tc main_arg0)) = (argsV V0).x := rfl
theorem val0_main_arg1 (V0 : Valuation τ sig (Elt F)) : val0 V0 (no_index (Proc.devRef .tc main_arg1)) = (argsV V0).w1 := rfl
theorem val0_main_arg2 (V0 : Valuation τ sig (Elt F)) : val0 V0 (no_index (Proc.devRef .tc main_arg2)) = (argsV V0).b1 := rfl
theorem val0_main_arg3 (V0 : Valuation τ sig (Elt F)) : val0 V0 (no_index (Proc.devRef .tc main_arg3)) = (argsV V0).w2 := rfl
theorem val0_main_arg4 (V0 : Valuation τ sig (Elt F)) : val0 V0 (no_index (Proc.devRef .tc main_arg4)) = (argsV V0).b2 := rfl
theorem val0_main_arg5 (V0 : Valuation τ sig (Elt F)) : val0 V0 (no_index (Proc.devRef .tc main_arg5)) = (argsV V0).w3 := rfl
theorem val0_main_arg6 (V0 : Valuation τ sig (Elt F)) : val0 V0 (no_index (Proc.devRef .tc main_arg6)) = (argsV V0).b3 := rfl
theorem val0_main_arg7 (V0 : Valuation τ sig (Elt F)) : val0 V0 (no_index (Proc.devRef .tc main_arg7)) = (argsV V0).w4 := rfl
theorem val0_main_arg8 (V0 : Valuation τ sig (Elt F)) : val0 V0 (no_index (Proc.devRef .tc main_arg8)) = (argsV V0).b4 := rfl

/-- The buffer contents after window 0. -/
def val1 (V0 : Valuation τ sig (Elt F)) : Valuation τ sig (Elt F) := after ops_part0 (val0 V0)

set_option maxRecDepth 8192 in
theorem ops_part0_writes : (ops_part0 : List (HloOp τ sig (Elt F))).Forall fun op => op.writes ⊆ (ops_part0_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer that window 0 does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = (argsV V0).x :=
  (val1_keep V0 main_arg0 (by decide)).trans (val0_main_arg0 V0)
theorem val1_main_arg1 (V0 : Valuation τ sig (Elt F)) : val1 V0 (no_index (Proc.devRef .tc main_arg1)) = (argsV V0).w1 :=
  (val1_keep V0 main_arg1 (by decide)).trans (val0_main_arg1 V0)
theorem val1_main_arg2 (V0 : Valuation τ sig (Elt F)) : val1 V0 (no_index (Proc.devRef .tc main_arg2)) = (argsV V0).b1 :=
  (val1_keep V0 main_arg2 (by decide)).trans (val0_main_arg2 V0)
theorem val1_main_arg3 (V0 : Valuation τ sig (Elt F)) : val1 V0 (no_index (Proc.devRef .tc main_arg3)) = (argsV V0).w2 :=
  (val1_keep V0 main_arg3 (by decide)).trans (val0_main_arg3 V0)
theorem val1_main_arg4 (V0 : Valuation τ sig (Elt F)) : val1 V0 (no_index (Proc.devRef .tc main_arg4)) = (argsV V0).b2 :=
  (val1_keep V0 main_arg4 (by decide)).trans (val0_main_arg4 V0)
theorem val1_main_arg5 (V0 : Valuation τ sig (Elt F)) : val1 V0 (no_index (Proc.devRef .tc main_arg5)) = (argsV V0).w3 :=
  (val1_keep V0 main_arg5 (by decide)).trans (val0_main_arg5 V0)
theorem val1_main_arg6 (V0 : Valuation τ sig (Elt F)) : val1 V0 (no_index (Proc.devRef .tc main_arg6)) = (argsV V0).b3 :=
  (val1_keep V0 main_arg6 (by decide)).trans (val0_main_arg6 V0)
theorem val1_main_arg7 (V0 : Valuation τ sig (Elt F)) : val1 V0 (no_index (Proc.devRef .tc main_arg7)) = (argsV V0).w4 :=
  (val1_keep V0 main_arg7 (by decide)).trans (val0_main_arg7 V0)
theorem val1_main_arg8 (V0 : Valuation τ sig (Elt F)) : val1 V0 (no_index (Proc.devRef .tc main_arg8)) = (argsV V0).b4 :=
  (val1_keep V0 main_arg8 (by decide)).trans (val0_main_arg8 V0)

set_option maxRecDepth 8192 in
set_option maxHeartbeats 2000000 in
theorem val1_main_cst_1 (V0 : Valuation τ sig (Elt F)) : val1 V0 (no_index (Proc.devRef .tc main_cst_1)) = fun i => FloatOps.ofBits .f32 (lit2 (S3.rowMajor i)) := by
  unfold val1
  simp only [ops_part0]
  after_results_simp
  rfl

set_option maxRecDepth 8192 in
set_option maxHeartbeats 2000000 in
theorem val1_main_v0 (V0 : Valuation τ sig (Elt F)) : val1 V0 (no_index (Proc.devRef .tc main_v0)) = Term.seed lit0 := by
  unfold val1
  simp only [ops_part0]
  after_results_simp
  rfl

set_option maxRecDepth 8192 in
set_option maxHeartbeats 2000000 in
theorem val1_main_v47 (V0 : Valuation τ sig (Elt F)) : val1 V0 (no_index (Proc.devRef .tc main_v47)) = Term.H1 (argsV V0) := by
  unfold val1
  simp only [ops_part0]
  after_results_simp
  simp only [val0_main_arg0, val0_main_arg1, val0_main_arg2, val0_main_arg3, val0_main_arg4, val0_main_arg5, val0_main_arg6, val0_main_arg7, val0_main_arg8] <;> rfl

set_option maxRecDepth 8192 in
set_option maxHeartbeats 2000000 in
theorem val1_main_v52 (V0 : Valuation τ sig (Elt F)) : val1 V0 (no_index (Proc.devRef .tc main_v52)) = Term.P1 (argsV V0) lit1 := by
  unfold val1
  simp only [ops_part0]
  after_results_simp
  simp only [val0_main_arg0, val0_main_arg1, val0_main_arg2, val0_main_arg3, val0_main_arg4, val0_main_arg5, val0_main_arg6, val0_main_arg7, val0_main_arg8] <;> rfl

set_option maxRecDepth 8192 in
set_option maxHeartbeats 2000000 in
theorem val1_main_v40 (V0 : Valuation τ sig (Elt F)) : val1 V0 (no_index (Proc.devRef .tc main_v40)) = shapeCast S262144 (Term.T (argsV V0)) shapeCasts_S262144x1_S262144 := by
  unfold val1
  simp only [ops_part0]
  after_results_simp
  simp only [val0_main_arg0, val0_main_arg1, val0_main_arg2, val0_main_arg3, val0_main_arg4, val0_main_arg5, val0_main_arg6, val0_main_arg7, val0_main_arg8] <;> rfl

set_option maxRecDepth 8192 in
set_option maxHeartbeats 2000000 in
theorem val1_main_v41 (V0 : Valuation τ sig (Elt F)) : val1 V0 (no_index (Proc.devRef .tc main_v41)) = shapeCast S262144 (Term.D (argsV V0) lit0) shapeCasts_S262144x1_S262144 := by
  unfold val1
  simp only [ops_part0]
  after_results_simp
  simp only [val0_main_arg0, val0_main_arg1, val0_main_arg2, val0_main_arg3, val0_main_arg4, val0_main_arg5, val0_main_arg6, val0_main_arg7, val0_main_arg8] <;> rfl

/-- The buffer contents after window 1. -/
def val2 (V0 : Valuation τ sig (Elt F)) : Valuation τ sig (Elt F) := after ops_part1 (val1 V0)

set_option maxRecDepth 8192 in
theorem ops_part1_writes : (ops_part1 : List (HloOp τ sig (Elt F))).Forall fun op => op.writes ⊆ (ops_part1_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer that window 1 does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = (argsV V0).x :=
  (val2_keep V0 main_arg0 (by decide)).trans (val1_main_arg0 V0)
theorem val2_main_arg1 (V0 : Valuation τ sig (Elt F)) : val2 V0 (no_index (Proc.devRef .tc main_arg1)) = (argsV V0).w1 :=
  (val2_keep V0 main_arg1 (by decide)).trans (val1_main_arg1 V0)
theorem val2_main_arg2 (V0 : Valuation τ sig (Elt F)) : val2 V0 (no_index (Proc.devRef .tc main_arg2)) = (argsV V0).b1 :=
  (val2_keep V0 main_arg2 (by decide)).trans (val1_main_arg2 V0)
theorem val2_main_arg3 (V0 : Valuation τ sig (Elt F)) : val2 V0 (no_index (Proc.devRef .tc main_arg3)) = (argsV V0).w2 :=
  (val2_keep V0 main_arg3 (by decide)).trans (val1_main_arg3 V0)
theorem val2_main_arg4 (V0 : Valuation τ sig (Elt F)) : val2 V0 (no_index (Proc.devRef .tc main_arg4)) = (argsV V0).b2 :=
  (val2_keep V0 main_arg4 (by decide)).trans (val1_main_arg4 V0)
theorem val2_main_arg5 (V0 : Valuation τ sig (Elt F)) : val2 V0 (no_index (Proc.devRef .tc main_arg5)) = (argsV V0).w3 :=
  (val2_keep V0 main_arg5 (by decide)).trans (val1_main_arg5 V0)
theorem val2_main_arg6 (V0 : Valuation τ sig (Elt F)) : val2 V0 (no_index (Proc.devRef .tc main_arg6)) = (argsV V0).b3 :=
  (val2_keep V0 main_arg6 (by decide)).trans (val1_main_arg6 V0)
theorem val2_main_arg7 (V0 : Valuation τ sig (Elt F)) : val2 V0 (no_index (Proc.devRef .tc main_arg7)) = (argsV V0).w4 :=
  (val2_keep V0 main_arg7 (by decide)).trans (val1_main_arg7 V0)
theorem val2_main_arg8 (V0 : Valuation τ sig (Elt F)) : val2 V0 (no_index (Proc.devRef .tc main_arg8)) = (argsV V0).b4 :=
  (val2_keep V0 main_arg8 (by decide)).trans (val1_main_arg8 V0)

theorem val2_main_v40 (V0 : Valuation τ sig (Elt F)) : val2 V0 (no_index (Proc.devRef .tc main_v40)) = shapeCast S262144 (Term.T (argsV V0)) shapeCasts_S262144x1_S262144 :=
  (val2_keep V0 main_v40 (by decide)).trans (val1_main_v40 V0)
theorem val2_main_v41 (V0 : Valuation τ sig (Elt F)) : val2 V0 (no_index (Proc.devRef .tc main_v41)) = shapeCast S262144 (Term.D (argsV V0) lit0) shapeCasts_S262144x1_S262144 :=
  (val2_keep V0 main_v41 (by decide)).trans (val1_main_v41 V0)

set_option maxRecDepth 8192 in
set_option maxHeartbeats 2000000 in
theorem val2_main_v81 (V0 : Valuation τ sig (Elt F)) : val2 V0 (no_index (Proc.devRef .tc main_v81)) = shapeCast S262144 (Term.D (argsV V0) lit1) shapeCasts_S262144x1_S262144 := by
  unfold val2
  simp only [ops_part1]
  after_results_simp
  simp only [val1_main_arg0, val1_main_arg1, val1_main_arg2, val1_main_arg3, val1_main_arg4, val1_main_arg5, val1_main_arg6, val1_main_arg7, val1_main_arg8, val1_main_cst_1, val1_main_v0, val1_main_v47, val1_main_v52] <;> rfl

set_option maxRecDepth 8192 in
set_option maxHeartbeats 2000000 in
theorem val2_main_v105 (V0 : Valuation τ sig (Elt F)) : val2 V0 (no_index (Proc.devRef .tc main_v105)) = Term.mm2 (argsV V0) (Term.H1 (argsV V0)) := by
  unfold val2
  simp only [ops_part1]
  after_results_simp
  simp only [val1_main_arg0, val1_main_arg1, val1_main_arg2, val1_main_arg3, val1_main_arg4, val1_main_arg5, val1_main_arg6, val1_main_arg7, val1_main_arg8, val1_main_cst_1, val1_main_v0, val1_main_v47, val1_main_v52] <;> rfl

set_option maxRecDepth 8192 in
set_option maxHeartbeats 2000000 in
theorem val2_main_v106 (V0 : Valuation τ sig (Elt F)) : val2 V0 (no_index (Proc.devRef .tc main_v106)) = Term.G2 (argsV V0) lit0 := by
  unfold val2
  simp only [ops_part1]
  after_results_simp
  simp only [val1_main_arg0, val1_main_arg1, val1_main_arg2, val1_main_arg3, val1_main_arg4, val1_main_arg5, val1_main_arg6, val1_main_arg7, val1_main_arg8, val1_main_cst_1, val1_main_v0, val1_main_v47, val1_main_v52] <;> rfl

set_option maxRecDepth 8192 in
set_option maxHeartbeats 2000000 in
theorem val2_main_v107 (V0 : Valuation τ sig (Elt F)) : val2 V0 (no_index (Proc.devRef .tc main_v107)) = Term.G2 (argsV V0) lit2 := by
  unfold val2
  simp only [ops_part1]
  after_results_simp
  simp only [val1_main_arg0, val1_main_arg1, val1_main_arg2, val1_main_arg3, val1_main_arg4, val1_main_arg5, val1_main_arg6, val1_main_arg7, val1_main_arg8, val1_main_cst_1, val1_main_v0, val1_main_v47, val1_main_v52] <;> rfl

set_option maxRecDepth 8192 in
set_option maxHeartbeats 2000000 in
theorem val2_main_v108 (V0 : Valuation τ sig (Elt F)) : val2 V0 (no_index (Proc.devRef .tc main_v108)) = Term.S2 (argsV V0) := by
  unfold val2
  simp only [ops_part1]
  after_results_simp
  simp only [val1_main_arg0, val1_main_arg1, val1_main_arg2, val1_main_arg3, val1_main_arg4, val1_main_arg5, val1_main_arg6, val1_main_arg7, val1_main_arg8, val1_main_cst_1, val1_main_v0, val1_main_v47, val1_main_v52] <;> rfl

/-- The buffer contents after window 2. -/
def val3 (V0 : Valuation τ sig (Elt F)) : Valuation τ sig (Elt F) := after ops_part2 (val2 V0)

set_option maxRecDepth 8192 in
theorem ops_part2_writes : (ops_part2 : List (HloOp τ sig (Elt F))).Forall fun op => op.writes ⊆ (ops_part2_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer that window 2 does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = (argsV V0).x :=
  (val3_keep V0 main_arg0 (by decide)).trans (val2_main_arg0 V0)
theorem val3_main_arg1 (V0 : Valuation τ sig (Elt F)) : val3 V0 (no_index (Proc.devRef .tc main_arg1)) = (argsV V0).w1 :=
  (val3_keep V0 main_arg1 (by decide)).trans (val2_main_arg1 V0)
theorem val3_main_arg2 (V0 : Valuation τ sig (Elt F)) : val3 V0 (no_index (Proc.devRef .tc main_arg2)) = (argsV V0).b1 :=
  (val3_keep V0 main_arg2 (by decide)).trans (val2_main_arg2 V0)
theorem val3_main_arg3 (V0 : Valuation τ sig (Elt F)) : val3 V0 (no_index (Proc.devRef .tc main_arg3)) = (argsV V0).w2 :=
  (val3_keep V0 main_arg3 (by decide)).trans (val2_main_arg3 V0)
theorem val3_main_arg4 (V0 : Valuation τ sig (Elt F)) : val3 V0 (no_index (Proc.devRef .tc main_arg4)) = (argsV V0).b2 :=
  (val3_keep V0 main_arg4 (by decide)).trans (val2_main_arg4 V0)
theorem val3_main_arg5 (V0 : Valuation τ sig (Elt F)) : val3 V0 (no_index (Proc.devRef .tc main_arg5)) = (argsV V0).w3 :=
  (val3_keep V0 main_arg5 (by decide)).trans (val2_main_arg5 V0)
theorem val3_main_arg6 (V0 : Valuation τ sig (Elt F)) : val3 V0 (no_index (Proc.devRef .tc main_arg6)) = (argsV V0).b3 :=
  (val3_keep V0 main_arg6 (by decide)).trans (val2_main_arg6 V0)
theorem val3_main_arg7 (V0 : Valuation τ sig (Elt F)) : val3 V0 (no_index (Proc.devRef .tc main_arg7)) = (argsV V0).w4 :=
  (val3_keep V0 main_arg7 (by decide)).trans (val2_main_arg7 V0)
theorem val3_main_arg8 (V0 : Valuation τ sig (Elt F)) : val3 V0 (no_index (Proc.devRef .tc main_arg8)) = (argsV V0).b4 :=
  (val3_keep V0 main_arg8 (by decide)).trans (val2_main_arg8 V0)

theorem val3_main_v40 (V0 : Valuation τ sig (Elt F)) : val3 V0 (no_index (Proc.devRef .tc main_v40)) = shapeCast S262144 (Term.T (argsV V0)) shapeCasts_S262144x1_S262144 :=
  (val3_keep V0 main_v40 (by decide)).trans (val2_main_v40 V0)
theorem val3_main_v41 (V0 : Valuation τ sig (Elt F)) : val3 V0 (no_index (Proc.devRef .tc main_v41)) = shapeCast S262144 (Term.D (argsV V0) lit0) shapeCasts_S262144x1_S262144 :=
  (val3_keep V0 main_v41 (by decide)).trans (val2_main_v41 V0)
theorem val3_main_v81 (V0 : Valuation τ sig (Elt F)) : val3 V0 (no_index (Proc.devRef .tc main_v81)) = shapeCast S262144 (Term.D (argsV V0) lit1) shapeCasts_S262144x1_S262144 :=
  (val3_keep V0 main_v81 (by decide)).trans (val2_main_v81 V0)

set_option maxRecDepth 8192 in
set_option maxHeartbeats 2000000 in
theorem val3_main_v160 (V0 : Valuation τ sig (Elt F)) : val3 V0 (no_index (Proc.devRef .tc main_v160)) = Term.DD (argsV V0) := by
  unfold val3
  simp only [ops_part2]
  after_results_simp
  simp only [val2_main_arg0, val2_main_arg1, val2_main_arg2, val2_main_arg3, val2_main_arg4, val2_main_arg5, val2_main_arg6, val2_main_arg7, val2_main_arg8, val2_main_v105, val2_main_v106, val2_main_v107, val2_main_v108] <;> rfl

/-- The buffer contents after window 3. -/
def val4 (V0 : Valuation τ sig (Elt F)) : Valuation τ sig (Elt F) := after ops_part3 (val3 V0)

set_option maxRecDepth 8192 in
theorem ops_part3_writes : (ops_part3 : List (HloOp τ sig (Elt F))).Forall fun op => op.writes ⊆ (ops_part3_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer that window 3 does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = (argsV V0).x :=
  (val4_keep V0 main_arg0 (by decide)).trans (val3_main_arg0 V0)
theorem val4_main_arg1 (V0 : Valuation τ sig (Elt F)) : val4 V0 (no_index (Proc.devRef .tc main_arg1)) = (argsV V0).w1 :=
  (val4_keep V0 main_arg1 (by decide)).trans (val3_main_arg1 V0)
theorem val4_main_arg2 (V0 : Valuation τ sig (Elt F)) : val4 V0 (no_index (Proc.devRef .tc main_arg2)) = (argsV V0).b1 :=
  (val4_keep V0 main_arg2 (by decide)).trans (val3_main_arg2 V0)
theorem val4_main_arg3 (V0 : Valuation τ sig (Elt F)) : val4 V0 (no_index (Proc.devRef .tc main_arg3)) = (argsV V0).w2 :=
  (val4_keep V0 main_arg3 (by decide)).trans (val3_main_arg3 V0)
theorem val4_main_arg4 (V0 : Valuation τ sig (Elt F)) : val4 V0 (no_index (Proc.devRef .tc main_arg4)) = (argsV V0).b2 :=
  (val4_keep V0 main_arg4 (by decide)).trans (val3_main_arg4 V0)
theorem val4_main_arg5 (V0 : Valuation τ sig (Elt F)) : val4 V0 (no_index (Proc.devRef .tc main_arg5)) = (argsV V0).w3 :=
  (val4_keep V0 main_arg5 (by decide)).trans (val3_main_arg5 V0)
theorem val4_main_arg6 (V0 : Valuation τ sig (Elt F)) : val4 V0 (no_index (Proc.devRef .tc main_arg6)) = (argsV V0).b3 :=
  (val4_keep V0 main_arg6 (by decide)).trans (val3_main_arg6 V0)
theorem val4_main_arg7 (V0 : Valuation τ sig (Elt F)) : val4 V0 (no_index (Proc.devRef .tc main_arg7)) = (argsV V0).w4 :=
  (val4_keep V0 main_arg7 (by decide)).trans (val3_main_arg7 V0)
theorem val4_main_arg8 (V0 : Valuation τ sig (Elt F)) : val4 V0 (no_index (Proc.devRef .tc main_arg8)) = (argsV V0).b4 :=
  (val4_keep V0 main_arg8 (by decide)).trans (val3_main_arg8 V0)

set_option maxRecDepth 8192 in
set_option maxHeartbeats 2000000 in
theorem val4_main_v172 (V0 : Valuation τ sig (Elt F)) : val4 V0 (no_index (Proc.devRef .tc main_v172)) = Term.out (argsV V0) := by
  unfold val4
  simp only [ops_part3]
  after_results_simp
  dsimp only [Matrix.cons_val]
  repeat (first
    | rw [unary_result] | rw [reshape_result]
    | (rw [unary_result_ne]; rotate_left; decide)
    | (rw [reshape_result_ne]; rotate_left; decide))
  rw [val3_main_v40 V0, val3_main_v41 V0, val3_main_v81 V0, val3_main_v160 V0]
  rfl

theorem after_ops (V0 : Valuation τ sig (Elt F)) : after ops V0 = val4 V0 := by
  simp only [ops, after_append]
  rfl

set_option maxRecDepth 8192 in
/-- On every device, for any float values, from any memory with zero counters: every weakly fair execution of @main
    terminates with the result at `Term.out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v172) = Term.out (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v172).trans (by simp only [after_ops]; exact val4_main_v172 (launchContents m c)),
      (h c main_arg0).trans (by simp only [after_ops]; exact val4_main_arg0 (launchContents m c)),
      (h c main_arg1).trans (by simp only [after_ops]; exact val4_main_arg1 (launchContents m c)),
      (h c main_arg2).trans (by simp only [after_ops]; exact val4_main_arg2 (launchContents m c)),
      (h c main_arg3).trans (by simp only [after_ops]; exact val4_main_arg3 (launchContents m c)),
      (h c main_arg4).trans (by simp only [after_ops]; exact val4_main_arg4 (launchContents m c)),
      (h c main_arg5).trans (by simp only [after_ops]; exact val4_main_arg5 (launchContents m c)),
      (h c main_arg6).trans (by simp only [after_ops]; exact val4_main_arg6 (launchContents m c)),
      (h c main_arg7).trans (by simp only [after_ops]; exact val4_main_arg7 (launchContents m c)),
      (h c main_arg8).trans (by simp only [after_ops]; exact val4_main_arg8 (launchContents m c))⟩)
    (run_seq scopedRefs_eq scopedSems_eq defs main (fun _ => ops) main_eq (fun _ => ops_sub) m ρ (fun _ => ops_fresh))

end Cert.ReferenceIdeal.Hand

end
-- ==== Proof.RefLift.lean ====
/-
  The reference's result term as a real matrix.

  If the nine argument arrays are real matrices and vectors, the reference's result term `Term.out` is the real
  matrix `RR.out` of them: each stage of the term is followed by its real counterpart.
-/
import proofs.«130666_j46514495816298_1_alg».proof.Proof.Gen.ReferenceIdeal
import proofs.«130666_j46514495816298_1_alg».proof.Proof.RefTerm
import proofs.«130666_j46514495816298_1_alg».proof.Proof.Spec

noncomputable section

namespace Cert.ReferenceIdeal.Lift

open Idealize.ShloMosaic Cert.ReferenceIdeal Cert.ReferenceIdeal.Gen Cert.RealMat Cert.Spec

/-! ## The tangent seeds' literal tables -/

/-- The first and the third table hold the unit tangent along the first coordinate. -/
theorem lit0_e0 : ∀ k, Ideal.ofBits .f32 (lit0 k) = ((RR.e0 k : ℝ) : EReal)
  | ⟨0, _⟩ => ofBits_one
  | ⟨1, _⟩ => ofBits_zero
  | ⟨2, _⟩ => ofBits_zero

theorem lit2_e0 : ∀ k, Ideal.ofBits .f32 (lit2 k) = ((RR.e0 k : ℝ) : EReal)
  | ⟨0, _⟩ => ofBits_one
  | ⟨1, _⟩ => ofBits_zero
  | ⟨2, _⟩ => ofBits_zero

/-- The second table holds the unit tangent along the second coordinate. -/
theorem lit1_e1 : ∀ k, Ideal.ofBits .f32 (lit1 k) = ((RR.e1 k : ℝ) : EReal)
  | ⟨0, _⟩ => ofBits_zero
  | ⟨1, _⟩ => ofBits_one
  | ⟨2, _⟩ => ofBits_zero

/-- The nine argument arrays are the real input matrix and the network's real parameters. -/
structure ArgsAre (A : Term.Args Ideal) (p : Params) (x : Fin 262144 → Fin 3 → ℝ) : Prop where
  x : IsMat (M := 262144) (N := 3) A.x x
  w1 : IsMat (M := 3) (N := 128) A.w1 p.w1
  b1 : IsVec (N := 128) A.b1 p.b1
  w2 : IsMat (M := 128) (N := 128) A.w2 p.w2
  b2 : IsVec (N := 128) A.b2 p.b2
  w3 : IsMat (M := 128) (N := 64) A.w3 p.w3
  b3 : IsVec (N := 64) A.b3 p.b3
  w4 : IsMat (M := 64) (N := 1) A.w4 p.w4
  b4 : IsVec (N := 1) A.b4 p.b4

section
variable {A : Term.Args Ideal} {p : Params} {x : Fin 262144 → Fin 3 → ℝ}

/-! ## Constants, biases, seeds -/

theorem ones128_isMat : IsMat (M := 262144) (N := 128) (Term.ones128 (F := Ideal)) (rconst 1) :=
  isMat_bcast_one _

theorem ones64_isMat : IsMat (M := 262144) (N := 64) (Term.ones64 (F := Ideal)) (rconst 1) :=
  isMat_bcast_one _

theorem bias1_isMat (h : ArgsAre A p x) : IsMat (M := 262144) (N := 128) (Term.bias1 A) (rrow p.b1) :=
  isMat_biasH _ _ h.b1

theorem bias2_isMat (h : ArgsAre A p x) : IsMat (M := 262144) (N := 128) (Term.bias2 A) (rrow p.b2) :=
  isMat_biasH _ _ h.b2

theorem bias3_isMat (h : ArgsAre A p x) : IsMat (M := 262144) (N := 64) (Term.bias3 A) (rrow p.b3) :=
  isMat_biasH _ _ h.b3

theorem bias4_isMat (h : ArgsAre A p x) : IsMat (M := 262144) (N := 1) (Term.bias4 A) (rrow p.b4) :=
  isMat_biasH _ _ h.b4

theorem seed_isMat (lit : Fin 3 → BitVec 32) (e : Fin 3 → ℝ)
    (hlit : ∀ k, Ideal.ofBits .f32 (lit k) = ((e k : ℝ) : EReal)) :
    IsMat (M := 262144) (N := 3) (Term.seed (F := Ideal) lit) (rrow e) :=
  isMat_seed lit e hlit _

/-! ## The four matrix products -/

theorem mm1_isMat (h : ArgsAre A p x) {l : FVec Ideal S262144x3 .f32} {a : Fin 262144 → Fin 3 → ℝ}
    (hl : IsMat (M := 262144) (N := 3) l a) : IsMat (M := 262144) (N := 128) (Term.mm1 A l) (rmm a p.w1) :=
  IsMat.dotGeneral dot_S262144x3_S3x128_S262144x128_1_0_0_1_n_n rfl rfl rfl rfl rfl rfl hl h.w1

theorem mm2_isMat (h : ArgsAre A p x) {l : FVec Ideal S262144x128 .f32} {a : Fin 262144 → Fin 128 → ℝ}
    (hl : IsMat (M := 262144) (N := 128) l a) : IsMat (M := 262144) (N := 128) (Term.mm2 A l) (rmm a p.w2) :=
  IsMat.dotGeneral dot_S262144x128_S128x128_S262144x128_1_0_0_1_n_n rfl rfl rfl rfl rfl rfl hl h.w2

theorem mm3_isMat (h : ArgsAre A p x) {l : FVec Ideal S262144x128 .f32} {a : Fin 262144 → Fin 128 → ℝ}
    (hl : IsMat (M := 262144) (N := 128) l a) : IsMat (M := 262144) (N := 64) (Term.mm3 A l) (rmm a p.w3) :=
  IsMat.dotGeneral dot_S262144x128_S128x64_S262144x64_1_0_0_1_n_n rfl rfl rfl rfl rfl rfl hl h.w3

theorem mm4_isMat (h : ArgsAre A p x) {l : FVec Ideal S262144x64 .f32} {a : Fin 262144 → Fin 64 → ℝ}
    (hl : IsMat (M := 262144) (N := 64) l a) : IsMat (M := 262144) (N := 1) (Term.mm4 A l) (rmm a p.w4) :=
  IsMat.dotGeneral dot_S262144x64_S64x1_S262144x1_1_0_0_1_n_n rfl rfl rfl rfl rfl rfl hl h.w4

/-! ## A tangent through tanh, first and second order -/

theorem jv128_isMat {g h : FVec Ideal S262144x128 .f32} {a b : Fin 262144 → Fin 128 → ℝ}
    (hg : IsMat (M := 262144) (N := 128) g a) (hh : IsMat (M := 262144) (N := 128) h b) :
    IsMat (M := 262144) (N := 128) (Term.jv128 g h) (RR.jv a b) :=
  IsMat.mulf (IsMat.addf hg (IsMat.mulf hg hh)) (IsMat.subf ones128_isMat hh)

theorem jv64_isMat {g h : FVec Ideal S262144x64 .f32} {a b : Fin 262144 → Fin 64 → ℝ}
    (hg : IsMat (M := 262144) (N := 64) g a) (hh : IsMat (M := 262144) (N := 64) h b) :
    IsMat (M := 262144) (N := 64) (Term.jv64 g h) (RR.jv a b) :=
  IsMat.mulf (IsMat.addf hg (IsMat.mulf hg hh)) (IsMat.subf ones64_isMat hh)

theorem jv2_128_isMat {s gi h h' : FVec Ideal S262144x128 .f32} {s' gi' a a' : Fin 262144 → Fin 128 → ℝ}
    (hs : IsMat (M := 262144) (N := 128) s s') (hgi : IsMat (M := 262144) (N := 128) gi gi')
    (hh : IsMat (M := 262144) (N := 128) h a) (hh' : IsMat (M := 262144) (N := 128) h' a') :
    IsMat (M := 262144) (N := 128) (Term.jv2_128 s gi h h') (RR.jv2 s' gi' a a') :=
  IsMat.addf
    (IsMat.mulf (IsMat.addf hs (IsMat.addf (IsMat.mulf hs hh) (IsMat.mulf hgi hh'))) (IsMat.subf ones128_isMat hh))
    (IsMat.mulf (IsMat.addf hgi (IsMat.mulf hgi hh)) (IsMat.hostNegf hh'))

theorem jv2_64_isMat {s gi h h' : FVec Ideal S262144x64 .f32} {s' gi' a a' : Fin 262144 → Fin 64 → ℝ}
    (hs : IsMat (M := 262144) (N := 64) s s') (hgi : IsMat (M := 262144) (N := 64) gi gi')
    (hh : IsMat (M := 262144) (N := 64) h a) (hh' : IsMat (M := 262144) (N := 64) h' a') :
    IsMat (M := 262144) (N := 64) (Term.jv2_64 s gi h h') (RR.jv2 s' gi' a a') :=
  IsMat.addf
    (IsMat.mulf (IsMat.addf hs (IsMat.addf (IsMat.mulf hs hh) (IsMat.mulf hgi hh'))) (IsMat.subf ones64_isMat hh))
    (IsMat.mulf (IsMat.addf hgi (IsMat.mulf hgi hh)) (IsMat.hostNegf hh'))

/-! ## The primal activations -/

theorem H1_isMat (h : ArgsAre A p x) : IsMat (M := 262144) (N := 128) (Term.H1 A) (RR.H1 p x) :=
  IsMat.hostTanh (IsMat.addf (mm1_isMat h h.x) (bias1_isMat h))

theorem H2_isMat (h : ArgsAre A p x) : IsMat (M := 262144) (N := 128) (Term.H2 A) (RR.H2 p x) :=
  IsMat.hostTanh (IsMat.addf (mm2_isMat h (H1_isMat h)) (bias2_isMat h))

theorem H3_isMat (h : ArgsAre A p x) : IsMat (M := 262144) (N := 64) (Term.H3 A) (RR.H3 p x) :=
  IsMat.hostTanh (IsMat.addf (mm3_isMat h (H2_isMat h)) (bias3_isMat h))

/-! ## The first-order stream along a seed -/

section First
variable (lit : Fin 3 → BitVec 32) (e : Fin 3 → ℝ) (hlit : ∀ k, Ideal.ofBits .f32 (lit k) = ((e k : ℝ) : EReal))
include hlit

theorem G1_isMat (h : ArgsAre A p x) : IsMat (M := 262144) (N := 128) (Term.G1 A lit) (RR.G1 p (M := 262144) e) :=
  mm1_isMat h (seed_isMat lit e hlit)

theorem P1_isMat (h : ArgsAre A p x) : IsMat (M := 262144) (N := 128) (Term.P1 A lit) (RR.P1 p x e) :=
  jv128_isMat (G1_isMat lit e hlit h) (H1_isMat h)

theorem G2_isMat (h : ArgsAre A p x) : IsMat (M := 262144) (N := 128) (Term.G2 A lit) (RR.G2 p x e) :=
  mm2_isMat h (P1_isMat lit e hlit h)

theorem P2_isMat (h : ArgsAre A p x) : IsMat (M := 262144) (N := 128) (Term.P2 A lit) (RR.P2 p x e) :=
  jv128_isMat (G2_isMat lit e hlit h) (H2_isMat h)

theorem G3_isMat (h : ArgsAre A p x) : IsMat (M := 262144) (N := 64) (Term.G3 A lit) (RR.G3 p x e) :=
  mm3_isMat h (P2_isMat lit e hlit h)

theorem P3_isMat (h : ArgsAre A p x) : IsMat (M := 262144) (N := 64) (Term.P3 A lit) (RR.P3 p x e) :=
  jv64_isMat (G3_isMat lit e hlit h) (H3_isMat h)

/-- The first derivative along the seed. -/
theorem D_isMat (h : ArgsAre A p x) : IsMat (M := 262144) (N := 1) (Term.D A lit) (RR.D p x e) :=
  mm4_isMat h (P3_isMat lit e hlit h)

end First

/-- The value. -/
theorem T_isMat (h : ArgsAre A p x) : IsMat (M := 262144) (N := 1) (Term.T A) (RR.T p x) :=
  IsMat.addf (mm4_isMat h (H3_isMat h)) (bias4_isMat h)

/-! ## The second-order stream -/

theorem Q1_isMat (h : ArgsAre A p x) : IsMat (M := 262144) (N := 128) (Term.Q1 A) (RR.Q1 p x) :=
  IsMat.addf
    (IsMat.mulf (IsMat.mulf (G1_isMat lit2 RR.e0 lit2_e0 h) (P1_isMat lit0 RR.e0 lit0_e0 h))
      (IsMat.subf ones128_isMat (H1_isMat h)))
    (IsMat.mulf (IsMat.addf (G1_isMat lit2 RR.e0 lit2_e0 h) (IsMat.mulf (G1_isMat lit2 RR.e0 lit2_e0 h) (H1_isMat h)))
      (IsMat.hostNegf (P1_isMat lit0 RR.e0 lit0_e0 h)))

theorem S2_isMat (h : ArgsAre A p x) : IsMat (M := 262144) (N := 128) (Term.S2 A) (RR.S2 p x) :=
  mm2_isMat h (Q1_isMat h)

theorem Q2_isMat (h : ArgsAre A p x) : IsMat (M := 262144) (N := 128) (Term.Q2 A) (RR.Q2 p x) :=
  jv2_128_isMat (S2_isMat h) (G2_isMat lit2 RR.e0 lit2_e0 h) (H2_isMat h) (P2_isMat lit0 RR.e0 lit0_e0 h)

theorem S3_isMat (h : ArgsAre A p x) : IsMat (M := 262144) (N := 64) (Term.S3 A) (RR.S3 p x) :=
  mm3_isMat h (Q2_isMat h)

theorem Q3_isMat (h : ArgsAre A p x) : IsMat (M := 262144) (N := 64) (Term.Q3 A) (RR.Q3 p x) :=
  jv2_64_isMat (S3_isMat h) (G3_isMat lit2 RR.e0 lit2_e0 h) (H3_isMat h) (P3_isMat lit0 RR.e0 lit0_e0 h)

/-- The second derivative. -/
theorem DD_isMat (h : ArgsAre A p x) : IsMat (M := 262144) (N := 1) (Term.DD A) (RR.DD p x) :=
  mm4_isMat h (Q3_isMat h)

/-! ## The result -/

/-- A result column flattened and put back is the same column. -/
theorem col_isMat {v : FVec Ideal S262144x1 .f32} {a : Fin 262144 → Fin 1 → ℝ}
    (hv : IsMat (M := 262144) (N := 1) v a) : IsMat (M := 262144) (N := 1) (Term.col v) a :=
  IsMat.colRoundTrip _ _ hv

theorem out_isMat' (h : ArgsAre A p x) : IsMat (M := 262144) (N := 4) (Term.out A) (RR.out p x) :=
  isMat_concat4 _ (col_isMat (T_isMat h)) (col_isMat (D_isMat lit0 RR.e0 lit0_e0 h))
    (col_isMat (D_isMat lit1 RR.e1 lit1_e1 h)) (col_isMat (DD_isMat h))

end

/-- The reference's result term at real arguments is the reference's real function of them. -/
theorem out_isMat (A : Term.Args Ideal) (p : Params) (x : Fin 262144 → Fin 3 → ℝ)
    (h0 : IsMat (M := 262144) (N := 3) A.x x) (h1 : IsMat (M := 3) (N := 128) A.w1 p.w1) (h2 : IsVec (N := 128) A.b1 p.b1)
    (h3 : IsMat (M := 128) (N := 128) A.w2 p.w2) (h4 : IsVec (N := 128) A.b2 p.b2) (h5 : IsMat (M := 128) (N := 64) A.w3 p.w3)
    (h6 : IsVec (N := 64) A.b3 p.b3) (h7 : IsMat (M := 64) (N := 1) A.w4 p.w4) (h8 : IsVec (N := 1) A.b4 p.b4) :
    IsMat (M := 262144) (N := 4) (Term.out A) (RR.out p x) :=
  out_isMat' ⟨h0, h1, h2, h3, h4, h5, h6, h7, h8⟩

end Cert.ReferenceIdeal.Lift

end
-- ==== Proof.Finite.lean ====
/-
  The precondition, read: every entry of every argument array is a real number.

  The precondition is the conjunction, over the nine argument arrays, of "every entry's absolute value is below
  +infinity"; an extended real whose absolute value is below +infinity is neither infinity.
-/
import proofs.«130666_j46514495816298_1_alg».proof.Pre_finite_inputs
import proofs.«130666_j46514495816298_1_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs Cert.Pre_finite_inputs.Gen

/-- The rank-0 shape has one index. -/
instance subsingletonScalarIdx : Subsingleton S_.Idx := ⟨fun a b => funext fun d => d.elim0⟩

/-- An extended real whose absolute value max x (-x) is below +infinity is neither infinity:
    at +infinity the maximum is +infinity, and at -infinity the negation is +infinity. -/
theorem ne_top_bot_of_abs_lt_top (x : EReal) (h : max x (-x) < ⊤) : x ≠ ⊤ ∧ x ≠ ⊥ := by
  constructor
  · rintro rfl
    simp at h
  · rintro rfl
    simp at h

/-- One array of any shape: if the conjunction over all entries of |a i| < +infinity (the pattern 0x7F800000
    denotes +infinity) is 1, then no entry of a is infinite. -/
theorem finite_of_all {S : Shape} {axes : List (Fin S.rank)} (a : FVec Ideal S .f32)
    (hb : S_.BroadcastsInDim S (![] : Fin 0 → Fin S.rank)) (hr : S.ReducesTo axes S_) (hu : 0 < S_.numel)
    (init : IVec S_ 1) (j : S_.Idx)
    (e : Host.reduce IntOp.andi (cmpf .olt (Host.absf a) (broadcastInDim S ![] hb (constant S_ .f32 0x7F800000#32)))
      init hr hu j = 1#1) :
    ∀ i, a i ≠ ⊤ ∧ a i ≠ ⊥ := by
  intro i
  -- every entry of the compared array is 1
  have h1 := Host.reduce_andi_all _ _ hr hu _ e i
  have htop : Ideal.ofBits .f32 0x7F800000#32 = ⊤ := by simp [Ideal.ofBits, Ideal.ieee]
  -- the entry at i is the comparison max (a i) (-(a i)) < +infinity
  change Ideal.cmp .olt (max (a i : EReal) (-(a i : EReal))) (Ideal.ofBits .f32 0x7F800000#32) = 1#1 at h1
  rw [htop] at h1
  apply ne_top_bot_of_abs_lt_top
  by_contra hn
  simp [Ideal.cmp, hn] at h1

/-- If the precondition's predicate is all ones, no entry of any argument array is infinite. -/
theorem finite_of_pre (a0 : FVec Ideal S262144x3 .f32) (a1 : FVec Ideal S3x128 .f32) (a2 : FVec Ideal S128 .f32)
    (a3 : FVec Ideal S128x128 .f32) (a4 : FVec Ideal S128 .f32) (a5 : FVec Ideal S128x64 .f32) (a6 : FVec Ideal S64 .f32)
    (a7 : FVec Ideal S64x1 .f32) (a8 : FVec Ideal S1 .f32)
    (h : Cert.Pre_finite_inputs.fn (F := Ideal) a0 a1 a2 a3 a4 a5 a6 a7 a8 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) ∧ (∀ i, a6 i ≠ ⊤ ∧ a6 i ≠ ⊥) ∧ (∀ i, a7 i ≠ ⊤ ∧ a7 i ≠ ⊥)
      ∧ (∀ i, a8 i ≠ ⊤ ∧ a8 i ≠ ⊥) := by
  -- the predicate at its one index, with the chain of operations opened: a nine-fold conjunction
  have h0 := congrFun h ValueIdx.ix0
  dsimp only [Cert.Pre_finite_inputs.fn, fn_part1, fn_part2, andi] at h0
  simp only [IntOp.andi_eq_one] at h0
  obtain ⟨⟨⟨⟨⟨⟨⟨⟨e0, e1⟩, e2⟩, e3⟩, e4⟩, e5⟩, e6⟩, e7⟩, e8⟩ := h0
  exact ⟨finite_of_all a0 _ _ _ _ _ e0, finite_of_all a1 _ _ _ _ _ e1, finite_of_all a2 _ _ _ _ _ e2,
    finite_of_all a3 _ _ _ _ _ e3, finite_of_all a4 _ _ _ _ _ e4, finite_of_all a5 _ _ _ _ _ e5,
    finite_of_all a6 _ _ _ _ _ e6, finite_of_all a7 _ _ _ _ _ e7, finite_of_all a8 _ _ _ _ _ e8⟩

end Cert.Finite

end
-- ==== Proof.lean ====
/-
  The certificate: a tiny tanh network's value and three derivatives, computed by a Pallas kernel in closed form
  (hand-derived second-order forward-mode differentiation) against the same quantities computed by nested
  forward-mode differentiation on the host.

  Frames: the kernel's two frames are the generated ones; the reference's frame is its run, a straight line of 188
  host operations, with the result dropped.  `preserves` is trivial: the idealization rewrote nothing.

  The algebraic claim.  Under the precondition every argument entry is a real number, so the arguments are real
  matrices and vectors.  Every operation of either program keeps real matrices real and acts on them as the textbook
  real operation (a change of float format is the identity, a matrix product is the exact sum).  So the kernel's
  result array is the real matrix function `KR.out` of the real arguments (block by block, the blocks tiling the
  array, each row depending on its own row of x only), the reference's result is the real matrix function
  `RR.out`, and the two are equal because, over the reals, a tangent g pushed through tanh the reference's way,
  (g + g h)(1 - h), is the kernel's (1 - h²) g, and the derivative of the former is the kernel's
  -2 h (1 - h²) g² + (1 - h²) g'.
-/
import proofs.«130666_j46514495816298_1_alg».proof.Defs
import proofs.«130666_j46514495816298_1_alg».proof.Proof.Gen.Kernel
import proofs.«130666_j46514495816298_1_alg».proof.Proof.Gen.Kernel.Frame
import proofs.«130666_j46514495816298_1_alg».proof.Proof.Gen.KernelIdeal
import proofs.«130666_j46514495816298_1_alg».proof.Proof.Gen.KernelIdeal.Frame
import proofs.«130666_j46514495816298_1_alg».proof.Proof.Gen.ReferenceIdeal
import proofs.«130666_j46514495816298_1_alg».proof.Proof.Gen.Pre_finite_inputs
import proofs.«130666_j46514495816298_1_alg».proof.Proof.KernelArray
import proofs.«130666_j46514495816298_1_alg».proof.Proof.RefRun
import proofs.«130666_j46514495816298_1_alg».proof.Proof.RefLift
import proofs.«130666_j46514495816298_1_alg».proof.Proof.Finite
import Idealize.ShloMosaic.Adequacy
import Idealize.ShloMosaic.Init

noncomputable section

namespace Cert.Proof

open Idealize.ShloMosaic Idealize.ShloMosaic.ValueIdx Idealize.SL.Sem Cert.RealMat Cert.Spec

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- Both programs end with the real matrix function of the real arguments, and the two functions are one. -/
theorem algebraic : Cert.algebraic_KernelIdeal_ReferenceIdeal := by
  intro m ρ m' ρ' hpre hagree
  -- under the precondition no argument entry is infinite
  have hfin := fun c : Dev Cert.KernelIdeal.nD => Cert.Finite.finite_of_pre _ _ _ _ _ _ _ _ _ (hpre c)
  -- the arguments' real parts
  let x : Dev Cert.KernelIdeal.nD → Fin 262144 → Fin 3 → ℝ := fun c r j => ((m ((c.tc : Thread Cert.KernelIdeal.nD Cert.KernelIdeal.τ).loc Cert.KernelIdeal.main_arg0)) (ix2 r j)).toReal
  let p : Dev Cert.KernelIdeal.nD → Params := fun c =>
    { w1 := fun r j => ((m ((c.tc : Thread Cert.KernelIdeal.nD Cert.KernelIdeal.τ).loc Cert.KernelIdeal.main_arg1)) (ix2 r j)).toReal
      b1 := fun j => ((m ((c.tc : Thread Cert.KernelIdeal.nD Cert.KernelIdeal.τ).loc Cert.KernelIdeal.main_arg2)) (ix1 j)).toReal
      w2 := fun r j => ((m ((c.tc : Thread Cert.KernelIdeal.nD Cert.KernelIdeal.τ).loc Cert.KernelIdeal.main_arg3)) (ix2 r j)).toReal
      b2 := fun j => ((m ((c.tc : Thread Cert.KernelIdeal.nD Cert.KernelIdeal.τ).loc Cert.KernelIdeal.main_arg4)) (ix1 j)).toReal
      w3 := fun r j => ((m ((c.tc : Thread Cert.KernelIdeal.nD Cert.KernelIdeal.τ).loc Cert.KernelIdeal.main_arg5)) (ix2 r j)).toReal
      b3 := fun j => ((m ((c.tc : Thread Cert.KernelIdeal.nD Cert.KernelIdeal.τ).loc Cert.KernelIdeal.main_arg6)) (ix1 j)).toReal
      w4 := fun r j => ((m ((c.tc : Thread Cert.KernelIdeal.nD Cert.KernelIdeal.τ).loc Cert.KernelIdeal.main_arg7)) (ix2 r j)).toReal
      b4 := fun j => ((m ((c.tc : Thread Cert.KernelIdeal.nD Cert.KernelIdeal.τ).loc Cert.KernelIdeal.main_arg8)) (ix1 j)).toReal }
  have h0 : ∀ c : Dev Cert.KernelIdeal.nD, IsMat (M := 262144) (N := 3) (m ((c.tc : Thread Cert.KernelIdeal.nD Cert.KernelIdeal.τ).loc Cert.KernelIdeal.main_arg0)) (x c) := fun c => isMat_of_finite _ (hfin c).1
  have h1 : ∀ c : Dev Cert.KernelIdeal.nD, IsMat (M := 3) (N := 128) (m ((c.tc : Thread Cert.KernelIdeal.nD Cert.KernelIdeal.τ).loc Cert.KernelIdeal.main_arg1)) (p c).w1 := fun c => isMat_of_finite _ (hfin c).2.1
  have h2 : ∀ c : Dev Cert.KernelIdeal.nD, IsVec (N := 128) (m ((c.tc : Thread Cert.KernelIdeal.nD Cert.KernelIdeal.τ).loc Cert.KernelIdeal.main_arg2)) (p c).b1 := fun c => isVec_of_finite _ (hfin c).2.2.1
  have h3 : ∀ c : Dev Cert.KernelIdeal.nD, IsMat (M := 128) (N := 128) (m ((c.tc : Thread Cert.KernelIdeal.nD Cert.KernelIdeal.τ).loc Cert.KernelIdeal.main_arg3)) (p c).w2 := fun c => isMat_of_finite _ (hfin c).2.2.2.1
  have h4 : ∀ c : Dev Cert.KernelIdeal.nD, IsVec (N := 128) (m ((c.tc : Thread Cert.KernelIdeal.nD Cert.KernelIdeal.τ).loc Cert.KernelIdeal.main_arg4)) (p c).b2 := fun c => isVec_of_finite _ (hfin c).2.2.2.2.1
  have h5 : ∀ c : Dev Cert.KernelIdeal.nD, IsMat (M := 128) (N := 64) (m ((c.tc : Thread Cert.KernelIdeal.nD Cert.KernelIdeal.τ).loc Cert.KernelIdeal.main_arg5)) (p c).w3 := fun c => isMat_of_finite _ (hfin c).2.2.2.2.2.1
  have h6 : ∀ c : Dev Cert.KernelIdeal.nD, IsVec (N := 64) (m ((c.tc : Thread Cert.KernelIdeal.nD Cert.KernelIdeal.τ).loc Cert.KernelIdeal.main_arg6)) (p c).b3 := fun c => isVec_of_finite _ (hfin c).2.2.2.2.2.2.1
  have h7 : ∀ c : Dev Cert.KernelIdeal.nD, IsMat (M := 64) (N := 1) (m ((c.tc : Thread Cert.KernelIdeal.nD Cert.KernelIdeal.τ).loc Cert.KernelIdeal.main_arg7)) (p c).w4 := fun c => isMat_of_finite _ (hfin c).2.2.2.2.2.2.2.1
  have h8 : ∀ c : Dev Cert.KernelIdeal.nD, IsVec (N := 1) (m ((c.tc : Thread Cert.KernelIdeal.nD Cert.KernelIdeal.τ).loc Cert.KernelIdeal.main_arg8)) (p c).b4 := fun c => isVec_of_finite _ (hfin c).2.2.2.2.2.2.2.2
  refine ⟨fun c => ofMat (KR.out (p c) (x c)), Cert.KernelIdeal.Array.run m ρ p x h0 h1 h2 h3 h4 h5 h6 h7 h8, ?_⟩
  refine (θ_run Cert.ReferenceIdeal.defs _ _).mono (fun _ h c => ⟨(h c).1.trans ?_, (h c).2⟩)
    (Cert.ReferenceIdeal.Hand.run (F := Ideal) m' ρ')
  have e := hagree c
  show Cert.ReferenceIdeal.Term.out (F := Ideal) _ = ofMat (KR.out (p c) (x c))
  rw [kernel_eq_reference]
  refine (Cert.ReferenceIdeal.Lift.out_isMat (Cert.ReferenceIdeal.Hand.args m' c) (p c) (x c) ?_ ?_ ?_ ?_ ?_ ?_ ?_ ?_ ?_).eq_ofMat
  · show IsMat (M := 262144) (N := 3) (m' ((c.tc : Thread Cert.ReferenceIdeal.nD Cert.ReferenceIdeal.τ).loc Cert.ReferenceIdeal.main_arg0)) _; rw [e.1]; exact h0 c
  · show IsMat (M := 3) (N := 128) (m' ((c.tc : Thread Cert.ReferenceIdeal.nD Cert.ReferenceIdeal.τ).loc Cert.ReferenceIdeal.main_arg1)) _; rw [e.2.1]; exact h1 c
  · show IsVec (N := 128) (m' ((c.tc : Thread Cert.ReferenceIdeal.nD Cert.ReferenceIdeal.τ).loc Cert.ReferenceIdeal.main_arg2)) _; rw [e.2.2.1]; exact h2 c
  · show IsMat (M := 128) (N := 128) (m' ((c.tc : Thread Cert.ReferenceIdeal.nD Cert.ReferenceIdeal.τ).loc Cert.ReferenceIdeal.main_arg3)) _; rw [e.2.2.2.1]; exact h3 c
  · show IsVec (N := 128) (m' ((c.tc : Thread Cert.ReferenceIdeal.nD Cert.ReferenceIdeal.τ).loc Cert.ReferenceIdeal.main_arg4)) _; rw [e.2.2.2.2.1]; exact h4 c
  · show IsMat (M := 128) (N := 64) (m' ((c.tc : Thread Cert.ReferenceIdeal.nD Cert.ReferenceIdeal.τ).loc Cert.ReferenceIdeal.main_arg5)) _; rw [e.2.2.2.2.2.1]; exact h5 c
  · show IsVec (N := 64) (m' ((c.tc : Thread Cert.ReferenceIdeal.nD Cert.ReferenceIdeal.τ).loc Cert.ReferenceIdeal.main_arg6)) _; rw [e.2.2.2.2.2.2.1]; exact h6 c
  · show IsMat (M := 64) (N := 1) (m' ((c.tc : Thread Cert.ReferenceIdeal.nD Cert.ReferenceIdeal.τ).loc Cert.ReferenceIdeal.main_arg7)) _; rw [e.2.2.2.2.2.2.2.1]; exact h7 c
  · show IsVec (N := 1) (m' ((c.tc : Thread Cert.ReferenceIdeal.nD Cert.ReferenceIdeal.τ).loc Cert.ReferenceIdeal.main_arg8)) _; rw [e.2.2.2.2.2.2.2.2]; exact h8 c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
